-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S1024x64 : Shape := ⟨2, ![1024, 64]⟩
abbrev S1024x1024 : Shape := ⟨2, ![1024, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2x4096x1024 .f32) (main_arg1 : FVec F S1024x64 .f32) (main_arg2 : FVec F S1024x64 .f32) (main_arg3 : FVec F S1024x1024 .f32) (main_arg4 : FVec F S1024x1024 .f32) (main_arg5 : FVec F S1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S2x4096x1024 : Shape := ⟨3, ![2, 4096, 1024]⟩
abbrev S1024x64 : Shape := ⟨2, ![1024, 64]⟩
abbrev S1024x1024 : Shape := ⟨2, ![1024, 1024]⟩
abbrev S1024 : Shape := ⟨1, ![1024]⟩
abbrev S_ : Shape := ⟨0, ![]⟩
abbrev S1024x128 : Shape := ⟨2, ![1024, 128]⟩
abbrev S2x4096x128 : Shape := ⟨3, ![2, 4096, 128]⟩
abbrev S1x1024x1024 : Shape := ⟨3, ![1, 1024, 1024]⟩
abbrev S1x1024x128 : Shape := ⟨3, ![1, 1024, 128]⟩
abbrev S1x1024 : Shape := ⟨2, ![1, 1024]⟩
abbrev S1024x1 : Shape := ⟨2, ![1024, 1]⟩

abbrev nBuf : Space → Nat
  | .hbm => 21
  | .vmem => 24
  | .smem => 0
  | _ => 0

abbrev bufTy : (tb : Table) → Fin (tcTables nBuf tb) → BufTy
  | .hbm, ⟨0, _⟩ => ⟨S2x4096x1024, .f32⟩
  | .hbm, ⟨1, _⟩ => ⟨S1024x64, .f32⟩
  | .hbm, ⟨2, _⟩ => ⟨S1024x64, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x128, .bf16⟩
  | .hbm, ⟨14, _⟩ => ⟨S1024x1024, .bf16⟩
  | .hbm, ⟨15, _⟩ => ⟨S1024x1024, .bf16⟩
  | .hbm, ⟨16, _⟩ => ⟨S2x4096x128, .bf16⟩
  | .hbm, ⟨17, _⟩ => ⟨S2x4096x128, .bf16⟩
  | .hbm, ⟨18, _⟩ => ⟨S2x4096x1024, .bf16⟩
  | .hbm, ⟨19, _⟩ => ⟨S1x1024, .f32⟩
  | .hbm, ⟨20, _⟩ => ⟨S2x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x128, .bf16⟩
  | .local _ .vmem, ⟨3, _⟩ => ⟨S1024x128, .bf16⟩
  | .local _ .vmem, ⟨4, _⟩ => ⟨S1024x1024, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024x1024, .f32⟩
  | .local _ .vmem, ⟨20, _⟩ => ⟨S1x1024x1024, .f32⟩
  | .local _ .vmem, ⟨21, _⟩ => ⟨S1024x1, .f32⟩
  | .local _ .vmem, ⟨22, _⟩ => ⟨S1024x1, .f32⟩
  | .local _ .vmem, ⟨23, _⟩ => ⟨S1024x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![2, 4, 4], ![false, false, false]⟩

def k1_cond3 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_11 : BitVec 32 := 0#32
  let v15 : BitVec 1 := Scalar.cmpi .ne v14 c0_i32_11
  v15

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  pads_S1024x64_S1024x128_000_0640 : S1024x64.Pads (![0, 0] : Fin 2 → Nat) ![0, 64] ![0, 0] S1024x128
  h_S_ : 0 < S_.numel
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  shapeCasts_S1024_S1x1024 : S1024.ShapeCasts S1x1024
  reduces_S1024x1024_S1024 : S1024x1024.Reduces [1] S1024
  shapeCasts_S1024_S1024x1 : S1024.ShapeCasts S1024x1
  broadcasts_S1024x1_S1024x1024 : S1024x1.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x128_S1024x128_1_0_0_1_n_n_wf : DotDims.WF S1024x1024 S1024x128 S1024x128 [1] [0] [0] [1] [] []
  dot_S1024x1024_S1024x1024_S1024x1024_1_0_0_1_n_n_wf : DotDims.WF S1024x1024 S1024x1024 S1024x1024 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S2x4096x1024.size a
  hwx0_0 : ∀ i : grid0.Coords, EltTy.bits .f32 = 32 ∨ (Rect.block (s := S2x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S2x4096x128.size a
  hwx0_4 : ∀ i : grid0.Coords, EltTy.bits .bf16 = 32 ∨ (Rect.block (s := S2x4096x128) S1x1024x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S2x4096x128.size a
  hwx0_5 : ∀ i : grid0.Coords, EltTy.bits .bf16 = 32 ∨ (Rect.block (s := S2x4096x128) S1x1024x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1024.size a ≤ S2x4096x1024.size a
  hwx0_6 : ∀ i : grid0.Coords, EltTy.bits .bf16 = 32 ∨ (Rect.block (s := S2x4096x1024) S1x1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S2x4096x128.size a
  hwx1_0 : ∀ i : grid1.Coords, EltTy.bits .bf16 = 32 ∨ (Rect.block (s := S2x4096x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S2x4096x128.size a
  hwx1_1 : ∀ i : grid1.Coords, EltTy.bits .bf16 = 32 ∨ (Rect.block (s := S2x4096x128) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S2x4096x1024.size a
  hwx1_2 : ∀ i : grid1.Coords, EltTy.bits .bf16 = 32 ∨ (Rect.block (s := S2x4096x1024) S1x1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x1024.size a ≤ S2x4096x1024.size a
  hwx1_5 : ∀ i : grid1.Coords, EltTy.bits .f32 = 32 ∨ (Rect.block (s := S2x4096x1024) S1x1024x1024.size (cc1_transform_5 i) (hinb1_5 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x1024x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S1x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6_0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond3 i == 1#1) | ⟨_ + 6, h⟩ => absurd h (Nat.not_lt.2 (Nat.le_add_left _ _))

class Facts : Prop extends Facts₀ where

variable [Facts]
-- ==== ReferenceIdeal.lean ====
abbrev S2x4096x1024 : Shape := ⟨3, ![2, 4096, 1024]⟩
abbrev S1024x64 : Shape := ⟨2, ![1024, 64]⟩
abbrev S1024x1024 : Shape := ⟨2, ![1024, 1024]⟩
abbrev S1024 : Shape := ⟨1, ![1024]⟩
abbrev S2x4096x64 : Shape := ⟨3, ![2, 4096, 64]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024x64, .f32⟩
  | .hbm, ⟨2, _⟩ => ⟨S1024x64, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S2x4096x64, .f32⟩
  | .hbm, ⟨7, _⟩ => ⟨S2x4096x64, .f32⟩
  | .hbm, ⟨8, _⟩ => ⟨S2x4096x1024, .f32⟩
  | .hbm, ⟨9, _⟩ => ⟨S2x4096x4096, .f32⟩
  | .hbm, ⟨10, _⟩ => ⟨S_, .f32⟩
  | .hbm, ⟨11, _⟩ => ⟨S2x4096x4096, .f32⟩
  | .hbm, ⟨12, _⟩ => ⟨S2x4096x4096, .f32⟩
  | .hbm, ⟨13, _⟩ => ⟨S_, .f32⟩
  | .hbm, ⟨14, _⟩ => ⟨S2x4096, .f32⟩
  | .hbm, ⟨15, _⟩ => ⟨S_, .f32⟩
  | .hbm, ⟨16, _⟩ => ⟨S2x4096, .f32⟩
  | .hbm, ⟨17, _⟩ => ⟨S2x4096, .f32⟩
  | .hbm, ⟨18, _⟩ => ⟨S2x4096x1, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S_, .f32⟩
  | .hbm, ⟨23, _⟩ => ⟨S2x4096, .f32⟩
  | .hbm, ⟨24, _⟩ => ⟨S2x4096x1, .f32⟩
  | .hbm, ⟨25, _⟩ => ⟨S2x4096x4096, .f32⟩
  | .hbm, ⟨26, _⟩ => ⟨S2x4096x4096, .f32⟩
  | .hbm, ⟨27, _⟩ => ⟨S2x4096x1024, .f32⟩
  | .hbm, ⟨28, _⟩ => ⟨S2x4096x1024, .f32⟩
  | .hbm, ⟨29, _⟩ => ⟨S1x1x1024, .f32⟩
  | .hbm, ⟨30, _⟩ => ⟨S2x4096x1024, .f32⟩
  | .hbm, ⟨31, _⟩ => ⟨S2x4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S2x4096x4096 : S_.BroadcastsInDim S2x4096x4096 (![] : Fin 0 → Fin S2x4096x4096.rank)
  reducesTo_S2x4096x4096_S2x4096_d2 : S2x4096x4096.ReducesTo [2] S2x4096
  h_S_ : 0 < S_.numel
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x4096_0_1_2 : S2x4096x1.BroadcastsInDim S2x4096x4096 (![0, 1, 2] : Fin 3 → Fin S2x4096x4096.rank)
  bcast_S1024_S1x1x1024_2 : S1024.BroadcastsInDim S1x1x1024 (![2] : Fin 1 → Fin S1x1x1024.rank)
  bcast_S1x1x1024_S2x4096x1024_0_1_2 : S1x1x1024.BroadcastsInDim S2x4096x1024 (![0, 1, 2] : Fin 3 → Fin S2x4096x1024.rank)
  dot_S2x4096x1024_S1024x64_S2x4096x64_2_0_01_1_n_n_wf : DotDims.WF S2x4096x1024 S1024x64 S2x4096x64 [2] [0] [0, 1] [1] [] []
  dot_S2x4096x1024_S1024x1024_S2x4096x1024_2_0_01_1_n_n_wf : DotDims.WF S2x4096x1024 S1024x1024 S2x4096x1024 [2] [0] [0, 1] [1] [] []
  dot_S2x4096x64_S2x4096x64_S2x4096x4096_2_2_1_1_0_0_wf : DotDims.WF S2x4096x64 S2x4096x64 S2x4096x4096 [2] [2] [1] [1] [0] [0]
  dot_S2x4096x4096_S2x4096x1024_S2x4096x1024_2_1_1_2_0_0_wf : DotDims.WF S2x4096x4096 S2x4096x1024 S2x4096x1024 [2] [1] [1] [2] [0] [0]

variable [Facts₀]

def dot_S2x4096x1024_S1024x64_S2x4096x64_2_0_01_1_n_n : DotDims S2x4096x1024 S1024x64 S2x4096x64 where
  lhsContracting := [2]
  rhsContracting := [0]
  lhsNonContracting := [0, 1]
  rhsNonContracting := [1]
  lhsBatch := []
  rhsBatch := []
  wf := dot_S2x4096x1024_S1024x64_S2x4096x64_2_0_01_1_n_n_wf
def dot_S2x4096x1024_S1024x1024_S2x4096x1024_2_0_01_1_n_n : DotDims S2x4096x1024 S1024x1024 S2x4096x1024 where
  lhsContracting := [2]
  rhsContracting := [0]
  lhsNonContracting := [0, 1]
  rhsNonContracting := [1]
  lhsBatch := []
  rhsBatch := []
  wf := dot_S2x4096x1024_S1024x1024_S2x4096x1024_2_0_01_1_n_n_wf
def dot_S2x4096x64_S2x4096x64_S2x4096x4096_2_2_1_1_0_0 : DotDims S2x4096x64 S2x4096x64 S2x4096x4096 where
  lhsContracting := [2]
  rhsContracting := [2]
  lhsNonContracting := [1]
  rhsNonContracting := [1]
  lhsBatch := [0]
  rhsBatch := [0]
  wf := dot_S2x4096x64_S2x4096x64_S2x4096x4096_2_2_1_1_0_0_wf
def dot_S2x4096x4096_S2x4096x1024_S2x4096x1024_2_1_1_2_0_0 : DotDims S2x4096x4096 S2x4096x1024 S2x4096x1024 where
  lhsContracting := [2]
  rhsContracting := [1]
  lhsNonContracting := [1]
  rhsNonContracting := [2]
  lhsBatch := [0]
  rhsBatch := [0]
  wf := dot_S2x4096x4096_S2x4096x1024_S2x4096x1024_2_1_1_2_0_0_wf

class Facts : Prop extends Facts₀ where

variable [Facts]
-- ==== Proof.K.R0.lean ====
/-
  The first launch (the three projections): one grid point takes a block of the activations and the three
  weight matrices whole, and leaves the block's query, key and value projections.  The body reads its four
  input buffers whole, multiplies, rounds, and writes each of its three output buffers whole; so what it
  leaves in an output buffer is a closed function of the input blocks at the point, and what it finds in an
  input buffer is that window's block at the point, whether or not the transfer ran there (the weights are
  brought in once, at the first point, and stay).
-/
import proofs.«410308_j10230612099232_3_alg».proof.Proof.Gen.Kernel.Launch
import proofs.«410308_j10230612099232_3_alg».proof.Proof.Gen.Kernel.Skeleton
import proofs.«410308_j10230612099232_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the launch is entered
variable (V : (c : Dev nD) → (b : Ref sig .tc) → Buf (Elt F) ((c : Thread nD τ).loc b))

/-! ## The windows' blocks -/

/-- Window `w`'s block at point `t`, read off its array as the launch finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: where the transfer did not run the block
    index has not moved, and the buffer still holds the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1x1024x1024 := Rect.unit (s := S1x1024x1024) ![0, 0, 0] S1x1024x1024.size inb_S1x1024x1024_S1x1024x1024_0_0_0
abbrev r0_1 : Rect S1024x128 := Rect.unit (s := S1024x128) ![0, 0] S1024x128.size inb_S1024x128_S1024x128_0_0
abbrev r0_2 : Rect S1024x1024 := Rect.unit (s := S1024x1024) ![0, 0] S1024x1024.size inb_S1024x1024_S1024x1024_0_0
abbrev r0_3 : Rect S1x1024x128 := Rect.unit (s := S1x1024x128) ![0, 0, 0] S1x1024x128.size inb_S1x1024x128_S1x1024x128_0_0_0

/-! ## What the body leaves in each output window's buffer -/

/-- The query block's buffer after the body: its one store, of the scaled and rounded product of the rounded
    activations with the query weights. -/
def out0_4 (x0 : Vec F S1x1024x1024 .f32) (x1 : Vec F S1024x128 .bf16) : Vec F S1x1024x128 .bf16 :=
  View.canon [⟨r0_3, k0_pay2 (View.ld x0 r0_0) (View.ld x1 r0_1)⟩]

/-- The key block's buffer after the body: its one store, of the rounded product with the key weights. -/
def out0_5 (x0 : Vec F S1x1024x1024 .f32) (x2 : Vec F S1024x128 .bf16) : Vec F S1x1024x128 .bf16 :=
  View.canon [⟨r0_3, k0_pay3 (View.ld x0 r0_0) (View.ld x2 r0_1)⟩]

/-- The value block's buffer after the body: its one store, of the rounded product with the value weights. -/
def out0_6 (x0 : Vec F S1x1024x1024 .f32) (x3 : Vec F S1024x1024 .bf16) : Vec F S1x1024x1024 .bf16 :=
  View.canon [⟨r0_0, k0_pay4 (View.ld x0 r0_0) (View.ld x3 r0_2)⟩]

/-- A store of the whole buffer covers it. -/
theorem cover0_4 (p0 : Vec F S1x1024x128 .bf16) (y : S1x1024x128.Idx) :
    ∃ pc ∈ ([⟨r0_3, p0⟩] : List (View.Piece (Elt F) S1x1024x128 .bf16)), y ∈ pc.1.set :=
  View.cover_of_tiled [⟨r0_3, p0⟩] S1x1024x128.size (by rfl) y

theorem cover0_6 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-! ## The body's triple -/

set_option maxHeartbeats 1000000 in
/-- The body on whole staging memrefs, the inputs' at read contents `x0 … x3` and the outputs' at anything, runs to
    the continuation holding the inputs' as they were and each output's at `out0_W` of the inputs'. -/
theorem sound_kernel0 (c : Dev nD) (E : Set ℕ) (i : grid0.Coords) (arg2 : Memref sig .tc .vmem S1x1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1x1024x128 .bf16) (harg6 : arg6.IsWhole) (arg7 : Memref sig .tc .vmem S1x1024x128 .bf16) (harg7 : arg7.IsWhole) (arg8 : Memref sig .tc .vmem S1x1024x1024 .bf16) (harg8 : arg8.IsWhole)
    (x0 : Vec F S1x1024x1024 .f32) (x1 : Vec F S1024x128 .bf16) (x2 : Vec F S1024x128 .bf16) (x3 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2) ∗ owns (c : Thread nD τ) arg8 fullShare (out0_6 x0 x3)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_4 _)
  iexists _; isplitr
  swap; · iexact H6
  ipureintro
  exact View.read_writes_eq_canon _ _ _ (cover0_6 _)

/-! ## The pipeline's proof data -/

/-- The proof data of the first launch on core `c`: the arrays as the launch finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the contents at the launch's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end
end Cert.Kernel.Hand
end
-- ==== Proof.K.R1Defs.lean ====
/-
  The second launch (the streaming attention with its output projection): what its three control cases are stated
  over.  A grid point is (batch, query tile, key tile); the key tile is the innermost coordinate, so a point's
  position `t` has key tile `t % 4`.  The body's three conditionals ask: is this the first key tile (the running
  state is initialised), is it a later one (the running state is rescaled and extended), is it the last one (the
  quotient is taken, projected, and stored into the output block).
-/
import proofs.«410308_j10230612099232_3_alg».proof.Proof.Gen.Kernel.Launch
import proofs.«410308_j10230612099232_3_alg».proof.Proof.Gen.Kernel.Skeleton
import proofs.«410308_j10230612099232_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the launch is entered
variable (V : (c : Dev nD) → (b : Ref sig .tc) → Buf (Elt F) ((c : Thread nD τ).loc b))

/-! ## The windows' blocks -/

/-- Window `w`'s block at point `t`, read off its array as the launch finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions -/

/-- "This is the first key tile." -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is a later key tile." -/
abbrev cond1_1 (i : grid1.Coords) : Prop := (Scalar.cmpi .ne (Scalar.extui (Scalar.cmpi .sgt (BitVec.ofNat 32 (i 2).val) 0#32)) 0#32) = 1#1
theorem hcond1_1 : ∀ t : Fin cfg1.N, cond1_1 (grid1.coords t) ↔ ¬ t.val % 4 = 0 :=
  (by decide +kernel : ∀ t : Fin grid1.N, cond1_1 (grid1.coords t) ↔ ¬ t.val % 4 = 0)

/-- "This is the last key tile." -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Before the last key tile nothing is stored into the output block: the window is idle there and its block is not written back. -/
theorem idleAt1_5 : ∀ t : Fin cfg1.N, ¬cond1_2 (grid1.coords t) → cfg1.idle 5 (grid1.coords t) = true := by decide +kernel
theorem noFlush1_5 : ∀ t : Fin cfg1.N, ¬cond1_2 (grid1.coords t) → (cfg1.win 5).flush t = false := by decide +kernel
/-- At the last key tile the output block is stored. -/
theorem liveAt1_5 : ∀ t : Fin cfg1.N, cond1_2 (grid1.coords t) → cfg1.idle 5 (grid1.coords t) = false := by decide +kernel

/-! ## The staging and scratch memrefs -/

/-- One staging buffer of the output window, through which its contents are stated. -/
abbrev VO1_5 : View sig .tc .vmem S1x1024x1024 .f32 := (Memref.whole cc1_stg5_0 : Memref sig .tc .vmem S1x1024x1024 .f32).view
abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x1024 .f32 := win1_5.stage (cfg1.slots t 5)
abbrev hs1_5 (t : Fin cfg1.N) : (ms1_5 t).IsWhole := hstage1_5 ((cfg1.slots t 5).cast nbuf1_5)
/-- The three scratch buffers: the running maximum, the running sum of weights, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The other scoped buffers of the core (the first launch's staging buffers), each whole at some contents. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The launch's invariant before the first point: the other scoped buffers, the three scratch buffers at some
    contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.K.R1RunA.lean ====
/-
  The body of the second launch run once, in the case of the first key tile: the running state is initialised; nothing is stored into the output block, which is handed back untouched.
-/
import proofs.«410308_j10230612099232_3_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each scratch buffer, as pieces (last first), with the proof that on whole
    memrefs — the inputs' at their contents, the scratch buffers at anything — the body runs to the
    continuation holding the inputs as they were and each written buffer with its pieces written. -/
noncomputable def kernelRun1_A (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) :
    Σ' (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__fused_attn_outproj_kernel i arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__fused_attn_outproj_kernel_eq_skeleton]; unfold cc1__fused_attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.K.R1RunB.lean ====
/-
  The body of the second launch run once, in the case of a middle key tile: the running state, carried from the tile before, is rescaled and extended; nothing is stored into the output block.
-/
import proofs.«410308_j10230612099232_3_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each scratch buffer, as pieces (last first), with the proof that on whole
    memrefs — the inputs' at their contents, the scratch buffers at what the point before left — the body runs to the
    continuation holding the inputs as they were and each written buffer with its pieces written. -/
noncomputable def kernelRun1_B (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__fused_attn_outproj_kernel i arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__fused_attn_outproj_kernel_eq_skeleton]; unfold cc1__fused_attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.K.R1RunC.lean ====
/-
  The body of the second launch run once, in the case of the last key tile: the running state is rescaled and extended, then read back; the quotient is projected, the bias added, and the result stored into the output block.
-/
import proofs.«410308_j10230612099232_3_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each scratch buffer and in the output block, as pieces (last first), with the proof that on whole
    memrefs — the inputs' at their contents, the scratch buffers at what the point before left — the body runs to the
    continuation holding the inputs as they were and each written buffer with its pieces written. -/
noncomputable def kernelRun1_C (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) :
    Σ' (L5 : List (View.Piece (Elt F) S1x1024x1024 .f32)), Σ' (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__fused_attn_outproj_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__fused_attn_outproj_kernel_eq_skeleton]; unfold cc1__fused_attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.Kernel.Hand

end
-- ==== Proof.K.R1.lean ====
/-
  The second launch (the streaming attention with its output projection) as a pipeline with a running state
  carried between grid points: what the three scratch buffers (running maximum, running sum of weights, running
  weighted sum) hold after each point, by recursion on the point — initialised at a first key tile, rescaled and
  extended at every later one —, what the output block holds after a last key tile, the launch's invariant point
  by point, its proof data, and the body obligation at every point.
-/
import proofs.«410308_j10230612099232_3_alg».proof.Proof.K.R1RunA
import proofs.«410308_j10230612099232_3_alg».proof.Proof.K.R1RunB
import proofs.«410308_j10230612099232_3_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The pieces case A leaves in scratch buffer 0 tile it, so they cover it. -/
theorem scover1_A_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (y : S1024x1.Idx) :
    ∃ pc ∈ (kernelRun1_A c i arg3 harg3 arg4 harg4 arg5 harg5 arg6 harg6 arg7 harg7 arg8 harg8 arg9 harg9 arg10 harg10 arg11 harg11 hc0 hc1 hc2 x0 x1 x2 x3 x4).1, y ∈ pc.1.set :=
  View.cover_of_tiledL (kernelRun1_A c i arg3 harg3 arg4 harg4 arg5 harg5 arg6 harg6 arg7 harg7 arg8 harg8 arg9 harg9 arg10 harg10 arg11 harg11 hc0 hc1 hc2 x0 x1 x2 x3 x4).1 S1024x1.size (by sl_kernel_rfl) y

/-- What case A leaves in scratch buffer 0: its pieces read back. -/
def sout1_A_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) : Vec F S1024x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 hc2 x0 x1 x2 x3 x4).1)

/-- The pieces case A leaves in scratch buffer 1 tile it, so they cover it. -/
theorem scover1_A_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (y : S1024x1.Idx) :
    ∃ pc ∈ (kernelRun1_A c i arg3 harg3 arg4 harg4 arg5 harg5 arg6 harg6 arg7 harg7 arg8 harg8 arg9 harg9 arg10 harg10 arg11 harg11 hc0 hc1 hc2 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 hc0 hc1 hc2 x0 x1 x2 x3 x4).2.1 S1024x1.size (by sl_kernel_rfl) y

/-- What case A leaves in scratch buffer 1: its pieces read back. -/
def sout1_A_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 hc2 x0 x1 x2 x3 x4).2.1)

/-- The pieces case A leaves in scratch buffer 2 tile it, so they cover it. -/
theorem scover1_A_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (y : S1024x1024.Idx) :
    ∃ pc ∈ (kernelRun1_A c i arg3 harg3 arg4 harg4 arg5 harg5 arg6 harg6 arg7 harg7 arg8 harg8 arg9 harg9 arg10 harg10 arg11 harg11 hc0 hc1 hc2 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 hc0 hc1 hc2 x0 x1 x2 x3 x4).2.2.1 S1024x1024.size (by sl_kernel_rfl) y

/-- What case A leaves in scratch buffer 2: its pieces read back. -/
def sout1_A_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) : Vec F S1024x1024 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 hc2 x0 x1 x2 x3 x4).2.2.1)

/-- The pieces case B leaves in scratch buffer 0 tile it, so they cover it. -/
theorem scover1_B_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 hc0 hc1 hc2 x0 x1 x2 x3 x4 xs0 xs1 xs2).1, y ∈ pc.1.set :=
  View.cover_of_tiledL (kernelRun1_B c i arg3 harg3 arg4 harg4 arg5 harg5 arg6 harg6 arg7 harg7 arg8 harg8 arg9 harg9 arg10 harg10 arg11 harg11 hc0 hc1 hc2 x0 x1 x2 x3 x4 xs0 xs1 xs2).1 S1024x1.size (by sl_kernel_rfl) y

/-- What case B leaves in scratch buffer 0: its pieces read back. -/
def sout1_B_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 hc2 x0 x1 x2 x3 x4 xs0 xs1 xs2).1)

/-- The pieces case B leaves in scratch buffer 1 tile it, so they cover it. -/
theorem scover1_B_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 hc0 hc1 hc2 x0 x1 x2 x3 x4 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 hc0 hc1 hc2 x0 x1 x2 x3 x4 xs0 xs1 xs2).2.1 S1024x1.size (by sl_kernel_rfl) y

/-- What case B leaves in scratch buffer 1: its pieces read back. -/
def sout1_B_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 hc2 x0 x1 x2 x3 x4 xs0 xs1 xs2).2.1)

/-- The pieces case B leaves in scratch buffer 2 tile it, so they cover it. -/
theorem scover1_B_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 arg10 harg10 arg11 harg11 hc0 hc1 hc2 x0 x1 x2 x3 x4 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 hc0 hc1 hc2 x0 x1 x2 x3 x4 xs0 xs1 xs2).2.2.1 S1024x1024.size (by sl_kernel_rfl) y

/-- What case B leaves in scratch buffer 2: its pieces read back. -/
def sout1_B_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 hc2 x0 x1 x2 x3 x4 xs0 xs1 xs2).2.2.1)

/-- The pieces case C leaves in scratch buffer 0 tile it, so they cover it. -/
theorem scover1_C_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 arg10 harg10 arg11 harg11 hc0 hc1 hc2 x0 x1 x2 x3 x4 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 hc0 hc1 hc2 x0 x1 x2 x3 x4 xs0 xs1 xs2).2.1 S1024x1.size (by sl_kernel_rfl) y

/-- What case C leaves in scratch buffer 0: its pieces read back. -/
def sout1_C_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 hc2 x0 x1 x2 x3 x4 xs0 xs1 xs2).2.1)

/-- The pieces case C leaves in scratch buffer 1 tile it, so they cover it. -/
theorem scover1_C_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 arg10 harg10 arg11 harg11 hc0 hc1 hc2 x0 x1 x2 x3 x4 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 hc0 hc1 hc2 x0 x1 x2 x3 x4 xs0 xs1 xs2).2.2.1 S1024x1.size (by sl_kernel_rfl) y

/-- What case C leaves in scratch buffer 1: its pieces read back. -/
def sout1_C_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 hc2 x0 x1 x2 x3 x4 xs0 xs1 xs2).2.2.1)

/-- The pieces case C leaves in scratch buffer 2 tile it, so they cover it. -/
theorem scover1_C_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 arg10 harg10 arg11 harg11 hc0 hc1 hc2 x0 x1 x2 x3 x4 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 hc2 x0 x1 x2 x3 x4 xs0 xs1 xs2).2.2.2.1 S1024x1024.size (by sl_kernel_rfl) y

/-- What case C leaves in scratch buffer 2: its pieces read back. -/
def sout1_C_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 hc2 x0 x1 x2 x3 x4 xs0 xs1 xs2).2.2.2.1)

/-- The pieces the last-tile case leaves in the output block tile it, so they cover it. -/
theorem cover1_C_5 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 arg10 harg10 arg11 harg11 hc0 hc1 hc2 x0 x1 x2 x3 x4 xs0 xs1 xs2).1, y ∈ pc.1.set :=
  View.cover_of_tiledL (kernelRun1_C c i arg3 harg3 arg4 harg4 arg5 harg5 arg6 harg6 arg7 harg7 arg8 harg8 arg9 harg9 arg10 harg10 arg11 harg11 hc0 hc1 hc2 x0 x1 x2 x3 x4 xs0 xs1 xs2).1 S1x1024x1024.size (by sl_kernel_rfl) y

/-- What the last-tile case leaves in the output block: its pieces read back. -/
def out1_C_5 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) : Vec F S1x1024x1024 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 hc0 hc1 hc2 x0 x1 x2 x3 x4 xs0 xs1 xs2).1)

/-! ## Which case a point is in -/

theorem caseA_c1 (t : Fin cfg1.N) (h0 : t.val % 4 = 0) : ¬cond1_1 (grid1.coords t) := fun h => ((hcond1_1 t).mp h) h0
theorem caseA_c2 (t : Fin cfg1.N) (h0 : t.val % 4 = 0) : ¬cond1_2 (grid1.coords t) := fun h => by have := (hcond1_2 t).mp h; omega
theorem caseB_c0 (t : Fin cfg1.N) (h0 : ¬t.val % 4 = 0) : ¬cond1_0 (grid1.coords t) := fun h => h0 ((hcond1_0 t).mp h)
theorem caseB_c2 (t : Fin cfg1.N) (h3 : ¬t.val % 4 = 3) : ¬cond1_2 (grid1.coords t) := fun h => h3 ((hcond1_2 t).mp h)
theorem caseC_c0 (t : Fin cfg1.N) (h3 : t.val % 4 = 3) : ¬cond1_0 (grid1.coords t) := fun h => by have := (hcond1_0 t).mp h; omega
theorem caseC_c1 (t : Fin cfg1.N) (h3 : t.val % 4 = 3) : cond1_1 (grid1.coords t) := (hcond1_1 t).mpr (by omega)

section
variable (V : (c : Dev nD) → (b : Ref sig .tc) → Buf (Elt F) ((c : Thread nD τ).loc b))

/-! ## The running state after each point -/

/-- The scratch buffers after a first key tile: the state initialised from the point's blocks. -/
def scA (c : Dev nD) (t : Fin cfg1.N) (h0 : t.val % 4 = 0) : Vec F S1024x1 .f32 × Vec F S1024x1 .f32 × Vec F S1024x1024 .f32 :=
  (sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (caseA_c1 t h0) (caseA_c2 t h0) (iblk1 V c 0 t) (iblk1 V c 1 t) (iblk1 V c 2 t) (iblk1 V c 3 t) (iblk1 V c 4 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (caseA_c1 t h0) (caseA_c2 t h0) (iblk1 V c 0 t) (iblk1 V c 1 t) (iblk1 V c 2 t) (iblk1 V c 3 t) (iblk1 V c 4 t),
   sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (caseA_c1 t h0) (caseA_c2 t h0) (iblk1 V c 0 t) (iblk1 V c 1 t) (iblk1 V c 2 t) (iblk1 V c 3 t) (iblk1 V c 4 t))

/-- The scratch buffers after a middle key tile, over what the point before left. -/
def scB (c : Dev nD) (t : Fin cfg1.N) (h0 : ¬t.val % 4 = 0) (h3 : ¬t.val % 4 = 3) (p : Vec F S1024x1 .f32 × Vec F S1024x1 .f32 × Vec F S1024x1024 .f32) : Vec F S1024x1 .f32 × Vec F S1024x1 .f32 × Vec F S1024x1024 .f32 :=
  (sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (caseB_c0 t h0) ((hcond1_1 t).mpr h0) (caseB_c2 t h3) (iblk1 V c 0 t) (iblk1 V c 1 t) (iblk1 V c 2 t) (iblk1 V c 3 t) (iblk1 V c 4 t) p.1 p.2.1 p.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (caseB_c0 t h0) ((hcond1_1 t).mpr h0) (caseB_c2 t h3) (iblk1 V c 0 t) (iblk1 V c 1 t) (iblk1 V c 2 t) (iblk1 V c 3 t) (iblk1 V c 4 t) p.1 p.2.1 p.2.2,
   sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (caseB_c0 t h0) ((hcond1_1 t).mpr h0) (caseB_c2 t h3) (iblk1 V c 0 t) (iblk1 V c 1 t) (iblk1 V c 2 t) (iblk1 V c 3 t) (iblk1 V c 4 t) p.1 p.2.1 p.2.2)

/-- The scratch buffers after a last key tile, over what the point before left. -/
def scC (c : Dev nD) (t : Fin cfg1.N) (h3 : t.val % 4 = 3) (p : Vec F S1024x1 .f32 × Vec F S1024x1 .f32 × Vec F S1024x1024 .f32) : Vec F S1024x1 .f32 × Vec F S1024x1 .f32 × Vec F S1024x1024 .f32 :=
  (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (caseC_c0 t h3) (caseC_c1 t h3) ((hcond1_2 t).mpr h3) (iblk1 V c 0 t) (iblk1 V c 1 t) (iblk1 V c 2 t) (iblk1 V c 3 t) (iblk1 V c 4 t) p.1 p.2.1 p.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (caseC_c0 t h3) (caseC_c1 t h3) ((hcond1_2 t).mpr h3) (iblk1 V c 0 t) (iblk1 V c 1 t) (iblk1 V c 2 t) (iblk1 V c 3 t) (iblk1 V c 4 t) p.1 p.2.1 p.2.2,
   sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (caseC_c0 t h3) (caseC_c1 t h3) ((hcond1_2 t).mpr h3) (iblk1 V c 0 t) (iblk1 V c 1 t) (iblk1 V c 2 t) (iblk1 V c 3 t) (iblk1 V c 4 t) p.1 p.2.1 p.2.2)

/-- The output block after a last key tile, over what the point before left. -/
def outC (c : Dev nD) (t : Fin cfg1.N) (h3 : t.val % 4 = 3) (p : Vec F S1024x1 .f32 × Vec F S1024x1 .f32 × Vec F S1024x1024 .f32) : Vec F S1x1024x1024 .f32 :=
  out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (caseC_c0 t h3) (caseC_c1 t h3) ((hcond1_2 t).mpr h3) (iblk1 V c 0 t) (iblk1 V c 1 t) (iblk1 V c 2 t) (iblk1 V c 3 t) (iblk1 V c 4 t) p.1 p.2.1 p.2.2

/-- THE RECURRENCE: the three scratch buffers after the body at position `n`. -/
def scAt1 (c : Dev nD) : (n : ℕ) → n < cfg1.N → Vec F S1024x1 .f32 × Vec F S1024x1 .f32 × Vec F S1024x1024 .f32
  | 0, hn => scA V c ⟨0, hn⟩ (Nat.zero_mod _)
  | n + 1, hn =>
    if h0 : (n + 1) % 4 = 0 then scA V c ⟨n + 1, hn⟩ h0
    else if h3 : (n + 1) % 4 = 3 then scC V c ⟨n + 1, hn⟩ h3 (scAt1 c n (Nat.lt_of_succ_lt hn))
    else scB V c ⟨n + 1, hn⟩ h0 h3 (scAt1 c n (Nat.lt_of_succ_lt hn))

theorem scAt1_A (c : Dev nD) (t : Fin cfg1.N) (h0 : t.val % 4 = 0) : scAt1 V c t.val t.isLt = scA V c t h0 := by
  obtain ⟨n, hn⟩ := t
  cases n with
  | zero => exact rfl
  | succ n => exact (dif_pos h0).trans rfl

theorem scAt1_B (c : Dev nD) (t : Fin cfg1.N) (h0 : ¬t.val % 4 = 0) (h3 : ¬t.val % 4 = 3) :
    scAt1 V c t.val t.isLt = scB V c t h0 h3 (scAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

theorem scAt1_C (c : Dev nD) (t : Fin cfg1.N) (h3 : t.val % 4 = 3) :
    scAt1 V c t.val t.isLt = scC V c t h3 (scAt1 V c (t.val - 1) (Nat.lt_of_le_of_lt (Nat.sub_le _ _) t.isLt)) := by
  obtain ⟨n, hn⟩ := t
  cases n with
  | zero => exact (by exfalso; (try dsimp only at h3); omega)
  | succ n => exact (dif_neg (by (try dsimp only at h3); omega)).trans ((dif_pos h3).trans rfl)

/-- A placeholder for the output block at the points that store nothing into it (nothing consults it: the block is
    neither written back there nor read at the next point). -/
def junk5 : Vec F S1x1024x1024 .f32 := VO1_5.read (Elt F) (VO1_5.writes (Elt F) VO1_5.junk [])

/-- The output block after the body at point `t`. -/
def outAt1 (c : Dev nD) (t : Fin cfg1.N) : Vec F S1x1024x1024 .f32 :=
  if h3 : t.val % 4 = 3 then outC V c t h3 (scAt1 V c (t.val - 1) (Nat.lt_of_le_of_lt (Nat.sub_le _ _) t.isLt)) else junk5

theorem outAt1_C (c : Dev nD) (t : Fin cfg1.N) (h3 : t.val % 4 = 3) :
    outAt1 V c t = outC V c t h3 (scAt1 V c (t.val - 1) (Nat.lt_of_le_of_lt (Nat.sub_le _ _) t.isLt)) := dif_pos h3

/-! ## The invariant, point by point -/

/-- Before the first point the launch's own invariant (every scratch buffer at anything); afterwards the other scoped
    buffers at anything, the three scratch buffers at what the point before left, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (scAt1 V c n hn).1 ∗ owns (c : Thread nD τ) scM1_1 fullShare (scAt1 V c n hn).2.1 ∗ owns (c : Thread nD τ) scM1_2 fullShare (scAt1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (scAt1 V c n hn).1 ∗ owns (c : Thread nD τ) scM1_1 fullShare (scAt1 V c n hn).2.1 ∗ owns (c : Thread nD τ) scM1_2 fullShare (scAt1 V c n hn).2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (scAt1 V c (n - 1) (by omega)).1 ∗ owns (c : Thread nD τ) scM1_1 fullShare (scAt1 V c (n - 1) (by omega)).2.1 ∗ owns (c : Thread nD τ) scM1_2 fullShare (scAt1 V c (n - 1) (by omega)).2.2) ∗ (∃ r, prngReg c r)) := by
  cases n with
  | zero => exact absurd rfl hz
  | succ n => rfl

/-! ## The proof data -/

/-- The arrays as the launch finds them; after the body at point `t` each input's buffer at its block and the output's
    at `outAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5_C (c : Dev nD) (t : Fin cfg1.N) (h3 : t.val % 4 = 3) : (dat1 V c).leavesExact 5 t = owns (c : Thread nD τ) (ms1_5 t) fullShare (outAt1 V c t) := by
  unfold Dat.leavesExact; rw [liveAt1_5 t ((hcond1_2 t).mpr h3), after1_5]

set_option maxHeartbeats 8000000 in
/-- The body at any point: the inputs' memrefs hold their blocks; the point's position says which case it is in; the
    invariant hands the body the scratch buffers at what the point before left (at anything before the first point)
    and takes them back at this point's contents; the output block is handed back untouched except at a last key tile,
    where it is stored whole. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4]
  have hN : t.val < 32 := lt_of_lt_of_eq t.isLt (show cfg1.N = 32 from N_1)
  by_cases h0 : t.val % 4 = 0
  · rw [Dat.leavesExact_idle (dat1 V c) 5 t (idleAt1_5 t (caseA_c2 t h0)) (noFlush1_5 t (caseA_c2 t h0))]
    rw [scAt1_A V c t h0]
    unfold scA sout1_A_0 sout1_A_1 sout1_A_2; (try dsimp only)
    by_cases hz : t.val = 0
    · rw [PhiS_castSucc V c t, PhiS_zero V c _ _ hz, PhiA1_eq]
      iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) (caseA_c1 t h0) (caseA_c2 t h0) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR0 HR1 HR2 HR3 HR4 HR5 HR6 HR7 HR8 HR9 HR10 HS0 HS1 HS2 Hg]
      · isplitl [HR0 HR1 HR2 HR3 HR4 HR5 HR6 HR7 HR8 HR9 HR10 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) (caseA_c1 t h0) (caseA_c2 t h0) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HR0 HR1 HR2 HR3 HR4 HR5 HR6 HR7 HR8 HR9 HR10 HS0 HS1 HS2 Hg]
      · isplitl [HR0 HR1 HR2 HR3 HR4 HR5 HR6 HR7 HR8 HR9 HR10 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h3 : t.val % 4 = 3
    · rw [leaves1_5_C V c t h3, outAt1_C V c t h3]
      rw [scAt1_C V c t h3]
      unfold scC outC sout1_C_0 sout1_C_1 sout1_C_2 out1_C_5; (try dsimp only)
      have hz : t.val ≠ 0 := by omega
      rw [PhiS_castSucc V c t, PhiS_pos V c _ _ hz]
      iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ (caseC_c0 t h3) (caseC_c1 t h3) ((hcond1_2 t).mpr h3) (iblk1 V c 0 t) (iblk1 V c 1 t) (iblk1 V c 2 t) (iblk1 V c 3 t) (iblk1 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HR0 HR1 HR2 HR3 HR4 HR5 HR6 HR7 HR8 HR9 HR10 HS0 HS1 HS2 Hg]
      · isplitl [HR0 HR1 HR2 HR3 HR4 HR5 HR6 HR7 HR8 HR9 HR10 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _ _ _ _ _)
    · rw [Dat.leavesExact_idle (dat1 V c) 5 t (idleAt1_5 t (caseB_c2 t h3)) (noFlush1_5 t (caseB_c2 t h3))]
      rw [scAt1_B V c t h0 h3]
      unfold scB sout1_B_0 sout1_B_1 sout1_B_2; (try dsimp only)
      have hz : t.val ≠ 0 := by omega
      rw [PhiS_castSucc V c t, PhiS_pos V c _ _ hz]
      iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ (caseB_c0 t h0) ((hcond1_1 t).mpr h0) (caseB_c2 t h3) (iblk1 V c 0 t) (iblk1 V c 1 t) (iblk1 V c 2 t) (iblk1 V c 3 t) (iblk1 V c 4 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR0 HR1 HR2 HR3 HR4 HR5 HR6 HR7 HR8 HR9 HR10 HS0 HS1 HS2 Hg]
      · isplitl [HR0 HR1 HR2 HR3 HR4 HR5 HR6 HR7 HR8 HR9 HR10 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the launch's own back: the scratch buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨HR0, HR1, HR2, HR3, HR4, HR5, HR6, HR7, HR8, HR9, HR10, HS0, HS1, HS2⟩, Hg⟩
  isplitl [HR0 HR1 HR2 HR3 HR4 HR5 HR6 HR7 HR8 HR9 HR10 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HS0]; · iexists _; iexact HS0
    isplitl [HS1]; · iexists _; iexact HS1
    iexists _; iexact HS2
  iexact Hg

end

end Cert.Kernel.Hand

end
-- ==== Proof.K.Vals.lean ====
/-
  The buffer contents between the items of @main, on each core: what the first launch is entered from, what its
  write-backs leave (its three output arrays at the fold of their blocks, every other buffer as entered), what the second
  launch is entered from (one host reshape later) and what it leaves (the result array at the fold of its blocks).
-/
import proofs.«410308_j10230612099232_3_alg».proof.Proof.K.R0
import proofs.«410308_j10230612099232_3_alg».proof.Proof.K.R1
import proofs.«410308_j10230612099232_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents the first launch is entered from: the launch memory after the host operations before it. -/
abbrev Vr0 : (c : Dev nD) → (b : Ref sig .tc) → Buf (Elt F) ((c : Thread nD τ).loc b) := fun c b => Gen.V5 m c b

/-- After the first launch: its arrays at what the pipeline leaves, every other buffer as entered. -/
def W6 (c : Dev nD) : Valuation τ sig (Elt F) :=
  Pipeline.withArrays spec0 c (Gen.V5 m c) fun w => (dat0 (Vr0 m) c).arrAt w cfg0.N

/-- What the regions leave, first approximation: the first launch's. -/
def outsA : Gen.Outs (F := F) := fun _ r c => W6 m c r

/-- The contents the second launch is entered from. -/
abbrev Vr1 : (c : Dev nD) → (b : Ref sig .tc) → Buf (Elt F) ((c : Thread nD τ).loc b) := fun c b => Gen.V7 m (outsA m) c b

/-- After the second launch: its arrays at what the pipeline leaves, every other buffer as entered. -/
def W8 (c : Dev nD) : Valuation τ sig (Elt F) :=
  Pipeline.withArrays spec1 c (Gen.V7 m (outsA m) c) fun w => (dat1 (Vr1 m) c).arrAt w cfg1.N

/-- What the regions leave: after item 7 the second launch's, before that the first launch's. -/
def outsB : Gen.Outs (F := F) := fun n r c => if n = 8 then W8 m c r else W6 m c r

theorem V6_AB (c : Dev nD) : Gen.V6 m (outsB m) c = Gen.V6 m (outsA m) c := by
  rfl

theorem V7_AB (c : Dev nD) : Gen.V7 m (outsB m) c = Gen.V7 m (outsA m) c := by
  rfl

/-- The first launch's output arrays after it: the last update at the array is what the launch leaves there. -/
theorem V6B_v6_0 (c : Dev nD) : Gen.V6 m (outsB m) c main_v6_0 = W6 m c main_v6_0 := by
  simp only [Gen.V6, Function.update_of_ne (StableHlo.devRef_ne_of_ne (by decide : main_v6_0 ≠ main_v6_2) : (Proc.devRef .tc main_v6_0 : DevRef τ sig) ≠ Proc.devRef .tc main_v6_2),
    Function.update_of_ne (StableHlo.devRef_ne_of_ne (by decide : main_v6_0 ≠ main_v6_1) : (Proc.devRef .tc main_v6_0 : DevRef τ sig) ≠ Proc.devRef .tc main_v6_1), Function.update_self]
  rfl
theorem V6B_v6_1 (c : Dev nD) : Gen.V6 m (outsB m) c main_v6_1 = W6 m c main_v6_1 := by
  simp only [Gen.V6, Function.update_of_ne (StableHlo.devRef_ne_of_ne (by decide : main_v6_1 ≠ main_v6_2) : (Proc.devRef .tc main_v6_1 : DevRef τ sig) ≠ Proc.devRef .tc main_v6_2), Function.update_self]
  rfl
theorem V6B_v6_2 (c : Dev nD) : Gen.V6 m (outsB m) c main_v6_2 = W6 m c main_v6_2 := by
  simp only [Gen.V6, Function.update_self]
  rfl

/-- Each array of the first launch holds, after it, what the pipeline leaves. -/
theorem hF0 (c : Dev nD) (w : Fin cfg0.W) :
    (dat0 (Vr0 m) c).arrAt w cfg0.N = (fun b : Ref sig .tc => Gen.V6 m (outsB m) c b) (Pipeline.arrRef spec0 w) := by
  match w with
  | ⟨0, _⟩ => exact ((dat0 (Vr0 m) c).arrAt_in 0 rfl _).trans ((A_eq0 (Vr0 m) c 0).trans (Gen.V6_of m _ c main_arg0 (by decide)).symm)
  | ⟨1, _⟩ => exact ((dat0 (Vr0 m) c).arrAt_in 1 rfl _).trans ((A_eq0 (Vr0 m) c 1).trans (Gen.V6_of m _ c main_v2 (by decide)).symm)
  | ⟨2, _⟩ => exact ((dat0 (Vr0 m) c).arrAt_in 2 rfl _).trans ((A_eq0 (Vr0 m) c 2).trans (Gen.V6_of m _ c main_v3 (by decide)).symm)
  | ⟨3, _⟩ => exact ((dat0 (Vr0 m) c).arrAt_in 3 rfl _).trans ((A_eq0 (Vr0 m) c 3).trans (Gen.V6_of m _ c main_v4 (by decide)).symm)
  | ⟨4, _⟩ => exact ((V6B_v6_0 m c).trans (Pipeline.withArrays_arr spec0 launch0.win.arr_inj c _ _ 4)).symm
  | ⟨5, _⟩ => exact ((V6B_v6_1 m c).trans (Pipeline.withArrays_arr spec0 launch0.win.arr_inj c _ _ 5)).symm
  | ⟨6, _⟩ => exact ((V6B_v6_2 m c).trans (Pipeline.withArrays_arr spec0 launch0.win.arr_inj c _ _ 6)).symm

/-- Every other buffer holds what it held at the first launch's entry. -/
theorem hrest0 (c : Dev nD) : ∀ b : Ref sig .tc, b ∉ Finset.univ.image (Pipeline.arrRef spec0) →
    (fun b : Ref sig .tc => Gen.V6 m (outsB m) c b) b = Vr0 m c b := by
  intro b hb
  refine Gen.V6_of m _ c b fun h => ?_
  simp only [List.mem_cons, List.mem_nil_iff, or_false] at h
  rcases h with rfl | rfl | rfl
  · exact hb (Finset.mem_image.mpr ⟨4, Finset.mem_univ _, rfl⟩)
  · exact hb (Finset.mem_image.mpr ⟨5, Finset.mem_univ _, rfl⟩)
  · exact hb (Finset.mem_image.mpr ⟨6, Finset.mem_univ _, rfl⟩)

/-- The second launch's result array after it: the update there is what the launch leaves. -/
theorem V8B_v8 (c : Dev nD) : Gen.V8 m (outsB m) c main_v8 = W8 m c main_v8 := by
  simp only [Gen.V8, Function.update_self]
  rfl

/-- Each array of the second launch holds, after it, what the pipeline leaves. -/
theorem hF1 (c : Dev nD) (w : Fin cfg1.W) :
    (dat1 (Vr1 m) c).arrAt w cfg1.N = (fun b : Ref sig .tc => Gen.V8 m (outsB m) c b) (Pipeline.arrRef spec1 w) := by
  match w with
  | ⟨0, _⟩ => exact ((dat1 (Vr1 m) c).arrAt_in 0 rfl _).trans ((A_eq1 (Vr1 m) c 0).trans (((Gen.V8_of m (outsB m) c main_v6_0 (by decide)).trans (congrFun (V7_AB m c) _)).symm))
  | ⟨1, _⟩ => exact ((dat1 (Vr1 m) c).arrAt_in 1 rfl _).trans ((A_eq1 (Vr1 m) c 1).trans (((Gen.V8_of m (outsB m) c main_v6_1 (by decide)).trans (congrFun (V7_AB m c) _)).symm))
  | ⟨2, _⟩ => exact ((dat1 (Vr1 m) c).arrAt_in 2 rfl _).trans ((A_eq1 (Vr1 m) c 2).trans (((Gen.V8_of m (outsB m) c main_v6_2 (by decide)).trans (congrFun (V7_AB m c) _)).symm))
  | ⟨3, _⟩ => exact ((dat1 (Vr1 m) c).arrAt_in 3 rfl _).trans ((A_eq1 (Vr1 m) c 3).trans (((Gen.V8_of m (outsB m) c main_v5 (by decide)).trans (congrFun (V7_AB m c) _)).symm))
  | ⟨4, _⟩ => exact ((dat1 (Vr1 m) c).arrAt_in 4 rfl _).trans ((A_eq1 (Vr1 m) c 4).trans (((Gen.V8_of m (outsB m) c main_v7 (by decide)).trans (congrFun (V7_AB m c) _)).symm))
  | ⟨5, _⟩ => exact ((V8B_v8 m c).trans (Pipeline.withArrays_arr spec1 launch1.win.arr_inj c _ _ 5)).symm

/-- Every other buffer holds what it held at the second launch's entry. -/
theorem hrest1 (c : Dev nD) : ∀ b : Ref sig .tc, b ∉ Finset.univ.image (Pipeline.arrRef spec1) →
    (fun b : Ref sig .tc => Gen.V8 m (outsB m) c b) b = Vr1 m c b := by
  intro b hb
  refine (Gen.V8_of m _ c b fun h => ?_).trans (congrFun (V7_AB m c) _)
  simp only [List.mem_cons, List.mem_nil_iff, or_false] at h
  subst h
  exact hb (Finset.mem_image.mpr ⟨5, Finset.mem_univ _, rfl⟩)

/-- The result buffer after the last item is the fold of the second launch's output blocks. -/
theorem outsB_main_v8 (c : Dev nD) : outsB m 8 main_v8 c = (dat1 (Vr1 m) c).arrAt 5 cfg1.N := by
  exact (if_pos rfl).trans (Pipeline.withArrays_arr spec1 launch1.win.arr_inj c _ _ 5)

end Cert.Kernel.Hand

end
-- ==== Proof.K.Frame.lean ====
/-
  The kernel program as a whole: its two launches as segments of @main between the host operations, each
  entered from the buffer contents the items before it left and left at what its write-backs leave, and the run of the
  program: it terminates, the result buffer ends at what the second launch's write-backs leave in it, and the
  arguments end as launched.
-/
import proofs.«410308_j10230612099232_3_alg».proof.Proof.K.R0
import proofs.«410308_j10230612099232_3_alg».proof.Proof.K.R1
import proofs.«410308_j10230612099232_3_alg».proof.Proof.K.RunCond
import proofs.«410308_j10230612099232_3_alg».proof.Proof.K.Vals
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its launch's entry contents. -/
def pdats : (p : Fin 2) → (c : Dev nD) → Dat τ (Elt F) Unit ℕ (UR sig nD τ) ℕ (cfgs p) c
  | ⟨0, _⟩ => fun c => dat0 (Vr0 m) c
  | ⟨1, _⟩ => fun c => dat1 (Vr1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- The first launch over the thread state: its arrays split out of the unscoped buffers and put back at the exit
    contents; the generator register into the launch's invariant and out; nothing owed; no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (outsB m) c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr0 m c) (fun b => Gen.V6 m (outsB m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: as the first, with the invariant that carries the running state between
    points entered from, and giving back, the launch's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (Gen.V7 m (outsA m) c) ∗ R c)
  post c := iprop(StableHlo.held (c : Thread nD τ) (Pipeline.ucRefs τ sig) (Gen.V8 m (outsB m) c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vr1 m) c).Φ 0 from rfl]
    iintro ⟨Hp, -, Hr⟩
    iapply (hin1 (Vr1 m) c)
    unfold Pipeline.ΦA
    isplitl [Hr]; · iexact Hr
    iexact Hp
  hout c := by
    rw [Pipeline.ownSems0_none, show (pdats m 1 c).Φ (Fin.last _) = (dat1 (Vr1 m) c).Φ (Fin.last cfg1.N) from rfl]
    refine (hout1 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vr1 m c) (fun b => Gen.V8 m (outsB m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE RUN. From any memory with zero counters, every weakly fair execution of @main terminates, nothing faulting; the
    result buffer ends at what the second launch's write-backs leave in it and the arguments end as launched. -/
theorem run_main : θ_run defs (onTc (τ := τ) (main (F := F))) ⟨m, fun _ => 0, ρ⟩ (fun r => ∀ c : Dev nD,
      r.2.mem ((c.tc : Thread nD τ).loc main_v8) = outsB m 8 main_v8 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.run_cond m (Ix := Unit) (U := UR sig nD τ) (Lvl := ℕ) emb₁ () 𝒱₀ L lv (fun _ _ => rfl) ρ (outsB m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hcore : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄) ⊢ R c := fun c => by
        iintro ⟨-, HO, -, Hp, -⟩
        isplitl [Hp]; · iexists _; iexact Hp
        iexists ∅; iexact HO
      have hall := bigSep_mono (s := (Finset.univ : Finset (Dev nD))) fun c (_ : c ∈ (Finset.univ : Finset (Dev nD))) => hcore c
      have h1 : (iprop((bigSep (Finset.univ : Finset (Dev nD)) fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) ∗ levAts L lv) : sProp 𝕄)
          ⊢ (bigSep (Finset.univ : Finset (Dev nD)) fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) := by
        iintro ⟨H, -⟩; iexact H
      have h3 : (bigSep (Finset.univ : Finset (Dev nD)) (fun c : Dev nD => R (F := F) c) : sProp 𝕄) ⊢ (|={Set.univ}=> bigSep (Finset.univ : Finset (Dev nD)) (fun c : Dev nD => R (F := F) c)) := by
        iintro H; imodintro; iexact H
      exact h1.trans (hall.trans h3))
    (hE2 := fun c => by iintro ⟨-, H⟩; iexact H)
    (reg0 m) (fun c => .rfl) (fun c => .rfl)
    (reg1 m) (fun c => Entails.of_eq (by rw [V7_AB]; rfl)) (fun c => .rfl)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.Hand

end
-- ==== Proof.KI.R0.lean ====
/-
  The first launch (the three projections): one grid point takes a block of the activations and the three
  weight matrices whole, and leaves the block's query, key and value projections.  The body reads its four
  input buffers whole, multiplies, rounds, and writes each of its three output buffers whole; so what it
  leaves in an output buffer is a closed function of the input blocks at the point, and what it finds in an
  input buffer is that window's block at the point, whether or not the transfer ran there (the weights are
  brought in once, at the first point, and stay).
-/
import proofs.«410308_j10230612099232_3_alg».proof.Proof.Gen.KernelIdeal.Launch
import proofs.«410308_j10230612099232_3_alg».proof.Proof.Gen.KernelIdeal.Skeleton
import proofs.«410308_j10230612099232_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the launch is entered
variable (V : (c : Dev nD) → (b : Ref sig .tc) → Buf (Elt F) ((c : Thread nD τ).loc b))

/-! ## The windows' blocks -/

/-- Window `w`'s block at point `t`, read off its array as the launch finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: where the transfer did not run the block
    index has not moved, and the buffer still holds the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1x1024x1024 := Rect.unit (s := S1x1024x1024) ![0, 0, 0] S1x1024x1024.size inb_S1x1024x1024_S1x1024x1024_0_0_0
abbrev r0_1 : Rect S1024x128 := Rect.unit (s := S1024x128) ![0, 0] S1024x128.size inb_S1024x128_S1024x128_0_0
abbrev r0_2 : Rect S1024x1024 := Rect.unit (s := S1024x1024) ![0, 0] S1024x1024.size inb_S1024x1024_S1024x1024_0_0
abbrev r0_3 : Rect S1x1024x128 := Rect.unit (s := S1x1024x128) ![0, 0, 0] S1x1024x128.size inb_S1x1024x128_S1x1024x128_0_0_0

/-! ## What the body leaves in each output window's buffer -/

/-- The query block's buffer after the body: its one store, of the scaled and rounded product of the rounded
    activations with the query weights. -/
def out0_4 (x0 : Vec F S1x1024x1024 .f32) (x1 : Vec F S1024x128 .bf16) : Vec F S1x1024x128 .bf16 :=
  View.canon [⟨r0_3, k0_pay2 (View.ld x0 r0_0) (View.ld x1 r0_1)⟩]

/-- The key block's buffer after the body: its one store, of the rounded product with the key weights. -/
def out0_5 (x0 : Vec F S1x1024x1024 .f32) (x2 : Vec F S1024x128 .bf16) : Vec F S1x1024x128 .bf16 :=
  View.canon [⟨r0_3, k0_pay3 (View.ld x0 r0_0) (View.ld x2 r0_1)⟩]

/-- The value block's buffer after the body: its one store, of the rounded product with the value weights. -/
def out0_6 (x0 : Vec F S1x1024x1024 .f32) (x3 : Vec F S1024x1024 .bf16) : Vec F S1x1024x1024 .bf16 :=
  View.canon [⟨r0_0, k0_pay4 (View.ld x0 r0_0) (View.ld x3 r0_2)⟩]

/-- A store of the whole buffer covers it. -/
theorem cover0_4 (p0 : Vec F S1x1024x128 .bf16) (y : S1x1024x128.Idx) :
    ∃ pc ∈ ([⟨r0_3, p0⟩] : List (View.Piece (Elt F) S1x1024x128 .bf16)), y ∈ pc.1.set :=
  View.cover_of_tiled [⟨r0_3, p0⟩] S1x1024x128.size (by rfl) y

theorem cover0_6 (p0 : Vec F S1x1024x1024 .bf16) (y : S1x1024x1024.Idx) :
    ∃ pc ∈ ([⟨r0_0, p0⟩] : List (View.Piece (Elt F) S1x1024x1024 .bf16)), y ∈ pc.1.set :=
  View.cover_of_tiled [⟨r0_0, p0⟩] S1x1024x1024.size (by rfl) y

/-! ## The body's triple -/

set_option maxHeartbeats 1000000 in
/-- The body on whole staging memrefs, the inputs' at read contents `x0 … x3` and the outputs' at anything, runs to
    the continuation holding the inputs' as they were and each output's at `out0_W` of the inputs'. -/
theorem sound_kernel0 (c : Dev nD) (E : Set ℕ) (i : grid0.Coords) (arg2 : Memref sig .tc .vmem S1x1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1x1024x128 .bf16) (harg6 : arg6.IsWhole) (arg7 : Memref sig .tc .vmem S1x1024x128 .bf16) (harg7 : arg7.IsWhole) (arg8 : Memref sig .tc .vmem S1x1024x1024 .bf16) (harg8 : arg8.IsWhole)
    (x0 : Vec F S1x1024x1024 .f32) (x1 : Vec F S1024x128 .bf16) (x2 : Vec F S1024x128 .bf16) (x3 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2) ∗ owns (c : Thread nD τ) arg8 fullShare (out0_6 x0 x3)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_4 _)
  iexists _; isplitr
  swap; · iexact H6
  ipureintro
  exact View.read_writes_eq_canon _ _ _ (cover0_6 _)

/-! ## The pipeline's proof data -/

/-- The proof data of the first launch on core `c`: the arrays as the launch finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the contents at the launch's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end
end Cert.KernelIdeal.Hand
end
-- ==== Proof.KI.R1Defs.lean ====
/-
  The second launch (the streaming attention with its output projection): what its three control cases are stated
  over.  A grid point is (batch, query tile, key tile); the key tile is the innermost coordinate, so a point's
  position `t` has key tile `t % 4`.  The body's three conditionals ask: is this the first key tile (the running
  state is initialised), is it a later one (the running state is rescaled and extended), is it the last one (the
  quotient is taken, projected, and stored into the output block).
-/
import proofs.«410308_j10230612099232_3_alg».proof.Proof.Gen.KernelIdeal.Launch
import proofs.«410308_j10230612099232_3_alg».proof.Proof.Gen.KernelIdeal.Skeleton
import proofs.«410308_j10230612099232_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the launch is entered
variable (V : (c : Dev nD) → (b : Ref sig .tc) → Buf (Elt F) ((c : Thread nD τ).loc b))

/-! ## The windows' blocks -/

/-- Window `w`'s block at point `t`, read off its array as the launch finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's branch conditions -/

/-- "This is the first key tile." -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is a later key tile." -/
abbrev cond1_1 (i : grid1.Coords) : Prop := (Scalar.cmpi .ne (Scalar.extui (Scalar.cmpi .sgt (BitVec.ofNat 32 (i 2).val) 0#32)) 0#32) = 1#1
theorem hcond1_1 : ∀ t : Fin cfg1.N, cond1_1 (grid1.coords t) ↔ ¬ t.val % 4 = 0 :=
  (by decide +kernel : ∀ t : Fin grid1.N, cond1_1 (grid1.coords t) ↔ ¬ t.val % 4 = 0)

/-- "This is the last key tile." -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Before the last key tile nothing is stored into the output block: the window is idle there and its block is not written back. -/
theorem idleAt1_5 : ∀ t : Fin cfg1.N, ¬cond1_2 (grid1.coords t) → cfg1.idle 5 (grid1.coords t) = true := by decide +kernel
theorem noFlush1_5 : ∀ t : Fin cfg1.N, ¬cond1_2 (grid1.coords t) → (cfg1.win 5).flush t = false := by decide +kernel
/-- At the last key tile the output block is stored. -/
theorem liveAt1_5 : ∀ t : Fin cfg1.N, cond1_2 (grid1.coords t) → cfg1.idle 5 (grid1.coords t) = false := by decide +kernel

/-! ## The staging and scratch memrefs -/

/-- One staging buffer of the output window, through which its contents are stated. -/
abbrev VO1_5 : View sig .tc .vmem S1x1024x1024 .f32 := (Memref.whole cc1_stg5_0 : Memref sig .tc .vmem S1x1024x1024 .f32).view
abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x1024 .f32 := win1_5.stage (cfg1.slots t 5)
abbrev hs1_5 (t : Fin cfg1.N) : (ms1_5 t).IsWhole := hstage1_5 ((cfg1.slots t 5).cast nbuf1_5)
/-- The three scratch buffers: the running maximum, the running sum of weights, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The other scoped buffers of the core (the first launch's staging buffers), each whole at some contents. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The launch's invariant before the first point: the other scoped buffers, the three scratch buffers at some
    contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KI.R1RunA.lean ====
/-
  The body of the second launch run once, in the case of the first key tile: the running state is initialised; nothing is stored into the output block, which is handed back untouched.
-/
import proofs.«410308_j10230612099232_3_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each scratch buffer, as pieces (last first), with the proof that on whole
    memrefs — the inputs' at their contents, the scratch buffers at anything — the body runs to the
    continuation holding the inputs as they were and each written buffer with its pieces written. -/
noncomputable def kernelRun1_A (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) :
    Σ' (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__fused_attn_outproj_kernel i arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__fused_attn_outproj_kernel_eq_skeleton]; unfold cc1__fused_attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.KI.R1RunB.lean ====
/-
  The body of the second launch run once, in the case of a middle key tile: the running state, carried from the tile before, is rescaled and extended; nothing is stored into the output block.
-/
import proofs.«410308_j10230612099232_3_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each scratch buffer, as pieces (last first), with the proof that on whole
    memrefs — the inputs' at their contents, the scratch buffers at what the point before left — the body runs to the
    continuation holding the inputs as they were and each written buffer with its pieces written. -/
noncomputable def kernelRun1_B (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi5 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__fused_attn_outproj_kernel i arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__fused_attn_outproj_kernel_eq_skeleton]; unfold cc1__fused_attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1; obtain rfl := harg11.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.KI.R1RunC.lean ====
/-
  The body of the second launch run once, in the case of the last key tile: the running state is rescaled and extended, then read back; the quotient is projected, the bias added, and the result stored into the output block.
-/
import proofs.«410308_j10230612099232_3_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each scratch buffer and in the output block, as pieces (last first), with the proof that on whole
    memrefs — the inputs' at their contents, the scratch buffers at what the point before left — the body runs to the
    continuation holding the inputs as they were and each written buffer with its pieces written. -/
noncomputable def kernelRun1_C (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) :
    Σ' (L5 : List (View.Piece (Elt F) S1x1024x1024 .f32)), Σ' (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc1__fused_attn_outproj_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__fused_attn_outproj_kernel_eq_skeleton]; unfold cc1__fused_attn_outproj_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.KI.R1.lean ====
/-
  The second launch (the streaming attention with its output projection) as a pipeline with a running state
  carried between grid points: what the three scratch buffers (running maximum, running sum of weights, running
  weighted sum) hold after each point, by recursion on the point — initialised at a first key tile, rescaled and
  extended at every later one —, what the output block holds after a last key tile, the launch's invariant point
  by point, its proof data, and the body obligation at every point.
-/
import proofs.«410308_j10230612099232_3_alg».proof.Proof.KI.R1RunA
import proofs.«410308_j10230612099232_3_alg».proof.Proof.KI.R1RunB
import proofs.«410308_j10230612099232_3_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The pieces case A leaves in scratch buffer 0 tile it, so they cover it. -/
theorem scover1_A_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (y : S1024x1.Idx) :
    ∃ pc ∈ (kernelRun1_A c i arg3 harg3 arg4 harg4 arg5 harg5 arg6 harg6 arg7 harg7 arg8 harg8 arg9 harg9 arg10 harg10 arg11 harg11 hc0 hc1 hc2 x0 x1 x2 x3 x4).1, y ∈ pc.1.set :=
  View.cover_of_tiledL (kernelRun1_A c i arg3 harg3 arg4 harg4 arg5 harg5 arg6 harg6 arg7 harg7 arg8 harg8 arg9 harg9 arg10 harg10 arg11 harg11 hc0 hc1 hc2 x0 x1 x2 x3 x4).1 S1024x1.size (by sl_kernel_rfl) y

/-- What case A leaves in scratch buffer 0: its pieces read back. -/
def sout1_A_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) : Vec F S1024x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 hc2 x0 x1 x2 x3 x4).1)

/-- The pieces case A leaves in scratch buffer 1 tile it, so they cover it. -/
theorem scover1_A_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (y : S1024x1.Idx) :
    ∃ pc ∈ (kernelRun1_A c i arg3 harg3 arg4 harg4 arg5 harg5 arg6 harg6 arg7 harg7 arg8 harg8 arg9 harg9 arg10 harg10 arg11 harg11 hc0 hc1 hc2 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 hc0 hc1 hc2 x0 x1 x2 x3 x4).2.1 S1024x1.size (by sl_kernel_rfl) y

/-- What case A leaves in scratch buffer 1: its pieces read back. -/
def sout1_A_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 hc2 x0 x1 x2 x3 x4).2.1)

/-- The pieces case A leaves in scratch buffer 2 tile it, so they cover it. -/
theorem scover1_A_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (y : S1024x1024.Idx) :
    ∃ pc ∈ (kernelRun1_A c i arg3 harg3 arg4 harg4 arg5 harg5 arg6 harg6 arg7 harg7 arg8 harg8 arg9 harg9 arg10 harg10 arg11 harg11 hc0 hc1 hc2 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 hc0 hc1 hc2 x0 x1 x2 x3 x4).2.2.1 S1024x1024.size (by sl_kernel_rfl) y

/-- What case A leaves in scratch buffer 2: its pieces read back. -/
def sout1_A_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) : Vec F S1024x1024 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 hc2 x0 x1 x2 x3 x4).2.2.1)

/-- The pieces case B leaves in scratch buffer 0 tile it, so they cover it. -/
theorem scover1_B_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 hc0 hc1 hc2 x0 x1 x2 x3 x4 xs0 xs1 xs2).1, y ∈ pc.1.set :=
  View.cover_of_tiledL (kernelRun1_B c i arg3 harg3 arg4 harg4 arg5 harg5 arg6 harg6 arg7 harg7 arg8 harg8 arg9 harg9 arg10 harg10 arg11 harg11 hc0 hc1 hc2 x0 x1 x2 x3 x4 xs0 xs1 xs2).1 S1024x1.size (by sl_kernel_rfl) y

/-- What case B leaves in scratch buffer 0: its pieces read back. -/
def sout1_B_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 hc2 x0 x1 x2 x3 x4 xs0 xs1 xs2).1)

/-- The pieces case B leaves in scratch buffer 1 tile it, so they cover it. -/
theorem scover1_B_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 hc0 hc1 hc2 x0 x1 x2 x3 x4 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 hc0 hc1 hc2 x0 x1 x2 x3 x4 xs0 xs1 xs2).2.1 S1024x1.size (by sl_kernel_rfl) y

/-- What case B leaves in scratch buffer 1: its pieces read back. -/
def sout1_B_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 hc2 x0 x1 x2 x3 x4 xs0 xs1 xs2).2.1)

/-- The pieces case B leaves in scratch buffer 2 tile it, so they cover it. -/
theorem scover1_B_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 arg10 harg10 arg11 harg11 hc0 hc1 hc2 x0 x1 x2 x3 x4 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 hc0 hc1 hc2 x0 x1 x2 x3 x4 xs0 xs1 xs2).2.2.1 S1024x1024.size (by sl_kernel_rfl) y

/-- What case B leaves in scratch buffer 2: its pieces read back. -/
def sout1_B_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 hc2 x0 x1 x2 x3 x4 xs0 xs1 xs2).2.2.1)

/-- The pieces case C leaves in scratch buffer 0 tile it, so they cover it. -/
theorem scover1_C_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 arg10 harg10 arg11 harg11 hc0 hc1 hc2 x0 x1 x2 x3 x4 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 hc0 hc1 hc2 x0 x1 x2 x3 x4 xs0 xs1 xs2).2.1 S1024x1.size (by sl_kernel_rfl) y

/-- What case C leaves in scratch buffer 0: its pieces read back. -/
def sout1_C_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 hc2 x0 x1 x2 x3 x4 xs0 xs1 xs2).2.1)

/-- The pieces case C leaves in scratch buffer 1 tile it, so they cover it. -/
theorem scover1_C_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 arg10 harg10 arg11 harg11 hc0 hc1 hc2 x0 x1 x2 x3 x4 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 hc0 hc1 hc2 x0 x1 x2 x3 x4 xs0 xs1 xs2).2.2.1 S1024x1.size (by sl_kernel_rfl) y

/-- What case C leaves in scratch buffer 1: its pieces read back. -/
def sout1_C_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 hc2 x0 x1 x2 x3 x4 xs0 xs1 xs2).2.2.1)

/-- The pieces case C leaves in scratch buffer 2 tile it, so they cover it. -/
theorem scover1_C_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 arg10 harg10 arg11 harg11 hc0 hc1 hc2 x0 x1 x2 x3 x4 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 hc2 x0 x1 x2 x3 x4 xs0 xs1 xs2).2.2.2.1 S1024x1024.size (by sl_kernel_rfl) y

/-- What case C leaves in scratch buffer 2: its pieces read back. -/
def sout1_C_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 hc2 x0 x1 x2 x3 x4 xs0 xs1 xs2).2.2.2.1)

/-- The pieces the last-tile case leaves in the output block tile it, so they cover it. -/
theorem cover1_C_5 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 arg10 harg10 arg11 harg11 hc0 hc1 hc2 x0 x1 x2 x3 x4 xs0 xs1 xs2).1, y ∈ pc.1.set :=
  View.cover_of_tiledL (kernelRun1_C c i arg3 harg3 arg4 harg4 arg5 harg5 arg6 harg6 arg7 harg7 arg8 harg8 arg9 harg9 arg10 harg10 arg11 harg11 hc0 hc1 hc2 x0 x1 x2 x3 x4 xs0 xs1 xs2).1 S1x1024x1024.size (by sl_kernel_rfl) y

/-- What the last-tile case leaves in the output block: its pieces read back. -/
def out1_C_5 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) : Vec F S1x1024x1024 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 hc0 hc1 hc2 x0 x1 x2 x3 x4 xs0 xs1 xs2).1)

/-! ## Which case a point is in -/

theorem caseA_c1 (t : Fin cfg1.N) (h0 : t.val % 4 = 0) : ¬cond1_1 (grid1.coords t) := fun h => ((hcond1_1 t).mp h) h0
theorem caseA_c2 (t : Fin cfg1.N) (h0 : t.val % 4 = 0) : ¬cond1_2 (grid1.coords t) := fun h => by have := (hcond1_2 t).mp h; omega
theorem caseB_c0 (t : Fin cfg1.N) (h0 : ¬t.val % 4 = 0) : ¬cond1_0 (grid1.coords t) := fun h => h0 ((hcond1_0 t).mp h)
theorem caseB_c2 (t : Fin cfg1.N) (h3 : ¬t.val % 4 = 3) : ¬cond1_2 (grid1.coords t) := fun h => h3 ((hcond1_2 t).mp h)
theorem caseC_c0 (t : Fin cfg1.N) (h3 : t.val % 4 = 3) : ¬cond1_0 (grid1.coords t) := fun h => by have := (hcond1_0 t).mp h; omega
theorem caseC_c1 (t : Fin cfg1.N) (h3 : t.val % 4 = 3) : cond1_1 (grid1.coords t) := (hcond1_1 t).mpr (by omega)

section
variable (V : (c : Dev nD) → (b : Ref sig .tc) → Buf (Elt F) ((c : Thread nD τ).loc b))

/-! ## The running state after each point -/

/-- The scratch buffers after a first key tile: the state initialised from the point's blocks. -/
def scA (c : Dev nD) (t : Fin cfg1.N) (h0 : t.val % 4 = 0) : Vec F S1024x1 .f32 × Vec F S1024x1 .f32 × Vec F S1024x1024 .f32 :=
  (sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (caseA_c1 t h0) (caseA_c2 t h0) (iblk1 V c 0 t) (iblk1 V c 1 t) (iblk1 V c 2 t) (iblk1 V c 3 t) (iblk1 V c 4 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (caseA_c1 t h0) (caseA_c2 t h0) (iblk1 V c 0 t) (iblk1 V c 1 t) (iblk1 V c 2 t) (iblk1 V c 3 t) (iblk1 V c 4 t),
   sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (caseA_c1 t h0) (caseA_c2 t h0) (iblk1 V c 0 t) (iblk1 V c 1 t) (iblk1 V c 2 t) (iblk1 V c 3 t) (iblk1 V c 4 t))

/-- The scratch buffers after a middle key tile, over what the point before left. -/
def scB (c : Dev nD) (t : Fin cfg1.N) (h0 : ¬t.val % 4 = 0) (h3 : ¬t.val % 4 = 3) (p : Vec F S1024x1 .f32 × Vec F S1024x1 .f32 × Vec F S1024x1024 .f32) : Vec F S1024x1 .f32 × Vec F S1024x1 .f32 × Vec F S1024x1024 .f32 :=
  (sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (caseB_c0 t h0) ((hcond1_1 t).mpr h0) (caseB_c2 t h3) (iblk1 V c 0 t) (iblk1 V c 1 t) (iblk1 V c 2 t) (iblk1 V c 3 t) (iblk1 V c 4 t) p.1 p.2.1 p.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (caseB_c0 t h0) ((hcond1_1 t).mpr h0) (caseB_c2 t h3) (iblk1 V c 0 t) (iblk1 V c 1 t) (iblk1 V c 2 t) (iblk1 V c 3 t) (iblk1 V c 4 t) p.1 p.2.1 p.2.2,
   sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (caseB_c0 t h0) ((hcond1_1 t).mpr h0) (caseB_c2 t h3) (iblk1 V c 0 t) (iblk1 V c 1 t) (iblk1 V c 2 t) (iblk1 V c 3 t) (iblk1 V c 4 t) p.1 p.2.1 p.2.2)

/-- The scratch buffers after a last key tile, over what the point before left. -/
def scC (c : Dev nD) (t : Fin cfg1.N) (h3 : t.val % 4 = 3) (p : Vec F S1024x1 .f32 × Vec F S1024x1 .f32 × Vec F S1024x1024 .f32) : Vec F S1024x1 .f32 × Vec F S1024x1 .f32 × Vec F S1024x1024 .f32 :=
  (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (caseC_c0 t h3) (caseC_c1 t h3) ((hcond1_2 t).mpr h3) (iblk1 V c 0 t) (iblk1 V c 1 t) (iblk1 V c 2 t) (iblk1 V c 3 t) (iblk1 V c 4 t) p.1 p.2.1 p.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (caseC_c0 t h3) (caseC_c1 t h3) ((hcond1_2 t).mpr h3) (iblk1 V c 0 t) (iblk1 V c 1 t) (iblk1 V c 2 t) (iblk1 V c 3 t) (iblk1 V c 4 t) p.1 p.2.1 p.2.2,
   sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (caseC_c0 t h3) (caseC_c1 t h3) ((hcond1_2 t).mpr h3) (iblk1 V c 0 t) (iblk1 V c 1 t) (iblk1 V c 2 t) (iblk1 V c 3 t) (iblk1 V c 4 t) p.1 p.2.1 p.2.2)

/-- The output block after a last key tile, over what the point before left. -/
def outC (c : Dev nD) (t : Fin cfg1.N) (h3 : t.val % 4 = 3) (p : Vec F S1024x1 .f32 × Vec F S1024x1 .f32 × Vec F S1024x1024 .f32) : Vec F S1x1024x1024 .f32 :=
  out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (caseC_c0 t h3) (caseC_c1 t h3) ((hcond1_2 t).mpr h3) (iblk1 V c 0 t) (iblk1 V c 1 t) (iblk1 V c 2 t) (iblk1 V c 3 t) (iblk1 V c 4 t) p.1 p.2.1 p.2.2

/-- THE RECURRENCE: the three scratch buffers after the body at position `n`. -/
def scAt1 (c : Dev nD) : (n : ℕ) → n < cfg1.N → Vec F S1024x1 .f32 × Vec F S1024x1 .f32 × Vec F S1024x1024 .f32
  | 0, hn => scA V c ⟨0, hn⟩ (Nat.zero_mod _)
  | n + 1, hn =>
    if h0 : (n + 1) % 4 = 0 then scA V c ⟨n + 1, hn⟩ h0
    else if h3 : (n + 1) % 4 = 3 then scC V c ⟨n + 1, hn⟩ h3 (scAt1 c n (Nat.lt_of_succ_lt hn))
    else scB V c ⟨n + 1, hn⟩ h0 h3 (scAt1 c n (Nat.lt_of_succ_lt hn))

theorem scAt1_A (c : Dev nD) (t : Fin cfg1.N) (h0 : t.val % 4 = 0) : scAt1 V c t.val t.isLt = scA V c t h0 := by
  obtain ⟨n, hn⟩ := t
  cases n with
  | zero => exact rfl
  | succ n => exact (dif_pos h0).trans rfl

theorem scAt1_B (c : Dev nD) (t : Fin cfg1.N) (h0 : ¬t.val % 4 = 0) (h3 : ¬t.val % 4 = 3) :
    scAt1 V c t.val t.isLt = scB V c t h0 h3 (scAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

theorem scAt1_C (c : Dev nD) (t : Fin cfg1.N) (h3 : t.val % 4 = 3) :
    scAt1 V c t.val t.isLt = scC V c t h3 (scAt1 V c (t.val - 1) (Nat.lt_of_le_of_lt (Nat.sub_le _ _) t.isLt)) := by
  obtain ⟨n, hn⟩ := t
  cases n with
  | zero => exact (by exfalso; (try dsimp only at h3); omega)
  | succ n => exact (dif_neg (by (try dsimp only at h3); omega)).trans ((dif_pos h3).trans rfl)

/-- A placeholder for the output block at the points that store nothing into it (nothing consults it: the block is
    neither written back there nor read at the next point). -/
def junk5 : Vec F S1x1024x1024 .f32 := VO1_5.read (Elt F) (VO1_5.writes (Elt F) VO1_5.junk [])

/-- The output block after the body at point `t`. -/
def outAt1 (c : Dev nD) (t : Fin cfg1.N) : Vec F S1x1024x1024 .f32 :=
  if h3 : t.val % 4 = 3 then outC V c t h3 (scAt1 V c (t.val - 1) (Nat.lt_of_le_of_lt (Nat.sub_le _ _) t.isLt)) else junk5

theorem outAt1_C (c : Dev nD) (t : Fin cfg1.N) (h3 : t.val % 4 = 3) :
    outAt1 V c t = outC V c t h3 (scAt1 V c (t.val - 1) (Nat.lt_of_le_of_lt (Nat.sub_le _ _) t.isLt)) := dif_pos h3

/-! ## The invariant, point by point -/

/-- Before the first point the launch's own invariant (every scratch buffer at anything); afterwards the other scoped
    buffers at anything, the three scratch buffers at what the point before left, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (scAt1 V c n hn).1 ∗ owns (c : Thread nD τ) scM1_1 fullShare (scAt1 V c n hn).2.1 ∗ owns (c : Thread nD τ) scM1_2 fullShare (scAt1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (scAt1 V c n hn).1 ∗ owns (c : Thread nD τ) scM1_1 fullShare (scAt1 V c n hn).2.1 ∗ owns (c : Thread nD τ) scM1_2 fullShare (scAt1 V c n hn).2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (scAt1 V c (n - 1) (by omega)).1 ∗ owns (c : Thread nD τ) scM1_1 fullShare (scAt1 V c (n - 1) (by omega)).2.1 ∗ owns (c : Thread nD τ) scM1_2 fullShare (scAt1 V c (n - 1) (by omega)).2.2) ∗ (∃ r, prngReg c r)) := by
  cases n with
  | zero => exact absurd rfl hz
  | succ n => rfl

/-! ## The proof data -/

/-- The arrays as the launch finds them; after the body at point `t` each input's buffer at its block and the output's
    at `outAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5_C (c : Dev nD) (t : Fin cfg1.N) (h3 : t.val % 4 = 3) : (dat1 V c).leavesExact 5 t = owns (c : Thread nD τ) (ms1_5 t) fullShare (outAt1 V c t) := by
  unfold Dat.leavesExact; rw [liveAt1_5 t ((hcond1_2 t).mpr h3), after1_5]

set_option maxHeartbeats 8000000 in
/-- The body at any point: the inputs' memrefs hold their blocks; the point's position says which case it is in; the
    invariant hands the body the scratch buffers at what the point before left (at anything before the first point)
    and takes them back at this point's contents; the output block is handed back untouched except at a last key tile,
    where it is stored whole. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4]
  have hN : t.val < 32 := lt_of_lt_of_eq t.isLt (show cfg1.N = 32 from N_1)
  by_cases h0 : t.val % 4 = 0
  · rw [Dat.leavesExact_idle (dat1 V c) 5 t (idleAt1_5 t (caseA_c2 t h0)) (noFlush1_5 t (caseA_c2 t h0))]
    rw [scAt1_A V c t h0]
    unfold scA sout1_A_0 sout1_A_1 sout1_A_2; (try dsimp only)
    by_cases hz : t.val = 0
    · rw [PhiS_castSucc V c t, PhiS_zero V c _ _ hz, PhiA1_eq]
      iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) (caseA_c1 t h0) (caseA_c2 t h0) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR0 HR1 HR2 HR3 HR4 HR5 HR6 HR7 HR8 HR9 HR10 HS0 HS1 HS2 Hg]
      · isplitl [HR0 HR1 HR2 HR3 HR4 HR5 HR6 HR7 HR8 HR9 HR10 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) (caseA_c1 t h0) (caseA_c2 t h0) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HR0 HR1 HR2 HR3 HR4 HR5 HR6 HR7 HR8 HR9 HR10 HS0 HS1 HS2 Hg]
      · isplitl [HR0 HR1 HR2 HR3 HR4 HR5 HR6 HR7 HR8 HR9 HR10 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _)
          unfold owns; iexists _; isplitr
          swap; · iexact HS2
          ipureintro; exact View.read_writes_of_cover _ _ _ _ _ (scover1_A_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h3 : t.val % 4 = 3
    · rw [leaves1_5_C V c t h3, outAt1_C V c t h3]
      rw [scAt1_C V c t h3]
      unfold scC outC sout1_C_0 sout1_C_1 sout1_C_2 out1_C_5; (try dsimp only)
      have hz : t.val ≠ 0 := by omega
      rw [PhiS_castSucc V c t, PhiS_pos V c _ _ hz]
      iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ (caseC_c0 t h3) (caseC_c1 t h3) ((hcond1_2 t).mpr h3) (iblk1 V c 0 t) (iblk1 V c 1 t) (iblk1 V c 2 t) (iblk1 V c 3 t) (iblk1 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HR0 HR1 HR2 HR3 HR4 HR5 HR6 HR7 HR8 HR9 HR10 HS0 HS1 HS2 Hg]
      · isplitl [HR0 HR1 HR2 HR3 HR4 HR5 HR6 HR7 HR8 HR9 HR10 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _ _ _ _ _)
    · rw [Dat.leavesExact_idle (dat1 V c) 5 t (idleAt1_5 t (caseB_c2 t h3)) (noFlush1_5 t (caseB_c2 t h3))]
      rw [scAt1_B V c t h0 h3]
      unfold scB sout1_B_0 sout1_B_1 sout1_B_2; (try dsimp only)
      have hz : t.val ≠ 0 := by omega
      rw [PhiS_castSucc V c t, PhiS_pos V c _ _ hz]
      iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ (caseB_c0 t h0) ((hcond1_1 t).mpr h0) (caseB_c2 t h3) (iblk1 V c 0 t) (iblk1 V c 1 t) (iblk1 V c 2 t) (iblk1 V c 3 t) (iblk1 V c 4 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR0 HR1 HR2 HR3 HR4 HR5 HR6 HR7 HR8 HR9 HR10 HS0 HS1 HS2 Hg]
      · isplitl [HR0 HR1 HR2 HR3 HR4 HR5 HR6 HR7 HR8 HR9 HR10 HS0 HS1 HS2]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the launch's own back: the scratch buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨HR0, HR1, HR2, HR3, HR4, HR5, HR6, HR7, HR8, HR9, HR10, HS0, HS1, HS2⟩, Hg⟩
  isplitl [HR0 HR1 HR2 HR3 HR4 HR5 HR6 HR7 HR8 HR9 HR10 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HS0]; · iexists _; iexact HS0
    isplitl [HS1]; · iexists _; iexact HS1
    iexists _; iexact HS2
  iexact Hg

end

end Cert.KernelIdeal.Hand

end
-- ==== Proof.KI.Vals.lean ====
/-
  The buffer contents between the items of @main, on each core: what the first launch is entered from, what its
  write-backs leave (its three output arrays at the fold of their blocks, every other buffer as entered), what the second
  launch is entered from (one host reshape later) and what it leaves (the result array at the fold of its blocks).
-/
import proofs.«410308_j10230612099232_3_alg».proof.Proof.KI.R0
import proofs.«410308_j10230612099232_3_alg».proof.Proof.KI.R1
import proofs.«410308_j10230612099232_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents the first launch is entered from: the launch memory after the host operations before it. -/
abbrev Vr0 : (c : Dev nD) → (b : Ref sig .tc) → Buf (Elt F) ((c : Thread nD τ).loc b) := fun c b => Gen.V5 m c b

/-- After the first launch: its arrays at what the pipeline leaves, every other buffer as entered. -/
def W6 (c : Dev nD) : Valuation τ sig (Elt F) :=
  Pipeline.withArrays spec0 c (Gen.V5 m c) fun w => (dat0 (Vr0 m) c).arrAt w cfg0.N

/-- What the regions leave, first approximation: the first launch's. -/
def outsA : Gen.Outs (F := F) := fun _ r c => W6 m c r

/-- The contents the second launch is entered from. -/
abbrev Vr1 : (c : Dev nD) → (b : Ref sig .tc) → Buf (Elt F) ((c : Thread nD τ).loc b) := fun c b => Gen.V7 m (outsA m) c b

/-- After the second launch: its arrays at what the pipeline leaves, every other buffer as entered. -/
def W8 (c : Dev nD) : Valuation τ sig (Elt F) :=
  Pipeline.withArrays spec1 c (Gen.V7 m (outsA m) c) fun w => (dat1 (Vr1 m) c).arrAt w cfg1.N

/-- What the regions leave: after item 7 the second launch's, before that the first launch's. -/
def outsB : Gen.Outs (F := F) := fun n r c => if n = 8 then W8 m c r else W6 m c r

theorem V6_AB (c : Dev nD) : Gen.V6 m (outsB m) c = Gen.V6 m (outsA m) c := by
  rfl

theorem V7_AB (c : Dev nD) : Gen.V7 m (outsB m) c = Gen.V7 m (outsA m) c := by
  rfl

/-- The first launch's output arrays after it: the last update at the array is what the launch leaves there. -/
theorem V6B_v6_0 (c : Dev nD) : Gen.V6 m (outsB m) c main_v6_0 = W6 m c main_v6_0 := by
  simp only [Gen.V6, Function.update_of_ne (StableHlo.devRef_ne_of_ne (by decide : main_v6_0 ≠ main_v6_2) : (Proc.devRef .tc main_v6_0 : DevRef τ sig) ≠ Proc.devRef .tc main_v6_2),
    Function.update_of_ne (StableHlo.devRef_ne_of_ne (by decide : main_v6_0 ≠ main_v6_1) : (Proc.devRef .tc main_v6_0 : DevRef τ sig) ≠ Proc.devRef .tc main_v6_1), Function.update_self]
  rfl
theorem V6B_v6_1 (c : Dev nD) : Gen.V6 m (outsB m) c main_v6_1 = W6 m c main_v6_1 := by
  simp only [Gen.V6, Function.update_of_ne (StableHlo.devRef_ne_of_ne (by decide : main_v6_1 ≠ main_v6_2) : (Proc.devRef .tc main_v6_1 : DevRef τ sig) ≠ Proc.devRef .tc main_v6_2), Function.update_self]
  rfl
theorem V6B_v6_2 (c : Dev nD) : Gen.V6 m (outsB m) c main_v6_2 = W6 m c main_v6_2 := by
  simp only [Gen.V6, Function.update_self]
  rfl

/-- Each array of the first launch holds, after it, what the pipeline leaves. -/
theorem hF0 (c : Dev nD) (w : Fin cfg0.W) :
    (dat0 (Vr0 m) c).arrAt w cfg0.N = (fun b : Ref sig .tc => Gen.V6 m (outsB m) c b) (Pipeline.arrRef spec0 w) := by
  match w with
  | ⟨0, _⟩ => exact ((dat0 (Vr0 m) c).arrAt_in 0 rfl _).trans ((A_eq0 (Vr0 m) c 0).trans (Gen.V6_of m _ c main_arg0 (by decide)).symm)
  | ⟨1, _⟩ => exact ((dat0 (Vr0 m) c).arrAt_in 1 rfl _).trans ((A_eq0 (Vr0 m) c 1).trans (Gen.V6_of m _ c main_v2 (by decide)).symm)
  | ⟨2, _⟩ => exact ((dat0 (Vr0 m) c).arrAt_in 2 rfl _).trans ((A_eq0 (Vr0 m) c 2).trans (Gen.V6_of m _ c main_v3 (by decide)).symm)
  | ⟨3, _⟩ => exact ((dat0 (Vr0 m) c).arrAt_in 3 rfl _).trans ((A_eq0 (Vr0 m) c 3).trans (Gen.V6_of m _ c main_v4 (by decide)).symm)
  | ⟨4, _⟩ => exact ((V6B_v6_0 m c).trans (Pipeline.withArrays_arr spec0 launch0.win.arr_inj c _ _ 4)).symm
  | ⟨5, _⟩ => exact ((V6B_v6_1 m c).trans (Pipeline.withArrays_arr spec0 launch0.win.arr_inj c _ _ 5)).symm
  | ⟨6, _⟩ => exact ((V6B_v6_2 m c).trans (Pipeline.withArrays_arr spec0 launch0.win.arr_inj c _ _ 6)).symm

/-- Every other buffer holds what it held at the first launch's entry. -/
theorem hrest0 (c : Dev nD) : ∀ b : Ref sig .tc, b ∉ Finset.univ.image (Pipeline.arrRef spec0) →
    (fun b : Ref sig .tc => Gen.V6 m (outsB m) c b) b = Vr0 m c b := by
  intro b hb
  refine Gen.V6_of m _ c b fun h => ?_
  simp only [List.mem_cons, List.mem_nil_iff, or_false] at h
  rcases h with rfl | rfl | rfl
  · exact hb (Finset.mem_image.mpr ⟨4, Finset.mem_univ _, rfl⟩)
  · exact hb (Finset.mem_image.mpr ⟨5, Finset.mem_univ _, rfl⟩)
  · exact hb (Finset.mem_image.mpr ⟨6, Finset.mem_univ _, rfl⟩)

/-- The second launch's result array after it: the update there is what the launch leaves. -/
theorem V8B_v8 (c : Dev nD) : Gen.V8 m (outsB m) c main_v8 = W8 m c main_v8 := by
  simp only [Gen.V8, Function.update_self]
  rfl

/-- Each array of the second launch holds, after it, what the pipeline leaves. -/
theorem hF1 (c : Dev nD) (w : Fin cfg1.W) :
    (dat1 (Vr1 m) c).arrAt w cfg1.N = (fun b : Ref sig .tc => Gen.V8 m (outsB m) c b) (Pipeline.arrRef spec1 w) := by
  match w with
  | ⟨0, _⟩ => exact ((dat1 (Vr1 m) c).arrAt_in 0 rfl _).trans ((A_eq1 (Vr1 m) c 0).trans (((Gen.V8_of m (outsB m) c main_v6_0 (by decide)).trans (congrFun (V7_AB m c) _)).symm))
  | ⟨1, _⟩ => exact ((dat1 (Vr1 m) c).arrAt_in 1 rfl _).trans ((A_eq1 (Vr1 m) c 1).trans (((Gen.V8_of m (outsB m) c main_v6_1 (by decide)).trans (congrFun (V7_AB m c) _)).symm))
  | ⟨2, _⟩ => exact ((dat1 (Vr1 m) c).arrAt_in 2 rfl _).trans ((A_eq1 (Vr1 m) c 2).trans (((Gen.V8_of m (outsB m) c main_v6_2 (by decide)).trans (congrFun (V7_AB m c) _)).symm))
  | ⟨3, _⟩ => exact ((dat1 (Vr1 m) c).arrAt_in 3 rfl _).trans ((A_eq1 (Vr1 m) c 3).trans (((Gen.V8_of m (outsB m) c main_v5 (by decide)).trans (congrFun (V7_AB m c) _)).symm))
  | ⟨4, _⟩ => exact ((dat1 (Vr1 m) c).arrAt_in 4 rfl _).trans ((A_eq1 (Vr1 m) c 4).trans (((Gen.V8_of m (outsB m) c main_v7 (by decide)).trans (congrFun (V7_AB m c) _)).symm))
  | ⟨5, _⟩ => exact ((V8B_v8 m c).trans (Pipeline.withArrays_arr spec1 launch1.win.arr_inj c _ _ 5)).symm

/-- Every other buffer holds what it held at the second launch's entry. -/
theorem hrest1 (c : Dev nD) : ∀ b : Ref sig .tc, b ∉ Finset.univ.image (Pipeline.arrRef spec1) →
    (fun b : Ref sig .tc => Gen.V8 m (outsB m) c b) b = Vr1 m c b := by
  intro b hb
  refine (Gen.V8_of m _ c b fun h => ?_).trans (congrFun (V7_AB m c) _)
  simp only [List.mem_cons, List.mem_nil_iff, or_false] at h
  subst h
  exact hb (Finset.mem_image.mpr ⟨5, Finset.mem_univ _, rfl⟩)

/-- The result buffer after the last item is the fold of the second launch's output blocks. -/
theorem outsB_main_v8 (c : Dev nD) : outsB m 8 main_v8 c = (dat1 (Vr1 m) c).arrAt 5 cfg1.N := by
  exact (if_pos rfl).trans (Pipeline.withArrays_arr spec1 launch1.win.arr_inj c _ _ 5)

end Cert.KernelIdeal.Hand

end
-- ==== Proof.KI.Frame.lean ====
/-
  The idealized kernel program as a whole: its two launches as segments of @main between the host operations, each
  entered from the buffer contents the items before it left and left at what its write-backs leave, and the run of the
  program: it terminates, the result buffer ends at what the second launch's write-backs leave in it, and the
  arguments end as launched.
-/
import proofs.«410308_j10230612099232_3_alg».proof.Proof.KI.R0
import proofs.«410308_j10230612099232_3_alg».proof.Proof.KI.R1
import proofs.«410308_j10230612099232_3_alg».proof.Proof.KI.RunCond
import proofs.«410308_j10230612099232_3_alg».proof.Proof.KI.Vals
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its launch's entry contents. -/
def pdats : (p : Fin 2) → (c : Dev nD) → Dat τ (Elt F) Unit ℕ (UR sig nD τ) ℕ (cfgs p) c
  | ⟨0, _⟩ => fun c => dat0 (Vr0 m) c
  | ⟨1, _⟩ => fun c => dat1 (Vr1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

set_option backward.isDefEq.respectTransparency.types false in
/-- The first launch over the thread state: its arrays split out of the unscoped buffers and put back at the exit
    contents; the generator register into the launch's invariant and out; nothing owed; no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (outsB m) c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr0 m c) (fun b => Gen.V6 m (outsB m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch over the thread state: as the first, with the invariant that carries the running state between
    points entered from, and giving back, the launch's own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (Gen.V7 m (outsA m) c) ∗ R c)
  post c := iprop(StableHlo.held (c : Thread nD τ) (Pipeline.ucRefs τ sig) (Gen.V8 m (outsB m) c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vr1 m) c).Φ 0 from rfl]
    iintro ⟨Hp, -, Hr⟩
    iapply (hin1 (Vr1 m) c)
    unfold Pipeline.ΦA
    isplitl [Hr]; · iexact Hr
    iexact Hp
  hout c := by
    rw [Pipeline.ownSems0_none, show (pdats m 1 c).Φ (Fin.last _) = (dat1 (Vr1 m) c).Φ (Fin.last cfg1.N) from rfl]
    refine (hout1 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vr1 m c) (fun b => Gen.V8 m (outsB m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE RUN. From any memory with zero counters, every weakly fair execution of @main terminates, nothing faulting; the
    result buffer ends at what the second launch's write-backs leave in it and the arguments end as launched. -/
theorem run_main : θ_run defs (onTc (τ := τ) (main (F := F))) ⟨m, fun _ => 0, ρ⟩ (fun r => ∀ c : Dev nD,
      r.2.mem ((c.tc : Thread nD τ).loc main_v8) = outsB m 8 main_v8 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.run_cond m (Ix := Unit) (U := UR sig nD τ) (Lvl := ℕ) emb₁ () 𝒱₀ L lv (fun _ _ => rfl) ρ (outsB m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      have hcore : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄) ⊢ R c := fun c => by
        iintro ⟨-, HO, -, Hp, -⟩
        isplitl [Hp]; · iexists _; iexact Hp
        iexists ∅; iexact HO
      have hall := bigSep_mono (s := (Finset.univ : Finset (Dev nD))) fun c (_ : c ∈ (Finset.univ : Finset (Dev nD))) => hcore c
      have h1 : (iprop((bigSep (Finset.univ : Finset (Dev nD)) fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) ∗ levAts L lv) : sProp 𝕄)
          ⊢ (bigSep (Finset.univ : Finset (Dev nD)) fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp))) := by
        iintro ⟨H, -⟩; iexact H
      have h3 : (bigSep (Finset.univ : Finset (Dev nD)) (fun c : Dev nD => R (F := F) c) : sProp 𝕄) ⊢ (|={Set.univ}=> bigSep (Finset.univ : Finset (Dev nD)) (fun c : Dev nD => R (F := F) c)) := by
        iintro H; imodintro; iexact H
      exact h1.trans (hall.trans h3))
    (hE2 := fun c => by iintro ⟨-, H⟩; iexact H)
    (reg0 m) (fun c => .rfl) (fun c => .rfl)
    (reg1 m) (fun c => Entails.of_eq (by rw [V7_AB]; rfl)) (fun c => .rfl)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.Hand

end
-- ==== Proof.Spec.lean ====
/-
  The mathematics of this certificate, free of any program: scaled-dot-product attention with a softmax over
  4096 keys, followed by an output projection and a bias.  Three readings of it are written down here, all on the
  extended reals:

  * `Spec`  — the plain form: scores `(q·k)·c`, the row maximum `M`, weights `exp (score − M)`, their sum `L`,
    the normalised weights, the weighted sum of the value rows, the projection and the bias.
  * `Flash` — the streaming form over four tiles of 1024 keys: a running maximum `m`, a running sum `l` and a
    running weighted sum `acc`, each rescaled by `exp (m_old − m_new)` when a tile is absorbed, and one exact
    division `acc / l` after the last tile.
  * `Proj`  — the three projections that feed `Flash`: queries (already multiplied by the score scale) and keys
    against weight tables widened from 64 to 128 columns, and the value rows.

  That the streaming form over the projections is the plain form is `flash_eq_spec` (module `Online`).
-/
import Idealize.ShloMosaic.PureOps.Ideal
import Idealize.ShloMosaic.Lib.ValueIdx

noncomputable section

namespace Cert.Attn

open Idealize.ShloMosaic Idealize.ShloMosaic.ValueIdx

/-- The score scale `1/8` (= 1/√64), as the f32 pattern both programs carry. -/
def cS : EReal := Ideal.ofBits .f32 0x3E000000#32
/-- The pattern of `-∞`: where every running maximum starts. -/
def ninf : EReal := Ideal.ofBits .f32 0xFF800000#32
/-- The pattern of `+0`: where the plain form's sum of weights starts. -/
def zero : EReal := Ideal.ofBits .f32 0x00000000#32

abbrev A2x4096x1024 := (⟨3, ![2, 4096, 1024]⟩ : Shape).Idx → EReal
abbrev A2x4096x128 := (⟨3, ![2, 4096, 128]⟩ : Shape).Idx → EReal
abbrev A1024x64 := (⟨2, ![1024, 64]⟩ : Shape).Idx → EReal
abbrev A1024x128 := (⟨2, ![1024, 128]⟩ : Shape).Idx → EReal
abbrev A1024x1024 := (⟨2, ![1024, 1024]⟩ : Shape).Idx → EReal
abbrev A1024 := (⟨1, ![1024]⟩ : Shape).Idx → EReal
abbrev A1x1024 := (⟨2, ![1, 1024]⟩ : Shape).Idx → EReal

/-! ## The plain form -/

namespace Spec

variable (x : A2x4096x1024) (Wq Wk : A1024x64) (Wv Wo : A1024x1024) (bo : A1024)

/-- Query row `r` of batch `b`, coordinate `j`: `x[b,r,:] · Wq[:,j]`. -/
def q (b : Fin 2) (r : Fin 4096) (j : Fin 64) : EReal := ∑ d : Fin 1024, x (ix3 b r d) * Wq (ix2 d j)
/-- Key row `s`. -/
def k (b : Fin 2) (s : Fin 4096) (j : Fin 64) : EReal := ∑ d : Fin 1024, x (ix3 b s d) * Wk (ix2 d j)
/-- Value row `s`. -/
def v (b : Fin 2) (s : Fin 4096) (e : Fin 1024) : EReal := ∑ d : Fin 1024, x (ix3 b s d) * Wv (ix2 d e)
/-- The scaled score of query `r` against key `s`. -/
def score (b : Fin 2) (r s : Fin 4096) : EReal := (∑ j : Fin 64, q x Wq b r j * k x Wk b s j) * cS
/-- The row maximum over all keys (started from `-∞`, and once more compared with `-∞`). -/
def rowMax (b : Fin 2) (r : Fin 4096) : EReal :=
  max ninf ((Finset.univ : Finset (Fin 4096)).fold max ninf (fun s => score x Wq Wk b r s))
/-- The unnormalised weight of key `s`. -/
def p (b : Fin 2) (r s : Fin 4096) : EReal := Ideal.exp (score x Wq Wk b r s - rowMax x Wq Wk b r)
/-- The sum of the weights (started from `+0`). -/
def denom (b : Fin 2) (r : Fin 4096) : EReal := zero + ∑ s : Fin 4096, p x Wq Wk b r s
/-- The softmax weight of key `s`. -/
def attn (b : Fin 2) (r s : Fin 4096) : EReal := Ideal.div (p x Wq Wk b r s) (denom x Wq Wk b r)
/-- The attention output row. -/
def y (b : Fin 2) (r : Fin 4096) (e : Fin 1024) : EReal := ∑ s : Fin 4096, attn x Wq Wk b r s * v x Wv b s e
/-- The projected output with its bias. -/
def out (b : Fin 2) (r : Fin 4096) (e' : Fin 1024) : EReal :=
  (∑ e : Fin 1024, y x Wq Wk Wv b r e * Wo (ix2 e e')) + bo (ix1 e')

end Spec

/-! ## The three projections -/

namespace Proj

variable (x : A2x4096x1024) (Wqp Wkp : A1024x128) (Wv : A1024x1024)

/-- The scaled query array: `(x[b,r,:] · Wqp[:,j]) · c`. -/
def Q : A2x4096x128 := fun i => (∑ d : Fin 1024, x (ix3 (i 0) (i 1) d) * Wqp (ix2 d (i 2))) * cS
/-- The key array. -/
def K : A2x4096x128 := fun i => ∑ d : Fin 1024, x (ix3 (i 0) (i 1) d) * Wkp (ix2 d (i 2))
/-- The value array. -/
def V : A2x4096x1024 := fun i => ∑ d : Fin 1024, x (ix3 (i 0) (i 1) d) * Wv (ix2 d (i 2))

end Proj

/-! ## The streaming form -/

namespace Flash

variable (Qa Ka : A2x4096x128) (Va : A2x4096x1024) (Wo : A1024x1024) (bo2 : A1x1024)

/-- Key `u` of tile `t`. -/
def key (t : Fin 4) (u : Fin 1024) : Fin 4096 := ⟨t.val * 1024 + u.val, by omega⟩

/-- The score of query row `R` against key `s`: a contraction over the 128 coordinates. -/
def sc (b : Fin 2) (R s : Fin 4096) : EReal := ∑ j : Fin 128, Qa (ix3 b R j) * Ka (ix3 b s j)

/-- The running state of one query row: maximum, sum of weights, weighted sum of value rows. -/
structure St where
  m : EReal
  l : EReal
  acc : Fin 1024 → EReal

/-- The maximum of a tile's scores (from `-∞`). -/
def tmax (b : Fin 2) (R : Fin 4096) (t : Fin 4) : EReal :=
  (Finset.univ : Finset (Fin 1024)).fold max ninf (fun u => sc Qa Ka b R (key t u))

/-- The state after the first tile. -/
def st0 (b : Fin 2) (R : Fin 4096) : St :=
  let m := tmax Qa Ka b R 0
  { m := m
    l := ∑ u : Fin 1024, Ideal.exp (sc Qa Ka b R (key 0 u) - m)
    acc := fun e => ∑ u : Fin 1024, Ideal.exp (sc Qa Ka b R (key 0 u) - m) * Va (ix3 b (key 0 u) e) }

/-- Absorbing tile `t` into the state `p`. -/
def stS (p : St) (b : Fin 2) (R : Fin 4096) (t : Fin 4) : St :=
  let m := max p.m (tmax Qa Ka b R t)
  let a := Ideal.exp (p.m - m)
  { m := m
    l := a * p.l + ∑ u : Fin 1024, Ideal.exp (sc Qa Ka b R (key t u) - m)
    acc := fun e => a * p.acc e + ∑ u : Fin 1024, Ideal.exp (sc Qa Ka b R (key t u) - m) * Va (ix3 b (key t u) e) }

/-- The state after tile `n` (tiles beyond the fourth do not occur). -/
def stAt (b : Fin 2) (R : Fin 4096) : (n : ℕ) → St
  | 0 => st0 Qa Ka Va b R
  | n + 1 => if h : n + 1 < 4 then stS Qa Ka Va (stAt b R n) b R ⟨n + 1, h⟩ else stAt b R n

/-- The attention output row: one exact division after the last tile. -/
def y (b : Fin 2) (R : Fin 4096) (e : Fin 1024) : EReal :=
  Ideal.div ((stAt Qa Ka Va b R 3).acc e) (stAt Qa Ka Va b R 3).l

/-- The projected output with its bias (the bias as a one-row array). -/
def out (b : Fin 2) (R : Fin 4096) (e' : Fin 1024) : EReal :=
  (∑ e : Fin 1024, y Qa Ka Va b R e * Wo (ix2 e e')) + bo2 (ix2 0 e')

end Flash

end Cert.Attn

end
-- ==== Proof.KIV.Pay0.lean ====
/-
  The arithmetic of the first launch's body read at an index, on the extended reals: each of its three stores is a
  product of the point's activation block with a weight table, row by column — the query product also multiplied by the
  score scale.
-/
import proofs.«410308_j10230612099232_3_alg».proof.Proof.Gen.KernelIdeal.Skeleton
import proofs.«410308_j10230612099232_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Attn
variable {F : FTy → Type} [FloatOps F]

local notation "𝕄" => MT nD τ sig Unit (Elt F) ℕ (UR sig nD τ) ℕ

variable (x0 : Vec Ideal S1x1024x1024 .f32) (w : Vec Ideal S1024x128 .bf16) (wv : Vec Ideal S1024x1024 .bf16)

/-! The operand indices of the contraction `[1024,1024] × [1024,128]`, axis by axis: the left operand is read at (row, contraction
    coordinate), the right one at (contraction coordinate, column). -/
theorem l0_lhs_proj_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem l0_lhs_proj_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem l0_rhs_proj_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem l0_rhs_proj_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The product into a zero accumulator, read at (row, column): the sum over the contraction coordinate of the left
    operand's row entry times the right operand's column entry. -/
theorem l0_matmul_proj_apply (a : FVec Ideal S1024x1024 .bf16) (b : FVec Ideal S1024x128 .bf16) (r : Fin 1024) (j : Fin 128) :
    matmul dot_S1024x1024_S1024x128_S1024x128_1_0_0_1_n_n none a b (constant (F := Ideal) S1024x128 .f32 0x00000000#32) (ix2 r j)
      = ∑ d : Fin 1024, a (ix2 r d) * b (ix2 d j) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 r j) ((contrEquiv1 dot_S1024x1024_S1024x128_S1024x128_1_0_0_1_n_n 1024 rfl rfl).symm k) = ix2 r k := funext fun c => Fin.ext (by
    match c with
    | ⟨0, _⟩ => exact l0_lhs_proj_0 _ _
    | ⟨1, _⟩ => exact (l0_lhs_proj_1 _ _).trans hk)
  have er : dot_S1024x1024_S1024x128_S1024x128_1_0_0_1_n_n.rhsIdx (ix2 r j) ((contrEquiv1 dot_S1024x1024_S1024x128_S1024x128_1_0_0_1_n_n 1024 rfl rfl).symm k) = ix2 k j := funext fun c => Fin.ext (by
    match c with
    | ⟨0, _⟩ => exact (l0_rhs_proj_0 _ _).trans hk
    | ⟨1, _⟩ => exact l0_rhs_proj_1 _ _)
  rw [el, er]

/-! The operand indices of the contraction `[1024,1024] × [1024,1024]`, axis by axis: the left operand is read at (row, contraction
    coordinate), the right one at (contraction coordinate, column). -/
theorem l0_lhs_wide_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem l0_lhs_wide_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem l0_rhs_wide_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem l0_rhs_wide_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product into a zero accumulator, read at (row, column): the sum over the contraction coordinate of the left
    operand's row entry times the right operand's column entry. -/
theorem l0_matmul_wide_apply (a : FVec Ideal S1024x1024 .bf16) (b : FVec Ideal S1024x1024 .bf16) (r : Fin 1024) (j : Fin 1024) :
    matmul dot_S1024x1024_S1024x1024_S1024x1024_1_0_0_1_n_n none a b (constant (F := Ideal) S1024x1024 .f32 0x00000000#32) (ix2 r j)
      = ∑ d : Fin 1024, a (ix2 r d) * b (ix2 d j) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r j) ((contrEquiv1 dot_S1024x1024_S1024x1024_S1024x1024_1_0_0_1_n_n 1024 rfl rfl).symm k) = ix2 r k := funext fun c => Fin.ext (by
    match c with
    | ⟨0, _⟩ => exact l0_lhs_wide_0 _ _
    | ⟨1, _⟩ => exact (l0_lhs_wide_1 _ _).trans hk)
  have er : dot_S1024x1024_S1024x1024_S1024x1024_1_0_0_1_n_n.rhsIdx (ix2 r j) ((contrEquiv1 dot_S1024x1024_S1024x1024_S1024x1024_1_0_0_1_n_n 1024 rfl rfl).symm k) = ix2 k j := funext fun c => Fin.ext (by
    match c with
    | ⟨0, _⟩ => exact (l0_rhs_wide_0 _ _).trans hk
    | ⟨1, _⟩ => exact l0_rhs_wide_1 _ _)
  rw [el, er]

/-- The left operand of the three products: the activation block with its unit axis dropped (the change of float format is
    the identity on the extended reals). -/
theorem l0_pay1_apply (r d : Fin 1024) : k0_pay1 (F := Ideal) x0 (ix2 r d) = x0 (ix3 (0 : Fin 1) r d) := by
  unfold k0_pay1
  rw [truncf_apply, shapeCast_1ab_ab_apply]

/-- The scale constant of the query product is the score scale of the specification. -/
theorem l0_scale_eq : (Scalar.ofBits (F := Ideal) .f32 0x3E000000#32 : Ideal .f32) = cS := rfl

theorem pay2_apply (r : Fin 1024) (j : Fin 128) :
    k0_pay2 (F := Ideal) x0 w (ix3 (0 : Fin 1) r j) = (∑ d : Fin 1024, x0 (ix3 (0 : Fin 1) r d) * w (ix2 d j)) * cS := by
  unfold k0_pay2
  rw [shapeCast_ab_1ab_apply, truncf_apply, mulf_apply, broadcast_apply, shapeCast_self, l0_matmul_proj_apply, l0_scale_eq]
  simp only [l0_pay1_apply]
theorem pay3_apply (r : Fin 1024) (j : Fin 128) :
    k0_pay3 (F := Ideal) x0 w (ix3 (0 : Fin 1) r j) = ∑ d : Fin 1024, x0 (ix3 (0 : Fin 1) r d) * w (ix2 d j) := by
  unfold k0_pay3
  rw [shapeCast_ab_1ab_apply, truncf_apply, shapeCast_self, l0_matmul_proj_apply]
  simp only [l0_pay1_apply]
theorem pay4_apply (r e : Fin 1024) :
    k0_pay4 (F := Ideal) x0 wv (ix3 (0 : Fin 1) r e) = ∑ d : Fin 1024, x0 (ix3 (0 : Fin 1) r d) * wv (ix2 d e) := by
  unfold k0_pay4
  rw [shapeCast_ab_1ab_apply, truncf_apply, shapeCast_self, l0_matmul_wide_apply]
  simp only [l0_pay1_apply]

end Cert.KernelIdeal.Hand

end
-- ==== Proof.KIV.Val0.lean ====
/-
  What the first launch leaves in its three output arrays, on the extended reals: every block of an output array is
  written once, by the point whose coordinates are the block's, with the product of that point's activation block and
  a weight table; so each array is, entry by entry, one of the three projections.
-/
import proofs.«410308_j10230612099232_3_alg».proof.Proof.KI.R0
import proofs.«410308_j10230612099232_3_alg».proof.Proof.KIV.Pay0
import proofs.«410308_j10230612099232_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Attn
variable {F : FTy → Type} [FloatOps F]

local notation "𝕄" => MT nD τ sig Unit (Elt F) ℕ (UR sig nD τ) ℕ

private theorem zeroOff3 : (![0, 0, 0] : Fin 3 → Nat) = fun _ => 0 := funext fun a => by fin_cases a <;> rfl
private theorem zeroOff2 : (![0, 0] : Fin 2 → Nat) = fun _ => 0 := funext fun a => by fin_cases a <;> rfl

/-! ## Where the blocks sit

Point `t` of the 2 × 4 grid is (batch, row tile) = (t / 4, t % 4).  The activation block and the three output blocks of
the point are rows `1024 · (t % 4) … 1024 · (t % 4) + 1023` of batch `t / 4`, all columns; the three weight tables are
taken whole at every point. -/

/-- The block indices of the seven windows, point by point. -/
theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0
    ∧ win0_6.index t (0 : Fin 3) = t.val / 4 ∧ win0_6.index t (1 : Fin 3) = t.val % 4 ∧ win0_6.index t (2 : Fin 3) = 0
    ∧ t.val < 8 :=
  (by decide +kernel : ∀ t : Fin grid0.N, _)

/-- Every (batch, row tile) pair is some point's. -/
theorem idx_onto0 : ∀ (q0 : Fin 2) (q1 : Fin 4), ∃ t : Fin cfg0.N, t.val = q0.val * 4 + q1.val :=
  (by decide +kernel : ∀ (q0 : Fin 2) (q1 : Fin 4), ∃ t : Fin grid0.N, t.val = q0.val * 4 + q1.val)

/-- A point's number is below eight. -/
theorem point_lt0 (t : Fin cfg0.N) : t.val < 8 := (idx_facts0 t).2.2.2.2.2.2.2.2.2.2.2.2.2.2.2.2.2.2

section
variable (V : (c : Dev nD) → (b : Ref sig .tc) → Buf (Elt Ideal) ((c : Thread nD τ).loc b))

/-- The activation block of a point, and the three weight tables as the point finds them. -/
abbrev xblk0 (c : Dev nD) (t : Fin cfg0.N) : Vec Ideal S1x1024x1024 .f32 := iblk0 V c 0 t
abbrev wqblk0 (c : Dev nD) (t : Fin cfg0.N) : Vec Ideal S1024x128 .bf16 := iblk0 V c 1 t
abbrev wkblk0 (c : Dev nD) (t : Fin cfg0.N) : Vec Ideal S1024x128 .bf16 := iblk0 V c 2 t
abbrev wvblk0 (c : Dev nD) (t : Fin cfg0.N) : Vec Ideal S1024x1024 .bf16 := iblk0 V c 3 t
/-- The activations and the three weight tables, whole. -/
abbrev xarr0 (c : Dev nD) : A2x4096x1024 := V c main_arg0
abbrev wqarr0 (c : Dev nD) : A1024x128 := V c main_v2
abbrev wkarr0 (c : Dev nD) : A1024x128 := V c main_v3
abbrev wvarr0 (c : Dev nD) : A1024x1024 := V c main_v4

/-- Row `r` of a point's activation block is row `1024 · (t % 4) + r` of batch `t / 4`. -/
theorem iblk0_0_apply (c : Dev nD) (t : Fin cfg0.N) (r d : Fin 1024) (b : Fin 2) (R : Fin 4096)
    (hb : b.val = t.val / 4) (hR : R.val = t.val % 4 * 1024 + r.val) :
    xblk0 V c t (ix3 (0 : Fin 1) r d) = xarr0 V c (ix3 b R d) := by
  obtain ⟨e0, e1, e2, -⟩ := idx_facts0 t
  unfold xblk0 iblk0
  rw [View.read_apply]
  show V c main_arg0 _ = V c main_arg0 _
  congr 1
  funext a
  apply Fin.ext
  match a with
  | ⟨0, _⟩ => show win0_0.index t (0 : Fin 3) * 1 + 1 * (0 : Fin 1).val = b.val; rw [e0, hb]; simp
  | ⟨1, _⟩ => show win0_0.index t (1 : Fin 3) * 1024 + 1 * r.val = R.val; rw [e1, hR]; omega
  | ⟨2, _⟩ => show win0_0.index t (2 : Fin 3) * 1024 + 1 * d.val = d.val; rw [e2]; omega

/-- The query weights a point finds are the table's. -/
theorem iblk0_1_apply (c : Dev nD) (t : Fin cfg0.N) (d : Fin 1024) (j : Fin 128) :
    wqblk0 V c t (ix2 d j) = wqarr0 V c (ix2 d j) := by
  obtain ⟨-, -, -, e0, e1, -⟩ := idx_facts0 t
  unfold wqblk0 iblk0
  rw [View.read_apply]
  show V c main_v2 _ = V c main_v2 _
  congr 1
  funext a
  apply Fin.ext
  match a with
  | ⟨0, _⟩ => show win0_1.index t (0 : Fin 2) * 1024 + 1 * d.val = d.val; rw [e0]; omega
  | ⟨1, _⟩ => show win0_1.index t (1 : Fin 2) * 128 + 1 * j.val = j.val; rw [e1]; omega

/-- The key weights a point finds are the table's. -/
theorem iblk0_2_apply (c : Dev nD) (t : Fin cfg0.N) (d : Fin 1024) (j : Fin 128) :
    wkblk0 V c t (ix2 d j) = wkarr0 V c (ix2 d j) := by
  obtain ⟨-, -, -, -, -, e0, e1, -⟩ := idx_facts0 t
  unfold wkblk0 iblk0
  rw [View.read_apply]
  show V c main_v3 _ = V c main_v3 _
  congr 1
  funext a
  apply Fin.ext
  match a with
  | ⟨0, _⟩ => show win0_2.index t (0 : Fin 2) * 1024 + 1 * d.val = d.val; rw [e0]; omega
  | ⟨1, _⟩ => show win0_2.index t (1 : Fin 2) * 128 + 1 * j.val = j.val; rw [e1]; omega

/-- The value weights a point finds are the table's. -/
theorem iblk0_3_apply (c : Dev nD) (t : Fin cfg0.N) (d e : Fin 1024) :
    wvblk0 V c t (ix2 d e) = wvarr0 V c (ix2 d e) := by
  obtain ⟨-, -, -, -, -, -, -, e0, e1, -⟩ := idx_facts0 t
  unfold wvblk0 iblk0
  rw [View.read_apply]
  show V c main_v4 _ = V c main_v4 _
  congr 1
  funext a
  apply Fin.ext
  match a with
  | ⟨0, _⟩ => show win0_3.index t (0 : Fin 2) * 1024 + 1 * d.val = d.val; rw [e0]; omega
  | ⟨1, _⟩ => show win0_3.index t (1 : Fin 2) * 1024 + 1 * e.val = e.val; rw [e1]; omega

/-! ## One entry of a block is one entry of a projection

For a block `x0` whose row `r` is row `R` of batch `b` of the activations `X`, and a table `w` that is `W`, the stored
product at (row `r`, column `j`) is the sum over `d` of `X[b, R, d] · W[d, j]` — times the score scale for the queries. -/

theorem q_entry0 (x0 : Vec Ideal S1x1024x1024 .f32) (w : Vec Ideal S1024x128 .bf16) (X : A2x4096x1024) (W : A1024x128)
    (r : Fin 1024) (j : Fin 128) (b : Fin 2) (R : Fin 4096)
    (hx : ∀ d : Fin 1024, x0 (ix3 (0 : Fin 1) r d) = X (ix3 b R d))
    (hw : ∀ d : Fin 1024, w (ix2 d j) = W (ix2 d j)) :
    k0_pay2 x0 w (ix3 (0 : Fin 1) r j) = Proj.Q X W (ix3 b R j) := by
  rw [pay2_apply]
  show _ = (∑ d : Fin 1024, X (ix3 b R d) * W (ix2 d j)) * cS
  refine congrArg (· * cS) (Finset.sum_congr rfl fun d _ => ?_)
  rw [hx d, hw d]

theorem k_entry0 (x0 : Vec Ideal S1x1024x1024 .f32) (w : Vec Ideal S1024x128 .bf16) (X : A2x4096x1024) (W : A1024x128)
    (r : Fin 1024) (j : Fin 128) (b : Fin 2) (R : Fin 4096)
    (hx : ∀ d : Fin 1024, x0 (ix3 (0 : Fin 1) r d) = X (ix3 b R d))
    (hw : ∀ d : Fin 1024, w (ix2 d j) = W (ix2 d j)) :
    k0_pay3 x0 w (ix3 (0 : Fin 1) r j) = Proj.K X W (ix3 b R j) := by
  rw [pay3_apply]
  show _ = ∑ d : Fin 1024, X (ix3 b R d) * W (ix2 d j)
  refine Finset.sum_congr rfl fun d _ => ?_
  rw [hx d, hw d]

theorem v_entry0 (x0 : Vec Ideal S1x1024x1024 .f32) (w : Vec Ideal S1024x1024 .bf16) (X : A2x4096x1024) (W : A1024x1024)
    (r e : Fin 1024) (b : Fin 2) (R : Fin 4096)
    (hx : ∀ d : Fin 1024, x0 (ix3 (0 : Fin 1) r d) = X (ix3 b R d))
    (hw : ∀ d : Fin 1024, w (ix2 d e) = W (ix2 d e)) :
    k0_pay4 x0 w (ix3 (0 : Fin 1) r e) = Proj.V X W (ix3 b R e) := by
  rw [pay4_apply]
  show _ = ∑ d : Fin 1024, X (ix3 b R d) * W (ix2 d e)
  refine Finset.sum_congr rfl fun d _ => ?_
  rw [hx d, hw d]

/-! ## The place of a block's entry in its array

Entry (0, r, j) of the block of point `t` is entry (t / 4, 1024 · (t % 4) + r, j) of the array. -/

theorem place0_4 (t : Fin cfg0.N) (r : Fin 1024) (j : Fin 128) (b : Fin 2) (R : Fin 4096)
    (hb : b.val = t.val / 4) (hR : R.val = t.val % 4 * 1024 + r.val) :
    ((cfg0.win 4).blk t).view.emb (ix3 (0 : Fin 1) r j) = (ix3 b R j : S2x4096x128.Idx) := by
  obtain ⟨-, -, -, -, -, -, -, -, -, e0, e1, e2, -⟩ := idx_facts0 t
  funext a
  apply Fin.ext
  match a with
  | ⟨0, _⟩ => show win0_4.index t (0 : Fin 3) * 1 + 1 * (0 : Fin 1).val = b.val; rw [e0, hb]; simp
  | ⟨1, _⟩ => show win0_4.index t (1 : Fin 3) * 1024 + 1 * r.val = R.val; rw [e1, hR]; omega
  | ⟨2, _⟩ => show win0_4.index t (2 : Fin 3) * 128 + 1 * j.val = j.val; rw [e2]; omega

theorem place0_5 (t : Fin cfg0.N) (r : Fin 1024) (j : Fin 128) (b : Fin 2) (R : Fin 4096)
    (hb : b.val = t.val / 4) (hR : R.val = t.val % 4 * 1024 + r.val) :
    ((cfg0.win 5).blk t).view.emb (ix3 (0 : Fin 1) r j) = (ix3 b R j : S2x4096x128.Idx) := by
  obtain ⟨-, -, -, -, -, -, -, -, -, -, -, -, e0, e1, e2, -⟩ := idx_facts0 t
  funext a
  apply Fin.ext
  match a with
  | ⟨0, _⟩ => show win0_5.index t (0 : Fin 3) * 1 + 1 * (0 : Fin 1).val = b.val; rw [e0, hb]; simp
  | ⟨1, _⟩ => show win0_5.index t (1 : Fin 3) * 1024 + 1 * r.val = R.val; rw [e1, hR]; omega
  | ⟨2, _⟩ => show win0_5.index t (2 : Fin 3) * 128 + 1 * j.val = j.val; rw [e2]; omega

theorem place0_6 (t : Fin cfg0.N) (r e : Fin 1024) (b : Fin 2) (R : Fin 4096)
    (hb : b.val = t.val / 4) (hR : R.val = t.val % 4 * 1024 + r.val) :
    ((cfg0.win 6).blk t).view.emb (ix3 (0 : Fin 1) r e) = (ix3 b R e : S2x4096x1024.Idx) := by
  obtain ⟨-, -, -, -, -, -, -, -, -, -, -, -, -, -, -, e0, e1, e2, -⟩ := idx_facts0 t
  funext a
  apply Fin.ext
  match a with
  | ⟨0, _⟩ => show win0_6.index t (0 : Fin 3) * 1 + 1 * (0 : Fin 1).val = b.val; rw [e0, hb]; simp
  | ⟨1, _⟩ => show win0_6.index t (1 : Fin 3) * 1024 + 1 * r.val = R.val; rw [e1, hR]; omega
  | ⟨2, _⟩ => show win0_6.index t (2 : Fin 3) * 1024 + 1 * e.val = e.val; rw [e2]; omega

/-! ## What a point stores is its block of the projection -/

theorem point0_4 (c : Dev nD) (t : Fin cfg0.N) (y : S1x1024x128.Idx) :
    k0_pay2 (xblk0 V c t) (wqblk0 V c t) y = Proj.Q (xarr0 V c) (wqarr0 V c) (((cfg0.win 4).blk t).view.emb y) := by
  obtain ⟨p, r, j, rfl⟩ : ∃ (p : Fin 1) (r : Fin 1024) (j : Fin 128), y = ix3 p r j := ⟨y 0, y 1, y 2, eq_ix3 y⟩
  obtain rfl : p = 0 := Subsingleton.elim _ _
  have h8 : t.val < 8 := point_lt0 t
  rw [place0_4 t r j ⟨t.val / 4, by omega⟩ ⟨t.val % 4 * 1024 + r.val, by omega⟩ rfl rfl]
  exact q_entry0 (xblk0 V c t) (wqblk0 V c t) (xarr0 V c) (wqarr0 V c) r j _ _
    (fun d => iblk0_0_apply V c t r d _ _ rfl rfl) (fun d => iblk0_1_apply V c t d j)

theorem point0_5 (c : Dev nD) (t : Fin cfg0.N) (y : S1x1024x128.Idx) :
    k0_pay3 (xblk0 V c t) (wkblk0 V c t) y = Proj.K (xarr0 V c) (wkarr0 V c) (((cfg0.win 5).blk t).view.emb y) := by
  obtain ⟨p, r, j, rfl⟩ : ∃ (p : Fin 1) (r : Fin 1024) (j : Fin 128), y = ix3 p r j := ⟨y 0, y 1, y 2, eq_ix3 y⟩
  obtain rfl : p = 0 := Subsingleton.elim _ _
  have h8 : t.val < 8 := point_lt0 t
  rw [place0_5 t r j ⟨t.val / 4, by omega⟩ ⟨t.val % 4 * 1024 + r.val, by omega⟩ rfl rfl]
  exact k_entry0 (xblk0 V c t) (wkblk0 V c t) (xarr0 V c) (wkarr0 V c) r j _ _
    (fun d => iblk0_0_apply V c t r d _ _ rfl rfl) (fun d => iblk0_2_apply V c t d j)

theorem point0_6 (c : Dev nD) (t : Fin cfg0.N) (y : S1x1024x1024.Idx) :
    k0_pay4 (xblk0 V c t) (wvblk0 V c t) y = Proj.V (xarr0 V c) (wvarr0 V c) (((cfg0.win 6).blk t).view.emb y) := by
  obtain ⟨p, r, e, rfl⟩ : ∃ (p : Fin 1) (r : Fin 1024) (e : Fin 1024), y = ix3 p r e := ⟨y 0, y 1, y 2, eq_ix3 y⟩
  obtain rfl : p = 0 := Subsingleton.elim _ _
  have h8 : t.val < 8 := point_lt0 t
  rw [place0_6 t r e ⟨t.val / 4, by omega⟩ ⟨t.val % 4 * 1024 + r.val, by omega⟩ rfl rfl]
  exact v_entry0 (xblk0 V c t) (wvblk0 V c t) (xarr0 V c) (wvarr0 V c) r e _ _
    (fun d => iblk0_0_apply V c t r d _ _ rfl rfl) (fun d => iblk0_3_apply V c t d e)

/-- What point `t` writes back to the query array is block `t` of the scaled query projection. -/
theorem flushed0_4_eq (c : Dev nD) (t : Fin cfg0.N) :
    (dat0 V c).flushed 4 t = ((cfg0.win 4).blk t).view.read (Elt Ideal) (Proj.Q (xarr0 V c) (wqarr0 V c)) := by
  show (cfg0.win 4).cut (grid0.coords t) ((dat0 V c).after 4 t) = _
  rw [after0_4]
  unfold out0_4
  rw [View.canon_unit_zero zeroOff3]
  simp only [View.ld_unit_zero (S := S1x1024x1024) zeroOff3, View.ld_unit_zero (S := S1024x128) zeroOff2]
  funext y
  exact point0_4 V c t y

/-- What point `t` writes back to the key array is block `t` of the key projection. -/
theorem flushed0_5_eq (c : Dev nD) (t : Fin cfg0.N) :
    (dat0 V c).flushed 5 t = ((cfg0.win 5).blk t).view.read (Elt Ideal) (Proj.K (xarr0 V c) (wkarr0 V c)) := by
  show (cfg0.win 5).cut (grid0.coords t) ((dat0 V c).after 5 t) = _
  rw [after0_5]
  unfold out0_5
  rw [View.canon_unit_zero zeroOff3]
  simp only [View.ld_unit_zero (S := S1x1024x1024) zeroOff3, View.ld_unit_zero (S := S1024x128) zeroOff2]
  funext y
  exact point0_5 V c t y

/-- What point `t` writes back to the value array is block `t` of the value projection. -/
theorem flushed0_6_eq (c : Dev nD) (t : Fin cfg0.N) :
    (dat0 V c).flushed 6 t = ((cfg0.win 6).blk t).view.read (Elt Ideal) (Proj.V (xarr0 V c) (wvarr0 V c)) := by
  show (cfg0.win 6).cut (grid0.coords t) ((dat0 V c).after 6 t) = _
  rw [after0_6]
  unfold out0_6
  rw [View.canon_unit_zero zeroOff3]
  simp only [View.ld_unit_zero (S := S1x1024x1024) zeroOff3, View.ld_unit_zero (S := S1024x1024) zeroOff2]
  funext y
  exact point0_6 V c t y

/-! ## The blocks tile the arrays -/

/-- An index of the query array is in point `t`'s block iff each coordinate is in the block's range on its axis. -/
theorem mem_blk0_4 (t : Fin cfg0.N) (i : S2x4096x128.Idx) :
    i ∈ ((cfg0.win 4).blk t).view.set ↔ ∀ a : Fin 3, win0_4.index t a * S1x1024x128.size a ≤ (i a).val ∧ (i a).val < win0_4.index t a * S1x1024x128.size a + S1x1024x128.size a := by
  show i ∈ ((View.whole main_v6_0).slice (win0_4.rect t)).set ↔ _
  rw [View.set_slice_whole, Rect.mem_set_unit]
  exact Iff.rfl

theorem mem_blk0_5 (t : Fin cfg0.N) (i : S2x4096x128.Idx) :
    i ∈ ((cfg0.win 5).blk t).view.set ↔ ∀ a : Fin 3, win0_5.index t a * S1x1024x128.size a ≤ (i a).val ∧ (i a).val < win0_5.index t a * S1x1024x128.size a + S1x1024x128.size a := by
  show i ∈ ((View.whole main_v6_1).slice (win0_5.rect t)).set ↔ _
  rw [View.set_slice_whole, Rect.mem_set_unit]
  exact Iff.rfl

theorem mem_blk0_6 (t : Fin cfg0.N) (i : S2x4096x1024.Idx) :
    i ∈ ((cfg0.win 6).blk t).view.set ↔ ∀ a : Fin 3, win0_6.index t a * S1x1024x1024.size a ≤ (i a).val ∧ (i a).val < win0_6.index t a * S1x1024x1024.size a + S1x1024x1024.size a := by
  show i ∈ ((View.whole main_v6_2).slice (win0_6.rect t)).set ↔ _
  rw [View.set_slice_whole, Rect.mem_set_unit]
  exact Iff.rfl

/-- Row `R` of batch `b` of the query array is in the block of point `4 b + R / 1024`. -/
theorem covered0_4 (i : S2x4096x128.Idx) : ∃ t : Fin cfg0.N, (cfg0.win 4).flush t = true ∧ i ∈ ((cfg0.win 4).blk t).view.set := by
  have hi0 : (i 0).val < 2 := (i 0).isLt
  have hi1 : (i 1).val < 4096 := (i 1).isLt
  have hi2 : (i 2).val < 128 := (i 2).isLt
  obtain ⟨t, ht⟩ := idx_onto0 ⟨(i 0).val, hi0⟩ ⟨(i 1).val / 1024, by omega⟩
  have ht' : t.val = (i 0).val * 4 + (i 1).val / 1024 := ht
  obtain ⟨-, -, -, -, -, -, -, -, -, e0, e1, e2, -⟩ := idx_facts0 t
  refine ⟨t, flush0_4 t, ?_⟩
  rw [mem_blk0_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

/-- The same for the key array. -/
theorem covered0_5 (i : S2x4096x128.Idx) : ∃ t : Fin cfg0.N, (cfg0.win 5).flush t = true ∧ i ∈ ((cfg0.win 5).blk t).view.set := by
  have hi0 : (i 0).val < 2 := (i 0).isLt
  have hi1 : (i 1).val < 4096 := (i 1).isLt
  have hi2 : (i 2).val < 128 := (i 2).isLt
  obtain ⟨t, ht⟩ := idx_onto0 ⟨(i 0).val, hi0⟩ ⟨(i 1).val / 1024, by omega⟩
  have ht' : t.val = (i 0).val * 4 + (i 1).val / 1024 := ht
  obtain ⟨-, -, -, -, -, -, -, -, -, -, -, -, e0, e1, e2, -⟩ := idx_facts0 t
  refine ⟨t, flush0_5 t, ?_⟩
  rw [mem_blk0_5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 128 ≤ (i 2).val ∧ (i 2).val < win0_5.index t (2 : Fin 3) * 128 + 128; omega

/-- The same for the value array. -/
theorem covered0_6 (i : S2x4096x1024.Idx) : ∃ t : Fin cfg0.N, (cfg0.win 6).flush t = true ∧ i ∈ ((cfg0.win 6).blk t).view.set := by
  have hi0 : (i 0).val < 2 := (i 0).isLt
  have hi1 : (i 1).val < 4096 := (i 1).isLt
  have hi2 : (i 2).val < 1024 := (i 2).isLt
  obtain ⟨t, ht⟩ := idx_onto0 ⟨(i 0).val, hi0⟩ ⟨(i 1).val / 1024, by omega⟩
  have ht' : t.val = (i 0).val * 4 + (i 1).val / 1024 := ht
  obtain ⟨-, -, -, -, -, -, -, -, -, -, -, -, -, -, -, e0, e1, e2, -⟩ := idx_facts0 t
  refine ⟨t, flush0_6 t, ?_⟩
  rw [mem_blk0_6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 1024 ≤ (i 2).val ∧ (i 2).val < win0_6.index t (2 : Fin 3) * 1024 + 1024; omega

/-! ## The three arrays after the launch -/

/-- The scaled query array. -/
theorem final0_4 (c : Dev nD) (i : S2x4096x128.Idx) :
    (dat0 V c).arrAt 4 cfg0.N i = Proj.Q (V c main_arg0) (V c main_v2) i :=
  congrFun ((dat0 V c).arrAt_eq_of_cover 4 (Proj.Q (xarr0 V c) (wqarr0 V c)) (fun t _ => flushed0_4_eq V c t) covered0_4) i

/-- The key array. -/
theorem final0_5 (c : Dev nD) (i : S2x4096x128.Idx) :
    (dat0 V c).arrAt 5 cfg0.N i = Proj.K (V c main_arg0) (V c main_v3) i :=
  congrFun ((dat0 V c).arrAt_eq_of_cover 5 (Proj.K (xarr0 V c) (wkarr0 V c)) (fun t _ => flushed0_5_eq V c t) covered0_5) i

/-- The value array. -/
theorem final0_6 (c : Dev nD) (i : S2x4096x1024.Idx) :
    (dat0 V c).arrAt 6 cfg0.N i = Proj.V (V c main_arg0) (V c main_v4) i :=
  congrFun ((dat0 V c).arrAt_eq_of_cover 6 (Proj.V (xarr0 V c) (wvarr0 V c)) (fun t _ => flushed0_6_eq V c t) covered0_6) i

end

end Cert.KernelIdeal.Hand
end
-- ==== Proof.KIV.Pieces.lean ====
/-
  What each control case of the second launch leaves in the three scratch buffers and in the output block, named by
  the body's own arithmetic: the stores are whole-buffer stores, so each buffer ends at its last store's value, a
  function of the point's input blocks and of what the scratch buffers held when the point began.
-/
import proofs.«410308_j10230612099232_3_alg».proof.Proof.KI.R1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One store, one value

Every store of the body is through the rectangle of its buffer's own sizes at zero offsets, and so is every load:
a load reads the whole contents, and the one store into a buffer leaves its value there. -/

/-- The zero offsets of a rank-2 rectangle. -/
private theorem zeroOff2 : (![0, 0] : Fin 2 → Nat) = fun _ => 0 := funext fun a => by fin_cases a <;> rfl
/-- The zero offsets of a rank-3 rectangle. -/
private theorem zeroOff3 : (![0, 0, 0] : Fin 3 → Nat) = fun _ => 0 := funext fun a => by fin_cases a <;> rfl

/-! ### A first key tile: the state is initialised from the query and key blocks (and the value block) alone -/

/-- The running maximum after a first key tile: the row maxima of the tile's scores. -/
theorem sout1_A_0_eq (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) :
    sout1_A_0 c i arg3 harg3 arg4 harg4 arg5 harg5 arg6 harg6 arg7 harg7 arg8 harg8 arg9 harg9 arg10 harg10 arg11 harg11 hc0 hc1 hc2 x0 x1 x2 x3 x4 = k1_pay7 x0 x1 := by
  unfold sout1_A_0
  rw [View.read_writes_eq_canon _ _ _ (scover1_A_0 c i arg3 harg3 arg4 harg4 arg5 harg5 arg6 harg6 arg7 harg7 arg8 harg8 arg9 harg9 arg10 harg10 arg11 harg11 hc0 hc1 hc2 x0 x1 x2 x3 x4)]
  unfold kernelRun1_A
  dsimp only
  sl_unfold_words
  rw [View.canon_unit_zero zeroOff2]
  simp only [View.readAt_eq_ld, harg3.read_unread, harg4.read_unread, harg5.read_unread, harg6.read_unread, harg7.read_unread, harg9.read_unread, harg10.read_unread, harg11.read_unread, View.ld_unit_zero (S := S1x1024x128) zeroOff3, View.ld_unit_zero (S := S1x1024x1024) zeroOff3, View.ld_unit_zero (S := S1024x1) zeroOff2, View.ld_unit_zero (S := S1024x1024) zeroOff2, View.ld_unit_zero (S := S1x1024) zeroOff2]

/-- The running sum of weights after a first key tile: the row sums of the tile's weights. -/
theorem sout1_A_1_eq (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) :
    sout1_A_1 c i arg3 harg3 arg4 harg4 arg5 harg5 arg6 harg6 arg7 harg7 arg8 harg8 arg9 harg9 arg10 harg10 arg11 harg11 hc0 hc1 hc2 x0 x1 x2 x3 x4 = k1_pay5 x0 x1 := by
  unfold sout1_A_1
  rw [View.read_writes_eq_canon _ _ _ (scover1_A_1 c i arg3 harg3 arg4 harg4 arg5 harg5 arg6 harg6 arg7 harg7 arg8 harg8 arg9 harg9 arg10 harg10 arg11 harg11 hc0 hc1 hc2 x0 x1 x2 x3 x4)]
  unfold kernelRun1_A
  dsimp only
  sl_unfold_words
  rw [View.canon_unit_zero zeroOff2]
  simp only [View.readAt_eq_ld, harg3.read_unread, harg4.read_unread, harg5.read_unread, harg6.read_unread, harg7.read_unread, harg9.read_unread, harg10.read_unread, harg11.read_unread, View.ld_unit_zero (S := S1x1024x128) zeroOff3, View.ld_unit_zero (S := S1x1024x1024) zeroOff3, View.ld_unit_zero (S := S1024x1) zeroOff2, View.ld_unit_zero (S := S1024x1024) zeroOff2, View.ld_unit_zero (S := S1x1024) zeroOff2]

/-- The running weighted sum after a first key tile: the tile's weights applied to its value rows. -/
theorem sout1_A_2_eq (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : cond1_0 i) (hc1 : ¬cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) :
    sout1_A_2 c i arg3 harg3 arg4 harg4 arg5 harg5 arg6 harg6 arg7 harg7 arg8 harg8 arg9 harg9 arg10 harg10 arg11 harg11 hc0 hc1 hc2 x0 x1 x2 x3 x4 = k1_pay6 x0 x1 x2 := by
  unfold sout1_A_2
  rw [View.read_writes_eq_canon _ _ _ (scover1_A_2 c i arg3 harg3 arg4 harg4 arg5 harg5 arg6 harg6 arg7 harg7 arg8 harg8 arg9 harg9 arg10 harg10 arg11 harg11 hc0 hc1 hc2 x0 x1 x2 x3 x4)]
  unfold kernelRun1_A
  dsimp only
  sl_unfold_words
  rw [View.canon_unit_zero zeroOff2]
  simp only [View.readAt_eq_ld, harg3.read_unread, harg4.read_unread, harg5.read_unread, harg6.read_unread, harg7.read_unread, harg9.read_unread, harg10.read_unread, harg11.read_unread, View.ld_unit_zero (S := S1x1024x128) zeroOff3, View.ld_unit_zero (S := S1x1024x1024) zeroOff3, View.ld_unit_zero (S := S1024x1) zeroOff2, View.ld_unit_zero (S := S1024x1024) zeroOff2, View.ld_unit_zero (S := S1x1024) zeroOff2]

/-! ### A middle key tile: every load of a scratch buffer precedes its store, so it reads what the point before left -/

/-- The running maximum after a middle key tile: the larger of the old one and the tile's row maxima. -/
theorem sout1_B_0_eq (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) :
    sout1_B_0 c i arg3 harg3 arg4 harg4 arg5 harg5 arg6 harg6 arg7 harg7 arg8 harg8 arg9 harg9 arg10 harg10 arg11 harg11 hc0 hc1 hc2 x0 x1 x2 x3 x4 xs0 xs1 xs2 = k1_pay13 x0 x1 xs0 := by
  unfold sout1_B_0
  rw [View.read_writes_eq_canon _ _ _ (scover1_B_0 c i arg3 harg3 arg4 harg4 arg5 harg5 arg6 harg6 arg7 harg7 arg8 harg8 arg9 harg9 arg10 harg10 arg11 harg11 hc0 hc1 hc2 x0 x1 x2 x3 x4 xs0 xs1 xs2)]
  unfold kernelRun1_B
  dsimp only
  sl_unfold_words
  rw [View.canon_unit_zero zeroOff2]
  simp only [View.readAt_eq_ld, harg3.read_unread, harg4.read_unread, harg5.read_unread, harg6.read_unread, harg7.read_unread, harg9.read_unread, harg10.read_unread, harg11.read_unread, View.ld_unit_zero (S := S1x1024x128) zeroOff3, View.ld_unit_zero (S := S1x1024x1024) zeroOff3, View.ld_unit_zero (S := S1024x1) zeroOff2, View.ld_unit_zero (S := S1024x1024) zeroOff2, View.ld_unit_zero (S := S1x1024) zeroOff2]

/-- The running sum of weights after a middle key tile: the old one rescaled, plus the tile's row sums. -/
theorem sout1_B_1_eq (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) :
    sout1_B_1 c i arg3 harg3 arg4 harg4 arg5 harg5 arg6 harg6 arg7 harg7 arg8 harg8 arg9 harg9 arg10 harg10 arg11 harg11 hc0 hc1 hc2 x0 x1 x2 x3 x4 xs0 xs1 xs2 = k1_pay11 x0 x1 xs0 xs0 xs1 := by
  unfold sout1_B_1
  rw [View.read_writes_eq_canon _ _ _ (scover1_B_1 c i arg3 harg3 arg4 harg4 arg5 harg5 arg6 harg6 arg7 harg7 arg8 harg8 arg9 harg9 arg10 harg10 arg11 harg11 hc0 hc1 hc2 x0 x1 x2 x3 x4 xs0 xs1 xs2)]
  unfold kernelRun1_B
  dsimp only
  sl_unfold_words
  rw [View.canon_unit_zero zeroOff2]
  simp only [View.readAt_eq_ld, harg3.read_unread, harg4.read_unread, harg5.read_unread, harg6.read_unread, harg7.read_unread, harg9.read_unread, harg10.read_unread, harg11.read_unread, View.ld_unit_zero (S := S1x1024x128) zeroOff3, View.ld_unit_zero (S := S1x1024x1024) zeroOff3, View.ld_unit_zero (S := S1024x1) zeroOff2, View.ld_unit_zero (S := S1024x1024) zeroOff2, View.ld_unit_zero (S := S1x1024) zeroOff2]

/-- The running weighted sum after a middle key tile: the old one rescaled, plus the tile's weights applied to its value rows. -/
theorem sout1_B_2_eq (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : ¬cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) :
    sout1_B_2 c i arg3 harg3 arg4 harg4 arg5 harg5 arg6 harg6 arg7 harg7 arg8 harg8 arg9 harg9 arg10 harg10 arg11 harg11 hc0 hc1 hc2 x0 x1 x2 x3 x4 xs0 xs1 xs2 = k1_pay12 x0 x1 x2 xs0 xs0 xs2 := by
  unfold sout1_B_2
  rw [View.read_writes_eq_canon _ _ _ (scover1_B_2 c i arg3 harg3 arg4 harg4 arg5 harg5 arg6 harg6 arg7 harg7 arg8 harg8 arg9 harg9 arg10 harg10 arg11 harg11 hc0 hc1 hc2 x0 x1 x2 x3 x4 xs0 xs1 xs2)]
  unfold kernelRun1_B
  dsimp only
  sl_unfold_words
  rw [View.canon_unit_zero zeroOff2]
  simp only [View.readAt_eq_ld, harg3.read_unread, harg4.read_unread, harg5.read_unread, harg6.read_unread, harg7.read_unread, harg9.read_unread, harg10.read_unread, harg11.read_unread, View.ld_unit_zero (S := S1x1024x128) zeroOff3, View.ld_unit_zero (S := S1x1024x1024) zeroOff3, View.ld_unit_zero (S := S1024x1) zeroOff2, View.ld_unit_zero (S := S1024x1024) zeroOff2, View.ld_unit_zero (S := S1x1024) zeroOff2]

/-! ### A last key tile: the same update; then the two sums are read back AFTER their stores, so the output's value is
    over the updated sums -/

/-- The running maximum after a last key tile. -/
theorem sout1_C_0_eq (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) :
    sout1_C_0 c i arg3 harg3 arg4 harg4 arg5 harg5 arg6 harg6 arg7 harg7 arg8 harg8 arg9 harg9 arg10 harg10 arg11 harg11 hc0 hc1 hc2 x0 x1 x2 x3 x4 xs0 xs1 xs2 = k1_pay13 x0 x1 xs0 := by
  unfold sout1_C_0
  rw [View.read_writes_eq_canon _ _ _ (scover1_C_0 c i arg3 harg3 arg4 harg4 arg5 harg5 arg6 harg6 arg7 harg7 arg8 harg8 arg9 harg9 arg10 harg10 arg11 harg11 hc0 hc1 hc2 x0 x1 x2 x3 x4 xs0 xs1 xs2)]
  unfold kernelRun1_C
  dsimp only
  sl_unfold_words
  rw [View.canon_unit_zero zeroOff2]
  simp only [View.readAt_eq_ld, harg3.read_unread, harg4.read_unread, harg5.read_unread, harg6.read_unread, harg7.read_unread, harg9.read_unread, harg10.read_unread, harg11.read_unread, View.ld_unit_zero (S := S1x1024x128) zeroOff3, View.ld_unit_zero (S := S1x1024x1024) zeroOff3, View.ld_unit_zero (S := S1024x1) zeroOff2, View.ld_unit_zero (S := S1024x1024) zeroOff2, View.ld_unit_zero (S := S1x1024) zeroOff2]

/-- The running sum of weights after a last key tile. -/
theorem sout1_C_1_eq (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) :
    sout1_C_1 c i arg3 harg3 arg4 harg4 arg5 harg5 arg6 harg6 arg7 harg7 arg8 harg8 arg9 harg9 arg10 harg10 arg11 harg11 hc0 hc1 hc2 x0 x1 x2 x3 x4 xs0 xs1 xs2 = k1_pay11 x0 x1 xs0 xs0 xs1 := by
  unfold sout1_C_1
  rw [View.read_writes_eq_canon _ _ _ (scover1_C_1 c i arg3 harg3 arg4 harg4 arg5 harg5 arg6 harg6 arg7 harg7 arg8 harg8 arg9 harg9 arg10 harg10 arg11 harg11 hc0 hc1 hc2 x0 x1 x2 x3 x4 xs0 xs1 xs2)]
  unfold kernelRun1_C
  dsimp only
  sl_unfold_words
  rw [View.canon_unit_zero zeroOff2]
  simp only [View.readAt_eq_ld, harg3.read_unread, harg4.read_unread, harg5.read_unread, harg6.read_unread, harg7.read_unread, harg9.read_unread, harg10.read_unread, harg11.read_unread, View.ld_unit_zero (S := S1x1024x128) zeroOff3, View.ld_unit_zero (S := S1x1024x1024) zeroOff3, View.ld_unit_zero (S := S1024x1) zeroOff2, View.ld_unit_zero (S := S1024x1024) zeroOff2, View.ld_unit_zero (S := S1x1024) zeroOff2]

/-- The running weighted sum after a last key tile. -/
theorem sout1_C_2_eq (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) :
    sout1_C_2 c i arg3 harg3 arg4 harg4 arg5 harg5 arg6 harg6 arg7 harg7 arg8 harg8 arg9 harg9 arg10 harg10 arg11 harg11 hc0 hc1 hc2 x0 x1 x2 x3 x4 xs0 xs1 xs2 = k1_pay12 x0 x1 x2 xs0 xs0 xs2 := by
  unfold sout1_C_2
  rw [View.read_writes_eq_canon _ _ _ (scover1_C_2 c i arg3 harg3 arg4 harg4 arg5 harg5 arg6 harg6 arg7 harg7 arg8 harg8 arg9 harg9 arg10 harg10 arg11 harg11 hc0 hc1 hc2 x0 x1 x2 x3 x4 xs0 xs1 xs2)]
  unfold kernelRun1_C
  dsimp only
  sl_unfold_words
  rw [View.canon_unit_zero zeroOff2]
  simp only [View.readAt_eq_ld, harg3.read_unread, harg4.read_unread, harg5.read_unread, harg6.read_unread, harg7.read_unread, harg9.read_unread, harg10.read_unread, harg11.read_unread, View.ld_unit_zero (S := S1x1024x128) zeroOff3, View.ld_unit_zero (S := S1x1024x1024) zeroOff3, View.ld_unit_zero (S := S1024x1) zeroOff2, View.ld_unit_zero (S := S1024x1024) zeroOff2, View.ld_unit_zero (S := S1x1024) zeroOff2]

/-- The output block after a last key tile: the updated weighted sum over the updated sum of weights, projected, plus the bias. -/
theorem out1_C_5_eq (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (hc0 : ¬cond1_0 i) (hc1 : cond1_1 i) (hc2 : cond1_2 i)
    (x0 : Vec F S1x1024x128 .bf16) (x1 : Vec F S1x1024x128 .bf16) (x2 : Vec F S1x1024x1024 .bf16) (x3 : Vec F S1024x1024 .bf16) (x4 : Vec F S1x1024 .f32) (xs0 : Vec F S1024x1 .f32) (xs1 : Vec F S1024x1 .f32) (xs2 : Vec F S1024x1024 .f32) :
    out1_C_5 c i arg3 harg3 arg4 harg4 arg5 harg5 arg6 harg6 arg7 harg7 arg8 harg8 arg9 harg9 arg10 harg10 arg11 harg11 hc0 hc1 hc2 x0 x1 x2 x3 x4 xs0 xs1 xs2 = k1_pay14 (k1_pay12 x0 x1 x2 xs0 xs0 xs2) (k1_pay11 x0 x1 xs0 xs0 xs1) x3 x4 := by
  unfold out1_C_5
  rw [View.read_writes_eq_canon _ _ _ (cover1_C_5 c i arg3 harg3 arg4 harg4 arg5 harg5 arg6 harg6 arg7 harg7 arg8 harg8 arg9 harg9 arg10 harg10 arg11 harg11 hc0 hc1 hc2 x0 x1 x2 x3 x4 xs0 xs1 xs2)]
  unfold kernelRun1_C
  dsimp only
  sl_unfold_words
  rw [View.canon_unit_zero zeroOff3]
  simp only [View.readAt_eq_ld, harg3.read_unread, harg4.read_unread, harg5.read_unread, harg6.read_unread, harg7.read_unread, harg9.read_unread, harg10.read_unread, harg11.read_unread, View.ld_unit_zero (S := S1x1024x128) zeroOff3, View.ld_unit_zero (S := S1x1024x1024) zeroOff3, View.ld_unit_zero (S := S1024x1) zeroOff2, View.ld_unit_zero (S := S1024x1024) zeroOff2, View.ld_unit_zero (S := S1x1024) zeroOff2, View.readCov_unit_zero (S := S1024x1024) _ zeroOff2, View.readCov_unit_zero (S := S1024x1) _ zeroOff2]

/-! ## At a grid point -/

section
variable (V : (c : Dev nD) → (b : Ref sig .tc) → Buf (Elt F) ((c : Thread nD τ).loc b))

/-- After a first key tile: the tile's row maxima, the row sums of its weights, the weighted sums of its value rows. -/
theorem scA_eq (c : Dev nD) (t : Fin cfg1.N) (h0 : t.val % 4 = 0) :
    scA V c t h0 = (k1_pay7 (iblk1 V c 0 t) (iblk1 V c 1 t), k1_pay5 (iblk1 V c 0 t) (iblk1 V c 1 t), k1_pay6 (iblk1 V c 0 t) (iblk1 V c 1 t) (iblk1 V c 2 t)) := by
  unfold scA
  rw [sout1_A_0_eq, sout1_A_1_eq, sout1_A_2_eq]

/-- After a middle key tile, over the state `p` the point before left. -/
theorem scB_eq (c : Dev nD) (t : Fin cfg1.N) (h0 : ¬t.val % 4 = 0) (h3 : ¬t.val % 4 = 3) (p : Vec F S1024x1 .f32 × Vec F S1024x1 .f32 × Vec F S1024x1024 .f32) :
    scB V c t h0 h3 p = (k1_pay13 (iblk1 V c 0 t) (iblk1 V c 1 t) p.1, k1_pay11 (iblk1 V c 0 t) (iblk1 V c 1 t) p.1 p.1 p.2.1, k1_pay12 (iblk1 V c 0 t) (iblk1 V c 1 t) (iblk1 V c 2 t) p.1 p.1 p.2.2) := by
  unfold scB
  rw [sout1_B_0_eq, sout1_B_1_eq, sout1_B_2_eq]

/-- After a last key tile, over the state `p` the point before left: the same update. -/
theorem scC_eq (c : Dev nD) (t : Fin cfg1.N) (h3 : t.val % 4 = 3) (p : Vec F S1024x1 .f32 × Vec F S1024x1 .f32 × Vec F S1024x1024 .f32) :
    scC V c t h3 p = (k1_pay13 (iblk1 V c 0 t) (iblk1 V c 1 t) p.1, k1_pay11 (iblk1 V c 0 t) (iblk1 V c 1 t) p.1 p.1 p.2.1, k1_pay12 (iblk1 V c 0 t) (iblk1 V c 1 t) (iblk1 V c 2 t) p.1 p.1 p.2.2) := by
  unfold scC
  rw [sout1_C_0_eq, sout1_C_1_eq, sout1_C_2_eq]

/-- The output block after a last key tile: the quotient of the updated weighted sum by the updated sum of weights,
    projected, plus the bias. -/
theorem outC_eq (c : Dev nD) (t : Fin cfg1.N) (h3 : t.val % 4 = 3) (p : Vec F S1024x1 .f32 × Vec F S1024x1 .f32 × Vec F S1024x1024 .f32) :
    outC V c t h3 p = k1_pay14 (k1_pay12 (iblk1 V c 0 t) (iblk1 V c 1 t) (iblk1 V c 2 t) p.1 p.1 p.2.2) (k1_pay11 (iblk1 V c 0 t) (iblk1 V c 1 t) p.1 p.1 p.2.1) (iblk1 V c 3 t) (iblk1 V c 4 t) := by
  unfold outC
  rw [out1_C_5_eq]

end

end Cert.KernelIdeal.Hand

end
-- ==== Proof.KIV.Pay1.lean ====
/-
  The arithmetic of the second launch's body read at an index, on the extended reals.  For the blocks of one grid point —
  a query block `q`, a key block `kb`, a value block `vb` — the score of query row `r` against key row `s` is a
  contraction over 128 coordinates; a tile's row maximum is a fold of `max` from `-∞`; the weights are exponentials of
  scores less a maximum; the sums are sums over the tile's 1024 key rows.
-/
import proofs.«410308_j10230612099232_3_alg».proof.Proof.Gen.KernelIdeal.Skeleton
import proofs.«410308_j10230612099232_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Attn
variable {F : FTy → Type} [FloatOps F]

local notation "𝕄" => MT nD τ sig Unit (Elt F) ℕ (UR sig nD τ) ℕ

/-! ## A vector as a one-column matrix, and a one-column matrix repeated along its rows -/

section Column
variable {α : Type}

/-- An `[a]` array cast to `[a, 1]` reads, at `(i, u)`, the operand at `i`, whatever the unit coordinate `u`. -/
theorem l1_shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem l1_broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## A row's sum and a row's maximum over the 1024 lanes -/

/-- The lane sum of a `[1024, 1024]` array at row `r` is the sum of the row. -/
theorem l1_rowSum_apply (src : FVec Ideal S1024x1024 .f32) (hφ : FKind.Formats .f32)
    (hacc : (0x00000000#32 : BitVec 32) = 0x00000000#32) (r : Fin 1024) :
    multiReduction (F := Ideal) .add [1] S1024 src 0x00000000#32 reduces_S1024x1024_S1024 hφ hacc (ix1 r)
      = ∑ s : Fin 1024, src (ix2 r s) := by
  refine (Ideal.multiReduction_add_single src 0x00000000#32 reduces_S1024x1024_S1024 hφ hacc (ix1 r)).trans ?_
  refine Finset.sum_congr rfl fun k _ => congrArg src ?_
  funext a
  match a with
  | ⟨0, _⟩ => rfl
  | ⟨1, _⟩ => rfl

/-- The lane maximum of a `[1024, 1024]` array at row `r` is the fold of `max` from `-∞` over the row. -/
theorem l1_rowMax_apply (src : FVec Ideal S1024x1024 .f32) (hφ : FKind.Formats .f32)
    (hacc : (0xFF800000#32 : BitVec 32) = 0xFF800000#32) (r : Fin 1024) :
    multiReduction (F := Ideal) .maximumf [1] S1024 src 0xFF800000#32 reduces_S1024x1024_S1024 hφ hacc (ix1 r)
      = (Finset.univ : Finset (Fin 1024)).fold max ninf (fun s => src (ix2 r s)) := by
  refine (Ideal.multiReduction_maximumf_single src 0xFF800000#32 reduces_S1024x1024_S1024 hφ hacc (ix1 r)).trans ?_
  refine congrArg (fun f => (Finset.univ : Finset (Fin 1024)).fold max ninf f) ?_
  funext k
  refine congrArg src ?_
  funext a
  match a with
  | ⟨0, _⟩ => rfl
  | ⟨1, _⟩ => rfl

/-! ## The two matrix products at an index -/

theorem l1_qk_lhs_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem l1_qk_lhs_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem l1_qk_rhs_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem l1_qk_rhs_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The product of a `[1024, 128]` array with the transpose of another, into zero: row `r` against row `s`. -/
theorem l1_matmul_qk_apply (l rr : FVec Ideal S1024x128 .bf16) (r s : Fin 1024) :
    matmul dot_S1024x128_S1024x128_S1024x1024_1_1_0_0_n_n none l rr (constant (F := Ideal) S1024x1024 .f32 0x00000000#32) (ix2 r s)
      = ∑ j : Fin 128, l (ix2 r j) * rr (ix2 s j) := by
  simp only [matmul]
  rw [Ideal.matmul_constant_zero_apply, ← Equiv.sum_comp (ValueIdx.contrEquiv1 dot_S1024x128_S1024x128_S1024x1024_1_1_0_0_n_n 128 rfl rfl).symm]
  refine Finset.sum_congr rfl fun k _ => ?_
  have hk := ValueIdx.contrEquiv1_symm_val dot_S1024x128_S1024x128_S1024x1024_1_1_0_0_n_n 128 rfl rfl k
  have el : dot_S1024x128_S1024x128_S1024x1024_1_1_0_0_n_n.lhsIdx (ix2 r s) ((ValueIdx.contrEquiv1 dot_S1024x128_S1024x128_S1024x1024_1_1_0_0_n_n 128 rfl rfl).symm k) = ix2 r k := funext fun a => Fin.ext (by
    match a with
    | ⟨0, _⟩ => exact l1_qk_lhs_0 _ _
    | ⟨1, _⟩ => exact (l1_qk_lhs_1 _ _).trans hk)
  have er : dot_S1024x128_S1024x128_S1024x1024_1_1_0_0_n_n.rhsIdx (ix2 r s) ((ValueIdx.contrEquiv1 dot_S1024x128_S1024x128_S1024x1024_1_1_0_0_n_n 128 rfl rfl).symm k) = ix2 s k := funext fun a => Fin.ext (by
    match a with
    | ⟨0, _⟩ => exact l1_qk_rhs_0 _ _
    | ⟨1, _⟩ => exact (l1_qk_rhs_1 _ _).trans hk)
  rw [el, er]

theorem l1_pv_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem l1_pv_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem l1_pv_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem l1_pv_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The plain product of two `[1024, 1024]` arrays, into zero: row `r` of the left against column `e` of the right. -/
theorem l1_matmul_pv_apply (l rr : FVec Ideal S1024x1024 .bf16) (r e : Fin 1024) :
    matmul dot_S1024x1024_S1024x1024_S1024x1024_1_0_0_1_n_n none l rr (constant (F := Ideal) S1024x1024 .f32 0x00000000#32) (ix2 r e)
      = ∑ s : Fin 1024, l (ix2 r s) * rr (ix2 s e) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 r e) ((ValueIdx.contrEquiv1 dot_S1024x1024_S1024x1024_S1024x1024_1_0_0_1_n_n 1024 rfl rfl).symm k) = ix2 r k := funext fun a => Fin.ext (by
    match a with
    | ⟨0, _⟩ => exact l1_pv_lhs_0 _ _
    | ⟨1, _⟩ => exact (l1_pv_lhs_1 _ _).trans hk)
  have er : dot_S1024x1024_S1024x1024_S1024x1024_1_0_0_1_n_n.rhsIdx (ix2 r e) ((ValueIdx.contrEquiv1 dot_S1024x1024_S1024x1024_S1024x1024_1_0_0_1_n_n 1024 rfl rfl).symm k) = ix2 k e := funext fun a => Fin.ext (by
    match a with
    | ⟨0, _⟩ => exact (l1_pv_rhs_0 _ _).trans hk
    | ⟨1, _⟩ => exact l1_pv_rhs_1 _ _)
  rw [el, er]

variable (q kb : Vec Ideal S1x1024x128 .bf16) (vb : Vec Ideal S1x1024x1024 .bf16)
  (mo lo : Vec Ideal S1024x1 .f32) (acc : Vec Ideal S1024x1024 .f32) (wo : Vec Ideal S1024x1024 .bf16) (bo : Vec Ideal S1x1024 .f32)

/-- The score of query row `r` against key row `s` of the point's blocks. -/
def bsc (r s : Fin 1024) : EReal := ∑ j : Fin 128, q (ix3 (0 : Fin 1) r j) * kb (ix3 (0 : Fin 1) s j)
/-- The tile's maximum for query row `r`. -/
def btmax (r : Fin 1024) : EReal := (Finset.univ : Finset (Fin 1024)).fold max ninf (fun s => bsc q kb r s)

theorem l1_pay1_apply (s e : Fin 1024) : k1_pay1 (F := Ideal) vb (ix2 s e) = vb (ix3 (0 : Fin 1) s e) := by
  unfold k1_pay1
  exact shapeCast_1ab_ab_apply vb _ s e

theorem l1_pay2_apply (r s : Fin 1024) : k1_pay2 (F := Ideal) q kb (ix2 r s) = bsc q kb r s := by
  unfold k1_pay2 bsc
  refine (l1_matmul_qk_apply _ _ r s).trans ?_
  refine Finset.sum_congr rfl fun j _ => ?_
  rw [shapeCast_1ab_ab_apply, shapeCast_1ab_ab_apply]

theorem l1_pay3_apply (r : Fin 1024) (u : Fin 1) : k1_pay3 (F := Ideal) q kb (ix2 r u) = btmax q kb r := by
  unfold k1_pay3 btmax
  refine (l1_shapeCast_a_a1_apply _ _ r u).trans ?_
  refine (l1_rowMax_apply _ _ _ r).trans ?_
  exact congrArg (fun f => (Finset.univ : Finset (Fin 1024)).fold max ninf f) (funext fun s => l1_pay2_apply q kb r s)

theorem l1_pay4_apply (r s : Fin 1024) :
    k1_pay4 (F := Ideal) q kb (ix2 r s) = Ideal.exp (bsc q kb r s - btmax q kb r) := by
  unfold k1_pay4
  show Ideal.exp (k1_pay2 (F := Ideal) q kb (ix2 r s)
    - broadcastTo S1024x1024 (k1_pay3 (F := Ideal) q kb) broadcasts_S1024x1_S1024x1024 (ix2 r s)) = _
  rw [l1_pay2_apply, l1_broadcastTo_a1_ab_apply, l1_pay3_apply]

theorem pay7_apply (r : Fin 1024) : k1_pay7 (F := Ideal) q kb (ix2 r (0 : Fin 1)) = btmax q kb r := by
  unfold k1_pay7
  simp only [shapeCast_self]
  exact l1_pay3_apply q kb r 0
theorem pay5_apply (r : Fin 1024) :
    k1_pay5 (F := Ideal) q kb (ix2 r (0 : Fin 1)) = ∑ s : Fin 1024, Ideal.exp (bsc q kb r s - btmax q kb r) := by
  unfold k1_pay5
  simp only [shapeCast_self]
  refine (l1_shapeCast_a_a1_apply _ _ r 0).trans ?_
  refine (l1_rowSum_apply _ _ _ r).trans ?_
  exact Finset.sum_congr rfl fun s _ => l1_pay4_apply q kb r s
theorem pay6_apply (r e : Fin 1024) :
    k1_pay6 (F := Ideal) q kb vb (ix2 r e) = ∑ s : Fin 1024, Ideal.exp (bsc q kb r s - btmax q kb r) * vb (ix3 (0 : Fin 1) s e) := by
  unfold k1_pay6
  simp only [shapeCast_self]
  refine (l1_matmul_pv_apply _ _ r e).trans ?_
  refine Finset.sum_congr rfl fun s _ => ?_
  rw [truncf_apply, l1_pay4_apply, l1_pay1_apply]

theorem l1_pay8_apply (r : Fin 1024) (u : Fin 1) :
    k1_pay8 (F := Ideal) q kb mo (ix2 r u) = max (mo (ix2 r u)) (btmax q kb r) := by
  unfold k1_pay8
  refine (maximumf_apply mo _ (ix2 r u)).trans ?_
  refine congrArg (max (mo (ix2 r u))) ?_
  refine (l1_shapeCast_a_a1_apply _ _ r u).trans ?_
  refine (l1_rowMax_apply _ _ _ r).trans ?_
  exact congrArg (fun f => (Finset.univ : Finset (Fin 1024)).fold max ninf f) (funext fun s => l1_pay2_apply q kb r s)

theorem l1_pay9_apply (m2 : Vec Ideal S1024x1 .f32) (r : Fin 1024) (u : Fin 1) :
    k1_pay9 (F := Ideal) q kb mo m2 (ix2 r u) = Ideal.exp (m2 (ix2 r u) - max (mo (ix2 r u)) (btmax q kb r)) := by
  unfold k1_pay9
  show Ideal.exp (m2 (ix2 r u) - k1_pay8 (F := Ideal) q kb mo (ix2 r u)) = _
  rw [l1_pay8_apply]

theorem l1_pay10_apply (r s : Fin 1024) :
    k1_pay10 (F := Ideal) q kb mo (ix2 r s)
      = Ideal.exp (bsc q kb r s - max (mo (ix2 r (0 : Fin 1))) (btmax q kb r)) := by
  unfold k1_pay10
  show Ideal.exp (k1_pay2 (F := Ideal) q kb (ix2 r s)
    - broadcastTo S1024x1024 (k1_pay8 (F := Ideal) q kb mo) broadcasts_S1024x1_S1024x1024 (ix2 r s)) = _
  rw [l1_pay2_apply, l1_broadcastTo_a1_ab_apply, l1_pay8_apply]

theorem pay13_apply (r : Fin 1024) :
    k1_pay13 (F := Ideal) q kb mo (ix2 r (0 : Fin 1)) = max (mo (ix2 r (0 : Fin 1))) (btmax q kb r) := by
  unfold k1_pay13
  simp only [shapeCast_self]
  exact l1_pay8_apply q kb mo r 0
theorem pay11_apply (r : Fin 1024) :
    k1_pay11 (F := Ideal) q kb mo mo lo (ix2 r (0 : Fin 1))
      = Ideal.exp (mo (ix2 r (0 : Fin 1)) - max (mo (ix2 r (0 : Fin 1))) (btmax q kb r)) * lo (ix2 r (0 : Fin 1))
        + ∑ s : Fin 1024, Ideal.exp (bsc q kb r s - max (mo (ix2 r (0 : Fin 1))) (btmax q kb r)) := by
  unfold k1_pay11
  refine (congrFun (shapeCast_self _ _) (ix2 r (0 : Fin 1))).trans ?_
  refine (addf_apply _ _ _).trans ?_
  refine congrArg₂ (· + ·) ?_ ?_
  · refine (mulf_apply _ _ _).trans ?_
    exact congrArg (· * lo (ix2 r (0 : Fin 1))) (l1_pay9_apply q kb mo mo r 0)
  · refine (l1_shapeCast_a_a1_apply _ _ r 0).trans ?_
    refine (l1_rowSum_apply _ _ _ r).trans ?_
    exact Finset.sum_congr rfl fun s _ => l1_pay10_apply q kb mo r s

theorem pay12_apply (r e : Fin 1024) :
    k1_pay12 (F := Ideal) q kb vb mo mo acc (ix2 r e)
      = Ideal.exp (mo (ix2 r (0 : Fin 1)) - max (mo (ix2 r (0 : Fin 1))) (btmax q kb r)) * acc (ix2 r e)
        + ∑ s : Fin 1024, Ideal.exp (bsc q kb r s - max (mo (ix2 r (0 : Fin 1))) (btmax q kb r)) * vb (ix3 (0 : Fin 1) s e) := by
  unfold k1_pay12
  refine (congrFun (shapeCast_self _ _) (ix2 r e)).trans ?_
  refine (addf_apply _ _ _).trans ?_
  refine congrArg₂ (· + ·) ?_ ?_
  · refine (mulf_apply _ _ _).trans ?_
    refine congrArg (· * acc (ix2 r e)) ?_
    refine (l1_broadcastTo_a1_ab_apply _ _ r e).trans ?_
    exact l1_pay9_apply q kb mo mo r 0
  · refine (l1_matmul_pv_apply _ _ r e).trans ?_
    refine Finset.sum_congr rfl fun s _ => ?_
    refine congrArg₂ (· * ·) ?_ ?_
    · refine (truncf_apply (φ := .f32) (ψ := .bf16) _ _ _).trans ?_
      exact l1_pay10_apply q kb mo r s
    · exact l1_pay1_apply vb s e

theorem pay14_apply (r e' : Fin 1024) :
    k1_pay14 (F := Ideal) acc lo wo bo (ix3 (0 : Fin 1) r e')
      = (∑ e : Fin 1024, Ideal.div (acc (ix2 r e)) (lo (ix2 r (0 : Fin 1))) * wo (ix2 e e')) + bo (ix2 (0 : Fin 1) e') := by
  unfold k1_pay14
  refine (shapeCast_ab_1ab_apply _ _ (0 : Fin 1) r e').trans ?_
  refine (addf_apply _ _ _).trans ?_
  refine congrArg₂ (· + ·) ?_ ?_
  · refine (l1_matmul_pv_apply _ _ r e').trans ?_
    refine Finset.sum_congr rfl fun e _ => ?_
    refine congrArg₂ (· * ·) ?_ ?_
    · refine (truncf_apply (φ := .f32) (ψ := .bf16) _ _ _).trans ?_
      refine (divf_apply _ _ _).trans ?_
      exact congrArg (Ideal.div (acc (ix2 r e))) (l1_broadcastTo_a1_ab_apply _ _ r e)
    · exact congrFun (shapeCast_self _ _) (ix2 e e')
  · refine (broadcastTo_1b_ab_apply _ _ r e').trans ?_
    exact congrFun (shapeCast_self _ _) (ix2 (0 : Fin 1) e')

end Cert.KernelIdeal.Hand

end
-- ==== Proof.KIV.Val1Blocks.lean ====
/-
  The second launch's input blocks read at an index: a grid point `t` is (batch, query tile, key tile) with
  `t = (batch·4 + query tile)·4 + key tile`; its query block is rows `query tile·1024 …` of the batch's query array, its
  key and value blocks are rows `key tile·1024 …` of the batch's key and value arrays, and the output weights and the
  bias are whole.
-/
import proofs.«410308_j10230612099232_3_alg».proof.Proof.KI.R1
import proofs.«410308_j10230612099232_3_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Attn
variable {F : FTy → Type} [FloatOps F]

local notation "𝕄" => MT nD τ sig Unit (Elt F) ℕ (UR sig nD τ) ℕ

/-- The batch of point `t`. -/
def pb (t : Fin cfg1.N) : Fin 2 := ⟨t.val / 16, by have := t.isLt; have hN : cfg1.N = 32 := N_1; omega⟩
/-- The query tile of point `t`. -/
def pq (t : Fin cfg1.N) : Fin 4 := ⟨(t.val / 4) % 4, by omega⟩
/-- The key tile of point `t`. -/
def pk (t : Fin cfg1.N) : Fin 4 := ⟨t.val % 4, by omega⟩

/-! The printed index maps of the five input windows, decided once over the 32 grid points: the query window follows
    (batch, query tile), the key and value windows follow (batch, key tile), and the output weights' and the bias's windows
    stay at block zero. -/
theorem idx_facts1_0 : ∀ t : Fin cfg1.N, win1_0.index t (0 : Fin 3) = t.val / 16 ∧ win1_0.index t (1 : Fin 3) = (t.val / 4) % 4
    ∧ win1_0.index t (2 : Fin 3) = 0 :=
  (by decide +kernel : ∀ t : Fin grid1.N, _)
theorem idx_facts1_1 : ∀ t : Fin cfg1.N, win1_1.index t (0 : Fin 3) = t.val / 16 ∧ win1_1.index t (1 : Fin 3) = t.val % 4
    ∧ win1_1.index t (2 : Fin 3) = 0 :=
  (by decide +kernel : ∀ t : Fin grid1.N, _)
theorem idx_facts1_2 : ∀ t : Fin cfg1.N, win1_2.index t (0 : Fin 3) = t.val / 16 ∧ win1_2.index t (1 : Fin 3) = t.val % 4
    ∧ win1_2.index t (2 : Fin 3) = 0 :=
  (by decide +kernel : ∀ t : Fin grid1.N, _)
theorem idx_facts1_3 : ∀ t : Fin cfg1.N, win1_3.index t (0 : Fin 2) = 0 ∧ win1_3.index t (1 : Fin 2) = 0 :=
  (by decide +kernel : ∀ t : Fin grid1.N, _)
theorem idx_facts1_4 : ∀ t : Fin cfg1.N, win1_4.index t (0 : Fin 2) = 0 ∧ win1_4.index t (1 : Fin 2) = 0 :=
  (by decide +kernel : ∀ t : Fin grid1.N, _)

section
variable (V : (c : Dev nD) → (b : Ref sig .tc) → Buf (Elt Ideal) ((c : Thread nD τ).loc b))

/-! A block's entry sits in its array at, on each axis, block index × block extent + the coordinate inside the block. -/

theorem iblk1_0_apply (c : Dev nD) (t : Fin cfg1.N) (r : Fin 1024) (j : Fin 128) :
    (iblk1 V c 0 t (ix3 (0 : Fin 1) r j) : EReal) = V c main_v6_0 (ix3 (pb t) (Flash.key (pq t) r) j) := by
  obtain ⟨e0, e1, e2⟩ := idx_facts1_0 t
  show V c main_v6_0 (((cfg1.win 0).blk t).view.emb (ix3 (0 : Fin 1) r j)) = _
  congr 1
  funext a; apply Fin.ext
  match a with
  | ⟨0, _⟩ => show win1_0.index t (0 : Fin 3) * 1 + 1 * 0 = t.val / 16; omega
  | ⟨1, _⟩ => show win1_0.index t (1 : Fin 3) * 1024 + 1 * r.val = (t.val / 4) % 4 * 1024 + r.val; omega
  | ⟨2, _⟩ => show win1_0.index t (2 : Fin 3) * 128 + 1 * j.val = j.val; omega
theorem iblk1_1_apply (c : Dev nD) (t : Fin cfg1.N) (s : Fin 1024) (j : Fin 128) :
    (iblk1 V c 1 t (ix3 (0 : Fin 1) s j) : EReal) = V c main_v6_1 (ix3 (pb t) (Flash.key (pk t) s) j) := by
  obtain ⟨e0, e1, e2⟩ := idx_facts1_1 t
  show V c main_v6_1 (((cfg1.win 1).blk t).view.emb (ix3 (0 : Fin 1) s j)) = _
  congr 1
  funext a; apply Fin.ext
  match a with
  | ⟨0, _⟩ => show win1_1.index t (0 : Fin 3) * 1 + 1 * 0 = t.val / 16; omega
  | ⟨1, _⟩ => show win1_1.index t (1 : Fin 3) * 1024 + 1 * s.val = t.val % 4 * 1024 + s.val; omega
  | ⟨2, _⟩ => show win1_1.index t (2 : Fin 3) * 128 + 1 * j.val = j.val; omega
theorem iblk1_2_apply (c : Dev nD) (t : Fin cfg1.N) (s : Fin 1024) (e : Fin 1024) :
    (iblk1 V c 2 t (ix3 (0 : Fin 1) s e) : EReal) = V c main_v6_2 (ix3 (pb t) (Flash.key (pk t) s) e) := by
  obtain ⟨e0, e1, e2⟩ := idx_facts1_2 t
  show V c main_v6_2 (((cfg1.win 2).blk t).view.emb (ix3 (0 : Fin 1) s e)) = _
  congr 1
  funext a; apply Fin.ext
  match a with
  | ⟨0, _⟩ => show win1_2.index t (0 : Fin 3) * 1 + 1 * 0 = t.val / 16; omega
  | ⟨1, _⟩ => show win1_2.index t (1 : Fin 3) * 1024 + 1 * s.val = t.val % 4 * 1024 + s.val; omega
  | ⟨2, _⟩ => show win1_2.index t (2 : Fin 3) * 1024 + 1 * e.val = e.val; omega
theorem iblk1_3_apply (c : Dev nD) (t : Fin cfg1.N) (d e : Fin 1024) :
    (iblk1 V c 3 t (ix2 d e) : EReal) = V c main_v5 (ix2 d e) := by
  obtain ⟨e0, e1⟩ := idx_facts1_3 t
  show V c main_v5 (((cfg1.win 3).blk t).view.emb (ix2 d e)) = _
  congr 1
  funext a; apply Fin.ext
  match a with
  | ⟨0, _⟩ => show win1_3.index t (0 : Fin 2) * 1024 + 1 * d.val = d.val; omega
  | ⟨1, _⟩ => show win1_3.index t (1 : Fin 2) * 1024 + 1 * e.val = e.val; omega
theorem iblk1_4_apply (c : Dev nD) (t : Fin cfg1.N) (e : Fin 1024) :
    (iblk1 V c 4 t (ix2 (0 : Fin 1) e) : EReal) = V c main_v7 (ix2 (0 : Fin 1) e) := by
  obtain ⟨e0, e1⟩ := idx_facts1_4 t
  show V c main_v7 (((cfg1.win 4).blk t).view.emb (ix2 (0 : Fin 1) e)) = _
  congr 1
  funext a; apply Fin.ext
  match a with
  | ⟨0, _⟩ => show win1_4.index t (0 : Fin 2) * 1 + 1 * 0 = 0; omega
  | ⟨1, _⟩ => show win1_4.index t (1 : Fin 2) * 1024 + 1 * e.val = e.val; omega

end

end Cert.KernelIdeal.Hand

end
-- ==== Proof.KIV.Val1Cover.lean ====
/-
  From the second launch's output blocks to the result array: the output window's block at grid point
  (batch, query tile, key tile) is rows `query tile·1024 …` of the batch's result rows, written back only after the
  last key tile; these blocks tile the array, so if every block written back is the matching block of one function
  `G` of the array's index, the array ends holding `G`.
-/
import proofs.«410308_j10230612099232_3_alg».proof.Proof.KI.R1
import proofs.«410308_j10230612099232_3_alg».proof.Proof.KIV.Val1Blocks
import proofs.«410308_j10230612099232_3_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Attn
variable {F : FTy → Type} [FloatOps F]

local notation "𝕄" => MT nD τ sig Unit (Elt F) ℕ (UR sig nD τ) ℕ

/-! The output window's printed index map, decided once over the 32 grid points: it follows (batch, query tile). -/
theorem idx_facts1_5 : ∀ t : Fin cfg1.N, win1_5.index t (0 : Fin 3) = t.val / 16 ∧ win1_5.index t (1 : Fin 3) = (t.val / 4) % 4
    ∧ win1_5.index t (2 : Fin 3) = 0 :=
  (by decide +kernel : ∀ t : Fin grid1.N, _)

/-- An index of the result array is in point `t`'s block iff each coordinate is in the block's range on its axis. -/
theorem mem_blk1_5 (t : Fin cfg1.N) (i : S2x4096x1024.Idx) :
    i ∈ ((cfg1.win 5).blk t).view.set ↔ ∀ a : Fin 3, win1_5.index t a * S1x1024x1024.size a ≤ (i a).val ∧ (i a).val < win1_5.index t a * S1x1024x1024.size a + S1x1024x1024.size a := by
  show i ∈ ((View.whole main_v8).slice (win1_5.rect t)).set ↔ _
  rw [View.set_slice_whole, Rect.mem_set_unit]
  exact Iff.rfl

section
variable (V : (c : Dev nD) → (b : Ref sig .tc) → Buf (Elt Ideal) ((c : Thread nD τ).loc b))

theorem final1_of_block (c : Dev nD) (G : S2x4096x1024.Idx → EReal)
    (hblk : ∀ t : Fin cfg1.N, t.val % 4 = 3 → ∀ (r e' : Fin 1024),
      (outAt1 V c t (ix3 (0 : Fin 1) r e') : EReal) = G (ix3 (pb t) (Flash.key (pq t) r) e'))
    (i : S2x4096x1024.Idx) :
    ((dat1 V c).arrAt 5 cfg1.N i : EReal) = G i := by
  have hN : cfg1.N = 32 := N_1
  refine congrFun ((dat1 V c).arrAt_eq_of_cover 5 G (fun t hf => ?_) (fun i => ?_)) i
  · -- what a flushing point writes back is its block of `G`
    have h3 : t.val % 4 = 3 := (flush1_5 t).mp hf
    obtain ⟨e0, e1, e2⟩ := idx_facts1_5 t
    show (cfg1.win 5).cut (grid1.coords t) ((dat1 V c).after 5 t) = _
    rw [after1_5]
    funext y
    obtain ⟨u, r, e', rfl⟩ : ∃ (u : Fin 1) (r e' : Fin 1024), y = ix3 u r e' := ⟨y 0, y 1, y 2, eq_ix3 y⟩
    obtain rfl : u = 0 := Subsingleton.elim _ _
    show outAt1 V c t (ix3 (0 : Fin 1) r e') = G (((cfg1.win 5).blk t).view.emb (ix3 (0 : Fin 1) r e'))
    rw [hblk t h3 r e']
    congr 1
    funext a; apply Fin.ext
    match a with
    | ⟨0, _⟩ => show t.val / 16 = win1_5.index t (0 : Fin 3) * 1 + 1 * 0; omega
    | ⟨1, _⟩ => show (t.val / 4) % 4 * 1024 + r.val = win1_5.index t (1 : Fin 3) * 1024 + 1 * r.val; omega
    | ⟨2, _⟩ => show e'.val = win1_5.index t (2 : Fin 3) * 1024 + 1 * e'.val; omega
  · -- every index is in the block of the point (its batch, its row's tile, the last key tile)
    have hi0 : (i 0).val < 2 := (i 0).isLt
    have hi1 : (i 1).val < 4096 := (i 1).isLt
    have hi2 : (i 2).val < 1024 := (i 2).isLt
    let t : Fin cfg1.N := ⟨((i 0).val * 4 + (i 1).val / 1024) * 4 + 3, by omega⟩
    have ht : t.val = ((i 0).val * 4 + (i 1).val / 1024) * 4 + 3 := rfl
    obtain ⟨e0, e1, e2⟩ := idx_facts1_5 t
    refine ⟨t, (flush1_5 t).mpr (by omega), ?_⟩
    rw [mem_blk1_5]
    intro a
    match a with
    | ⟨0, _⟩ => show win1_5.index t (0 : Fin 3) * 1 ≤ (i 0).val ∧ (i 0).val < win1_5.index t (0 : Fin 3) * 1 + 1; omega
    | ⟨1, _⟩ => show win1_5.index t (1 : Fin 3) * 1024 ≤ (i 1).val ∧ (i 1).val < win1_5.index t (1 : Fin 3) * 1024 + 1024; omega
    | ⟨2, _⟩ => show win1_5.index t (2 : Fin 3) * 1024 ≤ (i 2).val ∧ (i 2).val < win1_5.index t (2 : Fin 3) * 1024 + 1024; omega

end

end Cert.KernelIdeal.Hand

end
-- ==== Proof.KIV.Val1.lean ====
/-
  What the second launch leaves in the result array, on the extended reals: the block of query tile `qi` of batch `b` is
  written once, after the last key tile, from the running state that the four key tiles built up row by row; that state
  is the streaming form's, so the array is, entry by entry, the streaming attention with its projection and bias.

  The running state, row by row: what the three scratch buffers hold after a grid point is, for every query row of the
  point's tile, the streaming form's state after the point's key tile — its maximum, its sum of weights and its weighted
  sum of value rows.  A first key tile initialises that state from the tile's scores; every later one rescales it by the
  exponential of the old maximum less the new and adds the tile's own weights.  After the fourth tile the quotient of the
  weighted sum by the sum of weights is the attention's output row, which the point projects and shifts by the bias.
-/
import proofs.«410308_j10230612099232_3_alg».proof.Proof.KI.R1
import proofs.«410308_j10230612099232_3_alg».proof.Proof.KIV.Pieces
import proofs.«410308_j10230612099232_3_alg».proof.Proof.KIV.Pay1
import proofs.«410308_j10230612099232_3_alg».proof.Proof.KIV.Val1Blocks
import proofs.«410308_j10230612099232_3_alg».proof.Proof.KIV.Val1Cover
import proofs.«410308_j10230612099232_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Attn

namespace Val1

/-- The scratch triple `p` holds, row by row, the states `S r`. -/
def Holds (p : Vec Ideal S1024x1 .f32 × Vec Ideal S1024x1 .f32 × Vec Ideal S1024x1024 .f32) (S : Fin 1024 → Flash.St) : Prop :=
  ∀ r : Fin 1024, p.1 (ix2 r (0 : Fin 1)) = (S r).m ∧ p.2.1 (ix2 r (0 : Fin 1)) = (S r).l
    ∧ ∀ e : Fin 1024, p.2.2 (ix2 r e) = (S r).acc e

section fields
variable (Qa Ka : A2x4096x128) (Va : A2x4096x1024) (b : Fin 2) (R : Fin 4096) (k : Fin 4) (p : Flash.St)

theorem st0_m : (Flash.st0 Qa Ka Va b R).m = Flash.tmax Qa Ka b R 0 := rfl
theorem st0_l : (Flash.st0 Qa Ka Va b R).l
    = ∑ u : Fin 1024, Ideal.exp (Flash.sc Qa Ka b R (Flash.key 0 u) - Flash.tmax Qa Ka b R 0) := rfl
theorem st0_acc (e : Fin 1024) : (Flash.st0 Qa Ka Va b R).acc e
    = ∑ u : Fin 1024, Ideal.exp (Flash.sc Qa Ka b R (Flash.key 0 u) - Flash.tmax Qa Ka b R 0) * Va (ix3 b (Flash.key 0 u) e) := rfl
theorem stS_m : (Flash.stS Qa Ka Va p b R k).m = max p.m (Flash.tmax Qa Ka b R k) := rfl
theorem stS_l : (Flash.stS Qa Ka Va p b R k).l
    = Ideal.exp (p.m - max p.m (Flash.tmax Qa Ka b R k)) * p.l
      + ∑ u : Fin 1024, Ideal.exp (Flash.sc Qa Ka b R (Flash.key k u) - max p.m (Flash.tmax Qa Ka b R k)) := rfl
theorem stS_acc (e : Fin 1024) : (Flash.stS Qa Ka Va p b R k).acc e
    = Ideal.exp (p.m - max p.m (Flash.tmax Qa Ka b R k)) * p.acc e
      + ∑ u : Fin 1024, Ideal.exp (Flash.sc Qa Ka b R (Flash.key k u) - max p.m (Flash.tmax Qa Ka b R k)) * Va (ix3 b (Flash.key k u) e) := rfl
theorem stAt_zero : Flash.stAt Qa Ka Va b R 0 = Flash.st0 Qa Ka Va b R := rfl
theorem stAt_succ (n : ℕ) (h : n + 1 < 4) :
    Flash.stAt Qa Ka Va b R (n + 1) = Flash.stS Qa Ka Va (Flash.stAt Qa Ka Va b R n) b R ⟨n + 1, h⟩ := by
  show (if h : n + 1 < 4 then Flash.stS Qa Ka Va (Flash.stAt Qa Ka Va b R n) b R ⟨n + 1, h⟩ else Flash.stAt Qa Ka Va b R n) = _
  exact dif_pos h

end fields

section steps
variable (q kb : Vec Ideal S1x1024x128 .bf16) (vb : Vec Ideal S1x1024x1024 .bf16)
  (Qa Ka : A2x4096x128) (Va : A2x4096x1024) (b : Fin 2) (Rw : Fin 1024 → Fin 4096) (k : Fin 4)

/-- The tile's maximum of a block is the streaming form's, once the block's scores are the arrays'. -/
theorem btmax_eq (hsc : ∀ r s, bsc q kb r s = Flash.sc Qa Ka b (Rw r) (Flash.key k s)) (r : Fin 1024) :
    btmax q kb r = Flash.tmax Qa Ka b (Rw r) k := by
  unfold btmax Flash.tmax
  exact congrArg (fun f => (Finset.univ : Finset (Fin 1024)).fold max ninf f) (funext fun s => hsc r s)

/-- A first key tile leaves the streaming form's initial state. -/
theorem holds_first (hsc : ∀ r s, bsc q kb r s = Flash.sc Qa Ka b (Rw r) (Flash.key 0 s))
    (hv : ∀ s e, vb (ix3 (0 : Fin 1) s e) = Va (ix3 b (Flash.key 0 s) e)) :
    Holds (k1_pay7 (F := Ideal) q kb, k1_pay5 (F := Ideal) q kb, k1_pay6 (F := Ideal) q kb vb)
      (fun r => Flash.st0 Qa Ka Va b (Rw r)) := by
  intro r
  have hm := btmax_eq q kb Qa Ka b Rw 0 hsc r
  refine ⟨?_, ?_, fun e => ?_⟩
  · dsimp only
    rw [st0_m]
    exact (pay7_apply q kb r).trans hm
  · dsimp only
    rw [st0_l]
    refine (pay5_apply q kb r).trans ?_
    exact Finset.sum_congr rfl fun s _ => by rw [hsc r s, hm]
  · dsimp only
    rw [st0_acc]
    refine (pay6_apply q kb vb r e).trans ?_
    exact Finset.sum_congr rfl fun s _ => by rw [hsc r s, hm, hv s e]

/-- A later key tile absorbs its scores into the state the point before left. -/
theorem holds_step (p : Vec Ideal S1024x1 .f32 × Vec Ideal S1024x1 .f32 × Vec Ideal S1024x1024 .f32) (S : Fin 1024 → Flash.St)
    (hsc : ∀ r s, bsc q kb r s = Flash.sc Qa Ka b (Rw r) (Flash.key k s))
    (hv : ∀ s e, vb (ix3 (0 : Fin 1) s e) = Va (ix3 b (Flash.key k s) e)) (hp : Holds p S) :
    Holds (k1_pay13 (F := Ideal) q kb p.1, k1_pay11 (F := Ideal) q kb p.1 p.1 p.2.1, k1_pay12 (F := Ideal) q kb vb p.1 p.1 p.2.2)
      (fun r => Flash.stS Qa Ka Va (S r) b (Rw r) k) := by
  intro r
  have hm := btmax_eq q kb Qa Ka b Rw k hsc r
  obtain ⟨h1, h2, h3⟩ := hp r
  refine ⟨?_, ?_, fun e => ?_⟩
  · dsimp only
    rw [stS_m]
    refine (pay13_apply q kb p.1 r).trans ?_
    rw [h1, hm]
  · dsimp only
    rw [stS_l]
    refine (pay11_apply q kb p.1 p.2.1 r).trans ?_
    rw [h1, h2, hm]
    exact congrArg _ (Finset.sum_congr rfl fun s _ => by rw [hsc r s])
  · dsimp only
    rw [stS_acc]
    refine (pay12_apply q kb vb p.1 p.2.2 r e).trans ?_
    rw [h1, h3 e, hm]
    exact congrArg _ (Finset.sum_congr rfl fun s _ => by rw [hsc r s, hv s e])

end steps

section points
variable (V : (c : Dev nD) → (b : Ref sig .tc) → Buf (Elt Ideal) ((c : Thread nD τ).loc b))

/-- The query, key and value blocks of point `t`, and the three arrays the launch finds. -/
abbrev qB (c : Dev nD) (t : Fin cfg1.N) : Vec Ideal S1x1024x128 .bf16 := iblk1 V c 0 t
abbrev kB (c : Dev nD) (t : Fin cfg1.N) : Vec Ideal S1x1024x128 .bf16 := iblk1 V c 1 t
abbrev vB (c : Dev nD) (t : Fin cfg1.N) : Vec Ideal S1x1024x1024 .bf16 := iblk1 V c 2 t
abbrev Qarr (c : Dev nD) : A2x4096x128 := V c main_v6_0
abbrev Karr (c : Dev nD) : A2x4096x128 := V c main_v6_1
abbrev Varr (c : Dev nD) : A2x4096x1024 := V c main_v6_2

/-- The scores of a point's blocks are the arrays' scores of the point's query rows against its key rows. -/
theorem bsc_pt (c : Dev nD) (t : Fin cfg1.N) (r s : Fin 1024) :
    bsc (qB V c t) (kB V c t) r s
      = Flash.sc (Qarr V c) (Karr V c) (pb t) (Flash.key (pq t) r) (Flash.key (pk t) s) := by
  unfold bsc Flash.sc
  exact Finset.sum_congr rfl fun j _ =>
    congrArg₂ (fun x y : EReal => x * y) (iblk1_0_apply V c t r j) (iblk1_1_apply V c t s j)

/-- The streaming form's state of row `r` of point `t`'s query tile, after the point's key tile. -/
def stP (c : Dev nD) (t : Fin cfg1.N) (r : Fin 1024) : Flash.St :=
  Flash.stAt (Qarr V c) (Karr V c) (Varr V c) (pb t) (Flash.key (pq t) r) (t.val % 4)

/-- At a first key tile the scratch buffers hold the initial state. -/
theorem inv_first (c : Dev nD) (t : Fin cfg1.N) (h0 : t.val % 4 = 0) :
    Holds (scAt1 V c t.val t.isLt) (stP V c t) := by
  rw [scAt1_A V c t h0, scA_eq V c t h0]
  have hk : pk t = 0 := Fin.ext h0
  have hs := holds_first (qB V c t) (kB V c t) (vB V c t) (Qarr V c) (Karr V c) (Varr V c) (pb t)
    (fun r => Flash.key (pq t) r) (fun r s => by rw [bsc_pt V c t r s, hk])
    (fun s e => by rw [← hk]; exact iblk1_2_apply V c t s e)
  intro r
  unfold stP
  rw [h0, stAt_zero]
  exact hs r

/-- At a later key tile they hold the state the point before left, with this tile absorbed. -/
theorem inv_later (c : Dev nD) (t : Fin cfg1.N) (h0 : ¬t.val % 4 = 0)
    (ih : Holds (scAt1 V c (t.val - 1) (Nat.lt_of_le_of_lt (Nat.sub_le _ _) t.isLt))
      (stP V c ⟨t.val - 1, Nat.lt_of_le_of_lt (Nat.sub_le _ _) t.isLt⟩)) :
    Holds (scAt1 V c t.val t.isLt) (stP V c t) := by
  have hlt : (t.val - 1) % 4 + 1 < 4 := by omega
  have hk : pk t = ⟨(t.val - 1) % 4 + 1, hlt⟩ := Fin.ext (by show t.val % 4 = (t.val - 1) % 4 + 1; omega)
  have hb : pb ⟨t.val - 1, Nat.lt_of_le_of_lt (Nat.sub_le _ _) t.isLt⟩ = pb t :=
    Fin.ext (by show (t.val - 1) / 16 = t.val / 16; omega)
  have hq : pq ⟨t.val - 1, Nat.lt_of_le_of_lt (Nat.sub_le _ _) t.isLt⟩ = pq t :=
    Fin.ext (by show (t.val - 1) / 4 % 4 = t.val / 4 % 4; omega)
  have ih' : Holds (scAt1 V c (t.val - 1) (Nat.lt_of_le_of_lt (Nat.sub_le _ _) t.isLt))
      (fun r => Flash.stAt (Qarr V c) (Karr V c) (Varr V c) (pb t) (Flash.key (pq t) r) ((t.val - 1) % 4)) := by
    intro r
    have h := ih r
    unfold stP at h
    rw [hb, hq] at h
    exact h
  have hs := holds_step (qB V c t) (kB V c t) (vB V c t) (Qarr V c) (Karr V c) (Varr V c) (pb t)
    (fun r => Flash.key (pq t) r) (pk t) _ _ (fun r s => bsc_pt V c t r s) (fun s e => iblk1_2_apply V c t s e) ih'
  have e4 : t.val % 4 = (t.val - 1) % 4 + 1 := by omega
  have fin : Holds (k1_pay13 (F := Ideal) (qB V c t) (kB V c t) (scAt1 V c (t.val - 1) (Nat.lt_of_le_of_lt (Nat.sub_le _ _) t.isLt)).1,
        k1_pay11 (F := Ideal) (qB V c t) (kB V c t) (scAt1 V c (t.val - 1) (Nat.lt_of_le_of_lt (Nat.sub_le _ _) t.isLt)).1 (scAt1 V c (t.val - 1) (Nat.lt_of_le_of_lt (Nat.sub_le _ _) t.isLt)).1 (scAt1 V c (t.val - 1) (Nat.lt_of_le_of_lt (Nat.sub_le _ _) t.isLt)).2.1,
        k1_pay12 (F := Ideal) (qB V c t) (kB V c t) (vB V c t) (scAt1 V c (t.val - 1) (Nat.lt_of_le_of_lt (Nat.sub_le _ _) t.isLt)).1 (scAt1 V c (t.val - 1) (Nat.lt_of_le_of_lt (Nat.sub_le _ _) t.isLt)).1 (scAt1 V c (t.val - 1) (Nat.lt_of_le_of_lt (Nat.sub_le _ _) t.isLt)).2.2)
      (stP V c t) := by
    intro r
    have h := hs r
    unfold stP
    rw [e4, stAt_succ _ _ _ _ _ _ hlt]
    rw [hk] at h
    exact h
  by_cases h3 : t.val % 4 = 3
  · rw [scAt1_C V c t h3, scC_eq V c t h3]
    exact fin
  · rw [scAt1_B V c t h0 h3, scB_eq V c t h0 h3]
    exact fin

/-- THE INVARIANT: after every point the scratch buffers hold the streaming state of the point's rows. -/
theorem inv_all (c : Dev nD) : ∀ (n : ℕ) (hn : n < cfg1.N), Holds (scAt1 V c n hn) (stP V c ⟨n, hn⟩)
  | 0, hn => inv_first V c ⟨0, hn⟩ (Nat.zero_mod _)
  | n + 1, hn => by
    by_cases h0 : (n + 1) % 4 = 0
    · exact inv_first V c ⟨n + 1, hn⟩ h0
    · exact inv_later V c ⟨n + 1, hn⟩ h0 (inv_all c n (Nat.lt_of_succ_lt hn))

end points

section result
variable (V : (c : Dev nD) → (b : Ref sig .tc) → Buf (Elt Ideal) ((c : Thread nD τ).loc b))

/-- The output block after a last key tile: row `r` of the point's query tile is the streaming attention's output row —
    the weighted sum after the fourth tile divided by the sum of weights —, projected, plus the bias. -/
theorem out_block (c : Dev nD) (t : Fin cfg1.N) (h3 : t.val % 4 = 3) (r e' : Fin 1024) :
    (outAt1 V c t (ix3 (0 : Fin 1) r e') : EReal)
      = Flash.out (Qarr V c) (Karr V c) (Varr V c) (V c main_v5) (V c main_v7) (pb t) (Flash.key (pq t) r) e' := by
  have hinv : Holds (scAt1 V c t.val t.isLt) (stP V c t) := inv_all V c t.val t.isLt
  rw [scAt1_C V c t h3, scC_eq V c t h3] at hinv
  rw [outAt1_C V c t h3, outC_eq V c t h3]
  refine (pay14_apply _ _ _ _ r e').trans ?_
  obtain ⟨-, hl, hacc⟩ := hinv r
  dsimp only at hl hacc
  have e3 : stP V c t r = Flash.stAt (Qarr V c) (Karr V c) (Varr V c) (pb t) (Flash.key (pq t) r) 3 := by
    unfold stP; rw [h3]
  rw [e3] at hl hacc
  unfold Flash.out Flash.y
  refine congrArg₂ (fun x y : EReal => x + y) (Finset.sum_congr rfl fun e _ => ?_) (iblk1_4_apply V c t e')
  rw [hacc e, hl]
  exact congrArg _ (iblk1_3_apply V c t e e')

end result

end Val1

section
variable (V : (c : Dev nD) → (b : Ref sig .tc) → Buf (Elt Ideal) ((c : Thread nD τ).loc b))

theorem final1 (c : Dev nD) (i : S2x4096x1024.Idx) :
    (dat1 V c).arrAt 5 cfg1.N i
      = Flash.out (V c main_v6_0) (V c main_v6_1) (V c main_v6_2) (V c main_v5) (V c main_v7) (i 0) (i 1) (i 2) :=
  final1_of_block V c
    (fun i => Flash.out (V c main_v6_0) (V c main_v6_1) (V c main_v6_2) (V c main_v5) (V c main_v7) (i 0) (i 1) (i 2))
    (fun t h3 r e' => Val1.out_block V c t h3 r e') i

end

end Cert.KernelIdeal.Hand

end
-- ==== Proof.KIV.Host.lean ====
/-
  The buffers the host operations of @main prepare for the two launches, on the extended reals: the two narrow weight
  tables widened from 64 to 128 columns by zeros, the two wide ones unchanged (a change of float format is the identity
  here), the bias as a one-row array; and the arrays the first launch hands the second.
-/
import proofs.«410308_j10230612099232_3_alg».proof.Proof.KI.Vals
import proofs.«410308_j10230612099232_3_alg».proof.Proof.Spec
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Attn
variable {F : FTy → Type} [FloatOps F]

local notation "𝕄" => MT nD τ sig Unit (Elt F) ℕ (UR sig nD τ) ℕ

variable (m : (ℓ : Loc nD τ sig) → Buf (Elt Ideal) ℓ)

/-! ## The host operations' results, each as one term over the launch memory -/

/-- The query weights as the first launch finds them: the table padded on the right, then its float format changed. -/
theorem Vr0_v2_eq (c : Dev nD) : (Vr0 m c main_v2 : S1024x128.Idx → EReal) = pad S1024x128 ![0, 0] ![0, 64] ![0, 0] (m ((c : Thread nD τ).loc main_arg1) : S1024x64.Idx → EReal) (sitofp .f32 (constantI S_ 32 0#32 : IVec S_ 32) : FVec Ideal S_ .f32) pads_S1024x64_S1024x128_000_0640 h_S_ := by
  show StableHlo.after hostOps0_4 (Gen.V4 m c) (Proc.devRef .tc main_v2) = _
  after_results
  rfl

/-- The key weights likewise. -/
theorem Vr0_v3_eq (c : Dev nD) : (Vr0 m c main_v3 : S1024x128.Idx → EReal) = pad S1024x128 ![0, 0] ![0, 64] ![0, 0] (m ((c : Thread nD τ).loc main_arg2) : S1024x64.Idx → EReal) (sitofp .f32 (constantI S_ 32 0#32 : IVec S_ 32) : FVec Ideal S_ .f32) pads_S1024x64_S1024x128_000_0640 h_S_ := by
  show StableHlo.after hostOps0_4 (Gen.V4 m c) (Proc.devRef .tc main_v3) = _
  after_results
  rfl

/-- The value weights: a change of float format only. -/
theorem Vr0_v4_eq (c : Dev nD) : (Vr0 m c main_v4 : S1024x1024.Idx → EReal) = m ((c : Thread nD τ).loc main_arg3) := by
  show StableHlo.after hostOps0_4 (Gen.V4 m c) (Proc.devRef .tc main_v4) = _
  after_results
  rfl

/-- The output weights before the first launch: a change of float format only. -/
theorem V5_v5_eq (c : Dev nD) : (Gen.V5 m c main_v5 : S1024x1024.Idx → EReal) = m ((c : Thread nD τ).loc main_arg4) := by
  show StableHlo.after hostOps0_4 (Gen.V4 m c) (Proc.devRef .tc main_v5) = _
  after_results
  rfl

/-- The bias after the first launch: the vector recast as one row. -/
theorem V7_v7_eq (c : Dev nD) : (Gen.V7 m (outsA m) c main_v7 : S1x1024.Idx → EReal) = shapeCast S1x1024 (Gen.V6 m (outsA m) c main_arg5 : S1024.Idx → EReal) shapeCasts_S1024_S1x1024 := by
  show StableHlo.after hostOps1 (Gen.V6 m (outsA m) c) (Proc.devRef .tc main_v7) = _
  after_results
  rfl

/-- The padding value: the integer zero converted is the float zero. -/
theorem padval_zero (i : S_.Idx) : (sitofp .f32 (constantI S_ 32 0#32 : IVec S_ 32) : FVec Ideal S_ .f32) i = (0 : EReal) :=
  sitofp_zero

/-- A table of 64 columns widened to 128 by a padding value reads the table left of column 64 and the value from there on. -/
theorem pad64_apply (x : S1024x64.Idx → EReal) (v : S_.Idx → EReal) (d : Fin 1024) (j : Fin 128) :
    pad S1024x128 ![0, 0] ![0, 64] ![0, 0] x v pads_S1024x64_S1024x128_000_0640 h_S_ (ix2 d j)
      = if h : j.val < 64 then x (ix2 d ⟨j.val, h⟩) else v (Shape.Idx.first h_S_) := by
  by_cases h : j.val < 64
  · rw [dif_pos h]
    exact pad_apply_of_inside _ _ _ x v _ _ _ (ix2 d ⟨j.val, h⟩) (fun a => by
      match a with
      | ⟨0, _⟩ => simp
      | ⟨1, _⟩ => simp)
  · rw [dif_neg h]
    exact pad_apply_of_not_inside _ _ _ x v _ _ _ (1 : Fin 2) (by
      intro hh
      have h2 := hh.2.2
      simp at h2
      exact h h2)

/-- A table widened by zero columns, at an index. -/
theorem padded_apply (x : S1024x64.Idx → EReal) (d : Fin 1024) (j : Fin 128) :
    pad S1024x128 ![0, 0] ![0, 64] ![0, 0] x (sitofp .f32 (constantI S_ 32 0#32 : IVec S_ 32) : FVec Ideal S_ .f32) pads_S1024x64_S1024x128_000_0640 h_S_ (ix2 d j)
      = if h : j.val < 64 then x (ix2 d ⟨j.val, h⟩) else (0 : EReal) := by
  rw [pad64_apply]
  by_cases h : j.val < 64
  · rw [dif_pos h, dif_pos h]
  · rw [dif_neg h, dif_neg h]
    exact padval_zero _

/-! ## The buffers as the launches find them -/

/-- No host operation writes the activations. -/
theorem Vr0_arg0 (c : Dev nD) : Vr0 m c main_arg0 = m ((c : Thread nD τ).loc main_arg0) :=
  (Gen.V5_of m c main_arg0 (by decide)).trans <| (Gen.V4_of m c main_arg0 (by decide)).trans <| (Gen.V3_of m c main_arg0 (by decide)).trans <|
    (Gen.V2_of m c main_arg0 (by decide)).trans <| (Gen.V1_of m c main_arg0 (by decide)).trans rfl

/-- The query weights widened by 64 zero columns. -/
theorem Vr0_v2 (c : Dev nD) (d : Fin 1024) (j : Fin 128) :
    (Vr0 m c main_v2 (ix2 d j) : EReal) = (if h : j.val < 64 then (m ((c : Thread nD τ).loc main_arg1) (ix2 d ⟨j.val, h⟩) : EReal) else (0 : EReal)) := by
  exact (congrFun (Vr0_v2_eq m c) (ix2 d j)).trans (padded_apply _ d j)

/-- The key weights widened by 64 zero columns. -/
theorem Vr0_v3 (c : Dev nD) (d : Fin 1024) (j : Fin 128) :
    (Vr0 m c main_v3 (ix2 d j) : EReal) = (if h : j.val < 64 then (m ((c : Thread nD τ).loc main_arg2) (ix2 d ⟨j.val, h⟩) : EReal) else (0 : EReal)) := by
  exact (congrFun (Vr0_v3_eq m c) (ix2 d j)).trans (padded_apply _ d j)

/-- The value weights. -/
theorem Vr0_v4 (c : Dev nD) (i : S1024x1024.Idx) : (Vr0 m c main_v4 i : EReal) = m ((c : Thread nD τ).loc main_arg3) i := by
  exact congrFun (Vr0_v4_eq m c) i

/-- The output weights, as the second launch finds them. -/
theorem Vr1_v5 (c : Dev nD) (i : S1024x1024.Idx) : (Vr1 m c main_v5 i : EReal) = m ((c : Thread nD τ).loc main_arg4) i := by
  exact congrFun ((Gen.V7_of m (outsA m) c main_v5 (by decide)).trans ((Gen.V6_of m (outsA m) c main_v5 (by decide)).trans (V5_v5_eq m c))) i

/-- The bias as a one-row array, as the second launch finds it. -/
theorem Vr1_v7 (c : Dev nD) (e : Fin 1024) : (Vr1 m c main_v7 (ix2 (0 : Fin 1) e) : EReal) = m ((c : Thread nD τ).loc main_arg5) (ix1 e) := by
  refine (congrFun (V7_v7_eq m c) (ix2 (0 : Fin 1) e)).trans ?_
  rw [shapeCast_apply _ _ _ (ix1 e) (by rw [Shape.rowMajor_val_one, Shape.rowMajor_val_two]; simp)]
  exact congrFun ((Gen.V6_of m (outsA m) c main_arg5 (by decide)).trans ((Gen.V5_of m c main_arg5 (by decide)).trans <| (Gen.V4_of m c main_arg5 (by decide)).trans <| (Gen.V3_of m c main_arg5 (by decide)).trans <| (Gen.V2_of m c main_arg5 (by decide)).trans <| (Gen.V1_of m c main_arg5 (by decide)).trans rfl)) (ix1 e)

/-- The second launch finds the first launch's three arrays as the first launch left them. -/
theorem Vr1_v6_0 (c : Dev nD) : Vr1 m c main_v6_0 = (dat0 (Vr0 m) c).arrAt 4 cfg0.N := by
  exact (Gen.V7_of m (outsA m) c main_v6_0 (by decide)).trans ((congrFun (V6_AB m c) _).symm.trans ((V6B_v6_0 m c).trans (Pipeline.withArrays_arr spec0 launch0.win.arr_inj c _ _ 4)))
theorem Vr1_v6_1 (c : Dev nD) : Vr1 m c main_v6_1 = (dat0 (Vr0 m) c).arrAt 5 cfg0.N := by
  exact (Gen.V7_of m (outsA m) c main_v6_1 (by decide)).trans ((congrFun (V6_AB m c) _).symm.trans ((V6B_v6_1 m c).trans (Pipeline.withArrays_arr spec0 launch0.win.arr_inj c _ _ 5)))
theorem Vr1_v6_2 (c : Dev nD) : Vr1 m c main_v6_2 = (dat0 (Vr0 m) c).arrAt 6 cfg0.N := by
  exact (Gen.V7_of m (outsA m) c main_v6_2 (by decide)).trans ((congrFun (V6_AB m c) _).symm.trans ((V6B_v6_2 m c).trans (Pipeline.withArrays_arr spec0 launch0.win.arr_inj c _ _ 6)))

end Cert.KernelIdeal.Hand

end
-- ==== Proof.OnlineCoe.lean ====
/-
  Extended reals that are real numbers: the three constants of the attention forms, finite sums and finite maxima
  of real numbers read on the extended reals.
-/
import proofs.«410308_j10230612099232_3_alg».proof.Proof.Spec

noncomputable section

namespace Cert.Attn

open Idealize.ShloMosaic Idealize.ShloMosaic.ValueIdx

/-- The pattern `0xFF800000` is `-∞`. -/
theorem ninf_eq : ninf = ⊥ := by
  simp [ninf, Ideal.ofBits, Ideal.ieee]

/-- The pattern `0x00000000` is `0`. -/
theorem zero_eq : zero = 0 := by
  simp [zero, Ideal.ofBits, Ideal.ieee]

/-- The pattern `0x3E000000` is `2^23 · 2^(124 - 127 - 23) = 1/8`. -/
theorem cS_eq : cS = ((1 / 8 : ℝ) : EReal) := by
  have h : cS = ((8388608 : ℝ) : EReal) * (((2 ^ 26 : ℝ)⁻¹ : ℝ) : EReal) := by
    simp [cS, Ideal.ofBits, Ideal.ieee]
  rw [h, ← EReal.coe_mul]
  congr 1
  norm_num

/-- The maximum of two real numbers, read on the extended reals. -/
theorem coe_max (a b : ℝ) : ((max a b : ℝ) : EReal) = max (a : EReal) (b : EReal) :=
  EReal.coe_strictMono.monotone.map_max

/-- A finite sum of real numbers, read on the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, from `-∞`, of finitely many (at least one) real numbers is a real number: an upper bound that is
    attained. -/
theorem fold_max_real {ι : Type*} (s : Finset ι) (hs : s.Nonempty) (f : ι → ℝ) :
    ∃ M : ℝ, s.fold max (⊥ : EReal) (fun i => (f i : EReal)) = (M : EReal) ∧ (∀ i ∈ s, f i ≤ M) ∧ ∃ i ∈ s, f i = M := by
  obtain ⟨i0, hi0, hmax⟩ := Finset.exists_max_image s f hs
  refine ⟨f i0, le_antisymm ?_ ?_, hmax, i0, hi0, rfl⟩
  · rw [Finset.fold_max_le]
    exact ⟨bot_le, fun i hi => EReal.coe_le_coe_iff.2 (hmax i hi)⟩
  · rw [Finset.le_fold_max]
    exact Or.inr ⟨i0, hi0, le_rfl⟩

end Cert.Attn

end
-- ==== Proof.OnlineScore.lean ====
/-
  The scores and the value rows as real numbers: the plain form's score, and the streaming form's score over the scaled
  queries and the keys of the tables widened by zero columns, are one and the same real number.
-/
import proofs.«410308_j10230612099232_3_alg».proof.Proof.OnlineCoe

noncomputable section

namespace Cert.Attn

open Idealize.ShloMosaic Idealize.ShloMosaic.ValueIdx

/-! ## The projections at an index -/

theorem Proj.Q_apply (x : A2x4096x1024) (Wqp : A1024x128) (b : Fin 2) (r : Fin 4096) (j : Fin 128) :
    Proj.Q x Wqp (ix3 b r j) = (∑ d : Fin 1024, x (ix3 b r d) * Wqp (ix2 d j)) * cS := rfl

theorem Proj.K_apply (x : A2x4096x1024) (Wkp : A1024x128) (b : Fin 2) (s : Fin 4096) (j : Fin 128) :
    Proj.K x Wkp (ix3 b s j) = ∑ d : Fin 1024, x (ix3 b s d) * Wkp (ix2 d j) := rfl

theorem Proj.V_apply (x : A2x4096x1024) (Wv : A1024x1024) (b : Fin 2) (s : Fin 4096) (e : Fin 1024) :
    Proj.V x Wv (ix3 b s e) = Spec.v x Wv b s e := rfl

/-! ## The real scores and value rows -/

/-- The real score of query row `R` against key `s`. -/
def sRe (xR : (⟨3, ![2, 4096, 1024]⟩ : Shape).Idx → ℝ) (WqR WkR : (⟨2, ![1024, 64]⟩ : Shape).Idx → ℝ)
    (b : Fin 2) (R s : Fin 4096) : ℝ :=
  (∑ j : Fin 64, (∑ d : Fin 1024, xR (ix3 b R d) * WqR (ix2 d j)) * (∑ d : Fin 1024, xR (ix3 b s d) * WkR (ix2 d j)))
    * (1 / 8)

/-- The real value row of key `s`. -/
def vRe (xR : (⟨3, ![2, 4096, 1024]⟩ : Shape).Idx → ℝ) (WvR : (⟨2, ![1024, 1024]⟩ : Shape).Idx → ℝ)
    (b : Fin 2) (s : Fin 4096) (e : Fin 1024) : ℝ :=
  ∑ d : Fin 1024, xR (ix3 b s d) * WvR (ix2 d e)

/-- A table of 64 columns widened to 128 by zero columns. -/
def wid (W : (⟨2, ![1024, 64]⟩ : Shape).Idx → ℝ) (d : Fin 1024) (j : Fin 128) : ℝ :=
  if h : j.val < 64 then W (ix2 d ⟨j.val, h⟩) else 0

theorem wid_of_lt (W : (⟨2, ![1024, 64]⟩ : Shape).Idx → ℝ) (d : Fin 1024) (j : Fin 64) :
    wid W d ⟨j.val, by omega⟩ = W (ix2 d j) := dif_pos j.isLt

theorem wid_of_ge (W : (⟨2, ![1024, 64]⟩ : Shape).Idx → ℝ) (d : Fin 1024) (j : Fin 128) (h : 64 ≤ j.val) :
    wid W d j = 0 := dif_neg (by omega)

/-- A sum over 128 columns whose last 64 terms vanish is the sum over the first 64. -/
theorem sum_widen (f : Fin 128 → ℝ) (hf : ∀ j : Fin 128, 64 ≤ j.val → f j = 0) :
    ∑ j : Fin 128, f j = ∑ j : Fin 64, f ⟨j.val, by omega⟩ :=
  Fin.sum_trunc (a := 64) (b := 64) (f := f) fun j => hf _ (Nat.le_add_right 64 j.val)

variable {x : A2x4096x1024} {Wq Wk : A1024x64} {Wv : A1024x1024} {Wqp Wkp : A1024x128}
variable {xR : (⟨3, ![2, 4096, 1024]⟩ : Shape).Idx → ℝ} {WqR WkR : (⟨2, ![1024, 64]⟩ : Shape).Idx → ℝ}
  {WvR : (⟨2, ![1024, 1024]⟩ : Shape).Idx → ℝ}

/-- The plain form's score is the real score. -/
theorem spec_score_real (hx : ∀ i, x i = (xR i : EReal)) (hWq : ∀ i, Wq i = (WqR i : EReal))
    (hWk : ∀ i, Wk i = (WkR i : EReal)) (b : Fin 2) (R s : Fin 4096) :
    Spec.score x Wq Wk b R s = (sRe xR WqR WkR b R s : EReal) := by
  simp only [Spec.score, Spec.q, Spec.k, sRe, hx, hWq, hWk, cS_eq, ← EReal.coe_mul, ← coe_sum]

/-- The value rows are the real value rows. -/
theorem spec_v_real (hx : ∀ i, x i = (xR i : EReal)) (hWv : ∀ i, Wv i = (WvR i : EReal))
    (b : Fin 2) (s : Fin 4096) (e : Fin 1024) :
    Spec.v x Wv b s e = (vRe xR WvR b s e : EReal) := by
  simp only [Spec.v, vRe, hx, hWv, ← EReal.coe_mul, ← coe_sum]

/-- A widened table is real, with the widened real table. -/
theorem widened_real {W : A1024x64} {Wp : A1024x128} {WR : (⟨2, ![1024, 64]⟩ : Shape).Idx → ℝ}
    (hW : ∀ i, W i = (WR i : EReal))
    (hp : ∀ (d : Fin 1024) (j : Fin 128), Wp (ix2 d j) = if h : j.val < 64 then W (ix2 d ⟨j.val, h⟩) else 0)
    (d : Fin 1024) (j : Fin 128) : Wp (ix2 d j) = (wid WR d j : EReal) := by
  rw [hp, wid]
  split_ifs with h
  · exact hW _
  · exact EReal.coe_zero.symm

/-- The streaming form's score over the scaled queries and the keys of the widened tables is the real score: the 64
    added columns contribute nothing, and the scale moves out of the sum. -/
theorem flash_score_real (hx : ∀ i, x i = (xR i : EReal)) (hWq : ∀ i, Wq i = (WqR i : EReal))
    (hWk : ∀ i, Wk i = (WkR i : EReal))
    (hqp : ∀ (d : Fin 1024) (j : Fin 128), Wqp (ix2 d j) = if h : j.val < 64 then Wq (ix2 d ⟨j.val, h⟩) else 0)
    (hkp : ∀ (d : Fin 1024) (j : Fin 128), Wkp (ix2 d j) = if h : j.val < 64 then Wk (ix2 d ⟨j.val, h⟩) else 0)
    (b : Fin 2) (R s : Fin 4096) :
    Flash.sc (Proj.Q x Wqp) (Proj.K x Wkp) b R s = (sRe xR WqR WkR b R s : EReal) := by
  simp only [Flash.sc, Proj.Q_apply, Proj.K_apply, hx, widened_real hWq hqp, widened_real hWk hkp, cS_eq,
    ← EReal.coe_mul, ← coe_sum]
  congr 1
  rw [sum_widen, sRe, Finset.sum_mul]
  · refine Finset.sum_congr rfl fun j _ => ?_
    simp only [wid_of_lt]
    ring
  · intro j hj
    simp only [wid_of_ge _ _ j hj, mul_zero, Finset.sum_const_zero, zero_mul]

end Cert.Attn

end
-- ==== Proof.OnlineCore.lean ====
/-
  The streaming recurrence over real scores: after each tile the running maximum, sum and weighted sum are those of
  the keys absorbed so far, taken against their maximum; after the fourth tile these are the softmax sums over all keys.
-/
import proofs.«410308_j10230612099232_3_alg».proof.Proof.OnlineCoe

noncomputable section

namespace Cert.Attn

open Idealize.ShloMosaic Idealize.ShloMosaic.ValueIdx

namespace Flash

/-- The keys of the four tiles are all the keys, each once. -/
def keyEquiv : Fin 4 × Fin 1024 ≃ Fin 4096 where
  toFun p := key p.1 p.2
  invFun s := (⟨s.val / 1024, by omega⟩, ⟨s.val % 1024, by omega⟩)
  left_inv p := by
    obtain ⟨t, u⟩ := p
    ext <;> simp only [key] <;> omega
  right_inv s := by
    ext; simp only [key]; omega

/-- A sum over all keys, tile by tile. -/
theorem sum_tiles (f : Fin 4096 → ℝ) : ∑ t : Fin 4, ∑ u : Fin 1024, f (key t u) = ∑ s : Fin 4096, f s :=
  (Fintype.sum_prod_type' fun t u => f (key t u)).symm.trans (Equiv.sum_comp keyEquiv f)

/-- Every key lies in a tile. -/
theorem key_surj (s : Fin 4096) : ∃ t u, key t u = s :=
  ⟨(keyEquiv.symm s).1, (keyEquiv.symm s).2, keyEquiv.apply_symm_apply s⟩

variable (Qa Ka : A2x4096x128) (Va : A2x4096x1024) (b : Fin 2) (R : Fin 4096)
variable (sR : Fin 4096 → ℝ) (vR : Fin 4096 → Fin 1024 → ℝ)

/-- The state `st` has absorbed exactly the tiles of `T`: its maximum is the (attained) maximum `M` of their
    scores, its sum is the sum of `exp (score − M)` over their keys, and its accumulator the sum weighted by the
    value rows. -/
def Seen (st : St) (T : Finset (Fin 4)) : Prop :=
  ∃ M : ℝ, st.m = (M : EReal) ∧ (∀ t ∈ T, ∀ u, sR (key t u) ≤ M) ∧ (∃ t ∈ T, ∃ u, sR (key t u) = M) ∧
    st.l = ((∑ t ∈ T, ∑ u : Fin 1024, Real.exp (sR (key t u) - M) : ℝ) : EReal) ∧
    ∀ e, st.acc e = ((∑ t ∈ T, ∑ u : Fin 1024, Real.exp (sR (key t u) - M) * vR (key t u) e : ℝ) : EReal)

variable {Qa Ka Va b R sR vR}

/-- The maximum of a tile of real scores is a real number, an attained upper bound. -/
theorem tmax_real (hs : ∀ s, sc Qa Ka b R s = (sR s : EReal)) (t : Fin 4) :
    ∃ Mt : ℝ, tmax Qa Ka b R t = (Mt : EReal) ∧ (∀ u, sR (key t u) ≤ Mt) ∧ ∃ u, sR (key t u) = Mt := by
  obtain ⟨Mt, h1, h2, u, _, h3⟩ := fold_max_real (Finset.univ : Finset (Fin 1024)) Finset.univ_nonempty
    (fun u => sR (key t u))
  refine ⟨Mt, ?_, fun u => h2 u (Finset.mem_univ u), u, h3⟩
  rw [← h1, tmax, ninf_eq]
  exact congrArg (fun f => Finset.fold max (⊥ : EReal) f Finset.univ) (funext fun u => hs (key t u))

/-- One weight: `exp` of a difference of two real numbers. -/
theorem exp_sub_coe (a m : ℝ) : Ideal.exp ((a : EReal) - (m : EReal)) = ((Real.exp (a - m) : ℝ) : EReal) := by
  rw [← EReal.coe_sub, Ideal.exp_coe]

/-- The sum of a tile's weights against a real maximum. -/
theorem tile_l (hs : ∀ s, sc Qa Ka b R s = (sR s : EReal)) (t : Fin 4) (m : ℝ) :
    ∑ u : Fin 1024, Ideal.exp (sc Qa Ka b R (key t u) - (m : EReal))
      = ((∑ u : Fin 1024, Real.exp (sR (key t u) - m) : ℝ) : EReal) := by
  rw [coe_sum]
  exact Finset.sum_congr rfl fun u _ => by rw [hs, exp_sub_coe]

/-- The weighted sum of a tile's value rows against a real maximum. -/
theorem tile_acc (hs : ∀ s, sc Qa Ka b R s = (sR s : EReal)) (hv : ∀ s e, Va (ix3 b s e) = (vR s e : EReal))
    (t : Fin 4) (m : ℝ) (e : Fin 1024) :
    ∑ u : Fin 1024, Ideal.exp (sc Qa Ka b R (key t u) - (m : EReal)) * Va (ix3 b (key t u) e)
      = ((∑ u : Fin 1024, Real.exp (sR (key t u) - m) * vR (key t u) e : ℝ) : EReal) := by
  rw [coe_sum]
  exact Finset.sum_congr rfl fun u _ => by rw [hs, exp_sub_coe, hv, EReal.coe_mul]

/-- After the first tile. -/
theorem seen_st0 (hs : ∀ s, sc Qa Ka b R s = (sR s : EReal)) (hv : ∀ s e, Va (ix3 b s e) = (vR s e : EReal)) :
    Seen sR vR (st0 Qa Ka Va b R) {0} := by
  obtain ⟨M, hM, hle, u0, hu0⟩ := tmax_real hs (0 : Fin 4)
  refine ⟨M, hM, ?_, ⟨0, Finset.mem_singleton_self _, u0, hu0⟩, ?_, fun e => ?_⟩
  · intro t ht u
    rw [Finset.mem_singleton.1 ht]; exact hle u
  · show ∑ u : Fin 1024, Ideal.exp (sc Qa Ka b R (key 0 u) - tmax Qa Ka b R 0) = _
    rw [hM, tile_l hs, Finset.sum_singleton]
  · show ∑ u : Fin 1024, Ideal.exp (sc Qa Ka b R (key 0 u) - tmax Qa Ka b R 0) * Va (ix3 b (key 0 u) e) = _
    rw [hM, tile_acc hs hv, Finset.sum_singleton]

/-- Rescaling a sum of weights from the maximum `M` to a larger one `M'`. -/
theorem rescale (M M' : ℝ) (T : Finset (Fin 4)) (g : Fin 4 → Fin 1024 → ℝ) (w : Fin 4 → Fin 1024 → ℝ) :
    Real.exp (M - M') * ∑ t ∈ T, ∑ u : Fin 1024, Real.exp (g t u - M) * w t u
      = ∑ t ∈ T, ∑ u : Fin 1024, Real.exp (g t u - M') * w t u := by
  rw [Finset.mul_sum]
  refine Finset.sum_congr rfl fun t _ => ?_
  rw [Finset.mul_sum]
  refine Finset.sum_congr rfl fun u _ => ?_
  rw [← mul_assoc, ← Real.exp_add]
  congr 2; ring

/-- Absorbing one more tile. -/
theorem seen_stS (hs : ∀ s, sc Qa Ka b R s = (sR s : EReal)) (hv : ∀ s e, Va (ix3 b s e) = (vR s e : EReal))
    {p : St} {T : Finset (Fin 4)} (hp : Seen sR vR p T) (t : Fin 4) (ht : t ∉ T) :
    Seen sR vR (stS Qa Ka Va p b R t) (insert t T) := by
  obtain ⟨M, hm, hle, ⟨t0, ht0, u0, hu0⟩, hl, hacc⟩ := hp
  obtain ⟨Mt, hMt, hMtle, u1, hu1⟩ := tmax_real hs t
  have hmax : max p.m (tmax Qa Ka b R t) = ((max M Mt : ℝ) : EReal) := by rw [hm, hMt, coe_max]
  refine ⟨max M Mt, hmax, ?_, ?_, ?_, fun e => ?_⟩
  · intro t' ht' u
    rcases Finset.mem_insert.1 ht' with rfl | h
    · exact (hMtle u).trans (le_max_right _ _)
    · exact (hle t' h u).trans (le_max_left _ _)
  · rcases le_total M Mt with h | h
    · exact ⟨t, Finset.mem_insert_self _ _, u1, by rw [hu1, max_eq_right h]⟩
    · exact ⟨t0, Finset.mem_insert_of_mem ht0, u0, by rw [hu0, max_eq_left h]⟩
  · show Ideal.exp (p.m - max p.m (tmax Qa Ka b R t)) * p.l
        + ∑ u : Fin 1024, Ideal.exp (sc Qa Ka b R (key t u) - max p.m (tmax Qa Ka b R t)) = _
    rw [hmax, tile_l hs, hm, exp_sub_coe, hl, ← EReal.coe_mul, ← EReal.coe_add, Finset.sum_insert ht, add_comm]
    congr 2
    have := rescale M (max M Mt) T (fun t u => sR (key t u)) (fun _ _ => 1)
    simpa only [mul_one] using this
  · show Ideal.exp (p.m - max p.m (tmax Qa Ka b R t)) * p.acc e
        + ∑ u : Fin 1024, Ideal.exp (sc Qa Ka b R (key t u) - max p.m (tmax Qa Ka b R t)) * Va (ix3 b (key t u) e) = _
    rw [hmax, tile_acc hs hv, hm, exp_sub_coe, hacc, ← EReal.coe_mul, ← EReal.coe_add, Finset.sum_insert ht, add_comm]
    congr 2
    exact rescale M (max M Mt) T (fun t u => sR (key t u)) (fun t u => vR (key t u) e)

/-- After the fourth tile every key has been absorbed. -/
theorem seen_all (hs : ∀ s, sc Qa Ka b R s = (sR s : EReal)) (hv : ∀ s e, Va (ix3 b s e) = (vR s e : EReal)) :
    Seen sR vR (stAt Qa Ka Va b R 3) Finset.univ := by
  have h0 := seen_st0 (Qa := Qa) (Ka := Ka) (Va := Va) (b := b) (R := R) hs hv
  have h1 := seen_stS hs hv h0 1 (by decide)
  have h2 := seen_stS hs hv h1 2 (by decide)
  have h3 := seen_stS hs hv h2 3 (by decide)
  have hT : insert (3 : Fin 4) (insert 2 (insert 1 {0})) = (Finset.univ : Finset (Fin 4)) := by decide
  rw [hT] at h3
  exact h3

/-- The streaming output row over real scores and real value rows: the weighted sum of the value rows over the sum
    of the weights, both against the maximum score. -/
theorem y_real (hs : ∀ s, sc Qa Ka b R s = (sR s : EReal)) (hv : ∀ s e, Va (ix3 b s e) = (vR s e : EReal))
    (e : Fin 1024) :
    ∃ M : ℝ, (∀ s, sR s ≤ M) ∧ (∃ s, sR s = M) ∧
      y Qa Ka Va b R e = (((∑ s : Fin 4096, Real.exp (sR s - M) * vR s e) / ∑ s : Fin 4096, Real.exp (sR s - M) : ℝ) : EReal) := by
  obtain ⟨M, -, hle, ⟨t0, -, u0, hu0⟩, hl, hacc⟩ := seen_all (Qa := Qa) (Ka := Ka) (Va := Va) (b := b) (R := R) hs hv
  refine ⟨M, fun s => ?_, ⟨key t0 u0, hu0⟩, ?_⟩
  · obtain ⟨t, u, rfl⟩ := key_surj s
    exact hle t (Finset.mem_univ t) u
  · have hpos : (0 : ℝ) < ∑ s : Fin 4096, Real.exp (sR s - M) :=
      Finset.sum_pos (fun s _ => Real.exp_pos _) Finset.univ_nonempty
    rw [y, hl, hacc, sum_tiles (fun s => Real.exp (sR s - M)), sum_tiles (fun s => Real.exp (sR s - M) * vR s e),
      Ideal.div_coe hpos.ne', ← EReal.coe_mul]
    congr 1
    rw [mul_one_div]

end Flash

end Cert.Attn

end
-- ==== Proof.OnlineSpec.lean ====
/-
  The plain softmax attention over real scores and real value rows: its row maximum, weights, their sum, and the
  output row as one real quotient.
-/
import proofs.«410308_j10230612099232_3_alg».proof.Proof.OnlineCore

noncomputable section

namespace Cert.Attn

open Idealize.ShloMosaic Idealize.ShloMosaic.ValueIdx

namespace Spec

variable {x : A2x4096x1024} {Wq Wk : A1024x64} {Wv : A1024x1024} {b : Fin 2} {R : Fin 4096}
variable {sR : Fin 4096 → ℝ} {vR : Fin 4096 → Fin 1024 → ℝ}

/-- The row maximum of real scores is their (attained) maximum. -/
theorem rowMax_real (hs : ∀ s, score x Wq Wk b R s = (sR s : EReal)) (M : ℝ) (hle : ∀ s, sR s ≤ M)
    (hex : ∃ s, sR s = M) : rowMax x Wq Wk b R = (M : EReal) := by
  obtain ⟨M', h1, h2, s0, -, h3⟩ := fold_max_real (Finset.univ : Finset (Fin 4096)) Finset.univ_nonempty sR
  have hM : M' = M := by
    obtain ⟨s1, hs1⟩ := hex
    exact le_antisymm (h3 ▸ hle s0) (hs1 ▸ h2 s1 (Finset.mem_univ s1))
  rw [rowMax, ninf_eq, show (fun s => score x Wq Wk b R s) = fun s => (sR s : EReal) from funext hs, h1, hM]
  exact max_eq_right bot_le

/-- The weights of real scores. -/
theorem p_real (hs : ∀ s, score x Wq Wk b R s = (sR s : EReal)) (M : ℝ) (hle : ∀ s, sR s ≤ M)
    (hex : ∃ s, sR s = M) (s : Fin 4096) : p x Wq Wk b R s = ((Real.exp (sR s - M) : ℝ) : EReal) := by
  rw [p, hs, rowMax_real hs M hle hex, Flash.exp_sub_coe]

/-- The sum of the weights. -/
theorem denom_real (hs : ∀ s, score x Wq Wk b R s = (sR s : EReal)) (M : ℝ) (hle : ∀ s, sR s ≤ M)
    (hex : ∃ s, sR s = M) : denom x Wq Wk b R = ((∑ s : Fin 4096, Real.exp (sR s - M) : ℝ) : EReal) := by
  rw [denom, zero_eq, zero_add, coe_sum]
  exact Finset.sum_congr rfl fun s _ => p_real hs M hle hex s

/-- The plain output row over real scores and real value rows: the weighted sum of the value rows over the sum of
    the weights, both against the maximum score. -/
theorem y_real (hs : ∀ s, score x Wq Wk b R s = (sR s : EReal)) (hv : ∀ s e, v x Wv b s e = (vR s e : EReal))
    (M : ℝ) (hle : ∀ s, sR s ≤ M) (hex : ∃ s, sR s = M) (e : Fin 1024) :
    y x Wq Wk Wv b R e
      = (((∑ s : Fin 4096, Real.exp (sR s - M) * vR s e) / ∑ s : Fin 4096, Real.exp (sR s - M) : ℝ) : EReal) := by
  have hpos : (0 : ℝ) < ∑ s : Fin 4096, Real.exp (sR s - M) :=
    Finset.sum_pos (fun s _ => Real.exp_pos _) Finset.univ_nonempty
  rw [y, Finset.sum_div, coe_sum]
  refine Finset.sum_congr rfl fun s _ => ?_
  rw [attn, p_real hs M hle hex, denom_real hs M hle hex, Ideal.div_coe hpos.ne', hv, ← EReal.coe_mul, ← EReal.coe_mul]
  congr 1
  ring

end Spec

end Cert.Attn

end
-- ==== Proof.Online.lean ====
/-
  The streaming softmax over four tiles, fed by the three projections, is the plain softmax attention.
-/
import proofs.«410308_j10230612099232_3_alg».proof.Proof.OnlineScore
import proofs.«410308_j10230612099232_3_alg».proof.Proof.OnlineSpec

noncomputable section

namespace Cert.Attn

open Idealize.ShloMosaic Idealize.ShloMosaic.ValueIdx

/-- With finite inputs, weight tables widened by zero columns, and the bias read as a one-row array, the streaming
    form over the projections computes the plain form, entry by entry. -/
theorem flash_eq_spec (x : A2x4096x1024) (Wq Wk : A1024x64) (Wv Wo : A1024x1024) (bo : A1024)
    (Wqp Wkp : A1024x128) (bo2 : A1x1024)
    (hx : ∀ i, ∃ r : ℝ, x i = (r : EReal)) (hWq : ∀ i, ∃ r : ℝ, Wq i = (r : EReal))
    (hWk : ∀ i, ∃ r : ℝ, Wk i = (r : EReal)) (hWv : ∀ i, ∃ r : ℝ, Wv i = (r : EReal))
    (hqp : ∀ (d : Fin 1024) (j : Fin 128), Wqp (ix2 d j) = if h : j.val < 64 then Wq (ix2 d ⟨j.val, h⟩) else 0)
    (hkp : ∀ (d : Fin 1024) (j : Fin 128), Wkp (ix2 d j) = if h : j.val < 64 then Wk (ix2 d ⟨j.val, h⟩) else 0)
    (hbo : ∀ e : Fin 1024, bo2 (ix2 0 e) = bo (ix1 e))
    (b : Fin 2) (R : Fin 4096) (e' : Fin 1024) :
    Flash.out (Proj.Q x Wqp) (Proj.K x Wkp) (Proj.V x Wv) Wo bo2 b R e' = Spec.out x Wq Wk Wv Wo bo b R e' := by
  -- the inputs as arrays of real numbers
  choose xR hxR using hx
  choose WqR hWqR using hWq
  choose WkR hWkR using hWk
  choose WvR hWvR using hWv
  -- both forms have the same real scores and the same real value rows
  have hs1 : ∀ s, Flash.sc (Proj.Q x Wqp) (Proj.K x Wkp) b R s = (sRe xR WqR WkR b R s : EReal) :=
    fun s => flash_score_real hxR hWqR hWkR hqp hkp b R s
  have hs2 : ∀ s, Spec.score x Wq Wk b R s = (sRe xR WqR WkR b R s : EReal) :=
    fun s => spec_score_real hxR hWqR hWkR b R s
  have hv2 : ∀ s e, Spec.v x Wv b s e = (vRe xR WvR b s e : EReal) :=
    fun s e => spec_v_real hxR hWvR b s e
  have hv1 : ∀ s e, Proj.V x Wv (ix3 b s e) = (vRe xR WvR b s e : EReal) :=
    fun s e => (Proj.V_apply x Wv b s e).trans (hv2 s e)
  -- so the two output rows are the same real quotient
  have hy : ∀ e, Flash.y (Proj.Q x Wqp) (Proj.K x Wkp) (Proj.V x Wv) b R e = Spec.y x Wq Wk Wv b R e := by
    intro e
    obtain ⟨M, hle, hex, hF⟩ := Flash.y_real hs1 hv1 e
    rw [hF, Spec.y_real hs2 hv2 M hle hex e]
  -- and the projection and the bias are applied to equal rows
  rw [Flash.out, Spec.out, hbo]
  simp only [hy]

end Cert.Attn

end
-- ==== Proof.KIV.Bridge.lean ====
/-
  The idealized kernel's result, entry by entry, is the plain softmax attention of its arguments when these are
  finite: the second launch leaves the streaming form over the arrays it finds; those are the first launch's three
  projections of the activations (against weight tables the host widened by zero columns), the output weights and the
  bias as a one-row array; and the streaming form over the projections is the plain form.
-/
import proofs.«410308_j10230612099232_3_alg».proof.Proof.KI.Frame
import proofs.«410308_j10230612099232_3_alg».proof.Proof.KIV.Val0
import proofs.«410308_j10230612099232_3_alg».proof.Proof.KIV.Val1
import proofs.«410308_j10230612099232_3_alg».proof.Proof.KIV.Host
import proofs.«410308_j10230612099232_3_alg».proof.Proof.Online

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Attn
variable {F : FTy → Type} [FloatOps F]

local notation "𝕄" => MT nD τ sig Unit (Elt F) ℕ (UR sig nD τ) ℕ

/-- The streaming form depends on its five arrays only through their entries. -/
theorem Flash_out_congr {Qa Qa' Ka Ka' : A2x4096x128} {Va Va' : A2x4096x1024} {Wo Wo' : A1024x1024} {bo2 bo2' : A1x1024}
    (hQ : ∀ i, Qa i = Qa' i) (hK : ∀ i, Ka i = Ka' i) (hV : ∀ i, Va i = Va' i) (hW : ∀ i, Wo i = Wo' i) (hb : ∀ i, bo2 i = bo2' i)
    (b : Fin 2) (R : Fin 4096) (e' : Fin 1024) :
    Flash.out Qa Ka Va Wo bo2 b R e' = Flash.out Qa' Ka' Va' Wo' bo2' b R e' := by
  obtain rfl : Qa = Qa' := funext hQ
  obtain rfl : Ka = Ka' := funext hK
  obtain rfl : Va = Va' := funext hV
  obtain rfl : Wo = Wo' := funext hW
  obtain rfl : bo2 = bo2' := funext hb
  rfl

/-- The three projections depend on their arrays only through their entries. -/
theorem ProjQ_congr {x x' : A2x4096x1024} {w w' : A1024x128} (hx : ∀ i, x i = x' i) (hw : ∀ i, w i = w' i) (i) :
    Proj.Q x w i = Proj.Q x' w' i := by
  obtain rfl : x = x' := funext hx
  obtain rfl : w = w' := funext hw
  rfl
theorem ProjK_congr {x x' : A2x4096x1024} {w w' : A1024x128} (hx : ∀ i, x i = x' i) (hw : ∀ i, w i = w' i) (i) :
    Proj.K x w i = Proj.K x' w' i := by
  obtain rfl : x = x' := funext hx
  obtain rfl : w = w' := funext hw
  rfl
theorem ProjV_congr {x x' : A2x4096x1024} {w w' : A1024x1024} (hx : ∀ i, x i = x' i) (hw : ∀ i, w i = w' i) (i) :
    Proj.V x w i = Proj.V x' w' i := by
  obtain rfl : x = x' := funext hx
  obtain rfl : w = w' := funext hw
  rfl

variable (m : (ℓ : Loc nD τ sig) → Buf (Elt Ideal) ℓ)

/-- THE KERNEL'S VALUE. With finite activations and projection weights, the result buffer the run ends with holds the plain
    softmax attention of the arguments, entry by entry. -/
theorem kernel_value (c : Dev nD)
    (hx : ∀ i, ∃ r : ℝ, (m ((c : Thread nD τ).loc main_arg0) i : EReal) = (r : EReal))
    (hWq : ∀ i, ∃ r : ℝ, (m ((c : Thread nD τ).loc main_arg1) i : EReal) = (r : EReal))
    (hWk : ∀ i, ∃ r : ℝ, (m ((c : Thread nD τ).loc main_arg2) i : EReal) = (r : EReal))
    (hWv : ∀ i, ∃ r : ℝ, (m ((c : Thread nD τ).loc main_arg3) i : EReal) = (r : EReal))
    (i : S2x4096x1024.Idx) :
    (outsB m 8 main_v8 c i : EReal)
      = Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (i 0) (i 1) (i 2) := by
  rw [outsB_main_v8 m c, final1 (Vr1 m) c i]
  refine (Flash_out_congr (Qa' := Proj.Q (m ((c : Thread nD τ).loc main_arg0)) (Vr0 m c main_v2))
      (Ka' := Proj.K (m ((c : Thread nD τ).loc main_arg0)) (Vr0 m c main_v3))
      (Va' := Proj.V (m ((c : Thread nD τ).loc main_arg0)) (m ((c : Thread nD τ).loc main_arg3)))
      (Wo' := m ((c : Thread nD τ).loc main_arg4)) (bo2' := Vr1 m c main_v7)
      (fun j => ?_) (fun j => ?_) (fun j => ?_) (fun j => Vr1_v5 m c j) (fun _ => rfl) (i 0) (i 1) (i 2)).trans ?_
  · rw [Vr1_v6_0 m c, final0_4 (Vr0 m) c j]
    exact ProjQ_congr (fun k => congrFun (Vr0_arg0 m c) k) (fun _ => rfl) j
  · rw [Vr1_v6_1 m c, final0_5 (Vr0 m) c j]
    exact ProjK_congr (fun k => congrFun (Vr0_arg0 m c) k) (fun _ => rfl) j
  · rw [Vr1_v6_2 m c, final0_6 (Vr0 m) c j]
    exact ProjV_congr (fun k => congrFun (Vr0_arg0 m c) k) (fun k => Vr0_v4 m c k) j
  · exact flash_eq_spec _ _ _ _ _ _ _ _ _ hx hWq hWk hWv (fun d j => Vr0_v2 m c d j) (fun d j => Vr0_v3 m c d j)
      (fun e => Vr1_v7 m c e) (i 0) (i 1) (i 2)

end Cert.KernelIdeal.Hand

end
-- ==== Proof.RefSpec.lean ====
/-
  The reference program's result, read at the extended reals, is the plain form of scaled-dot-product attention:
  each stage of the program, taken at an index written by its coordinates, is the corresponding quantity of
  the plain form — the three projections, the scaled scores, the row maximum (a fold of max over the 4096 keys,
  started from -∞ and compared with -∞ once more), the exponentials, their sum, the quotient, the weighted sum of
  the value rows, and the output projection with its bias.
-/
import proofs.«410308_j10230612099232_3_alg».proof.Proof.Gen.ReferenceIdeal.Read
import proofs.«410308_j10230612099232_3_alg».proof.Proof.Spec
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.Attn

variable (x0 : (⟨S2x4096x1024, .f32⟩ : BufTy).Contents (Elt Ideal))
  (x1 x2 : (⟨S1024x64, .f32⟩ : BufTy).Contents (Elt Ideal))
  (x3 x4 : (⟨S1024x1024, .f32⟩ : BufTy).Contents (Elt Ideal))
  (x5 : (⟨S1024, .f32⟩ : BufTy).Contents (Elt Ideal))

/-- The query projection at (b, r, j): the row x[b, r, :] against the column Wq[:, j]. -/
theorem q_stage (b : Fin 2) (r : Fin 4096) (j : Fin 64) :
    val_main_v0 (F := Ideal) x0 x1 (ix3 b r j) = Spec.q x0 x1 b r j := by
  rw [val_main_v0_apply]
  unfold Spec.q
  refine Finset.sum_congr rfl fun d _ => ?_
  have el : lidx_main_v0 (ix3 b r j) d = ix3 b r d :=
    funext fun a => by match a with | ⟨0, _⟩ => rfl | ⟨1, _⟩ => rfl | ⟨2, _⟩ => rfl
  have er : ridx_main_v0 (ix3 b r j) d = ix2 d j :=
    funext fun a => by match a with | ⟨0, _⟩ => rfl | ⟨1, _⟩ => rfl
  rw [el, er]

/-- The key projection at (b, s, j). -/
theorem k_stage (b : Fin 2) (s : Fin 4096) (j : Fin 64) :
    val_main_v1 (F := Ideal) x0 x2 (ix3 b s j) = Spec.k x0 x2 b s j := by
  rw [val_main_v1_apply]
  unfold Spec.k
  refine Finset.sum_congr rfl fun d _ => ?_
  have el : lidx_main_v1 (ix3 b s j) d = ix3 b s d :=
    funext fun a => by match a with | ⟨0, _⟩ => rfl | ⟨1, _⟩ => rfl | ⟨2, _⟩ => rfl
  have er : ridx_main_v1 (ix3 b s j) d = ix2 d j :=
    funext fun a => by match a with | ⟨0, _⟩ => rfl | ⟨1, _⟩ => rfl
  rw [el, er]

/-- The value projection at (b, s, e). -/
theorem v_stage (b : Fin 2) (s : Fin 4096) (e : Fin 1024) :
    val_main_v2 (F := Ideal) x0 x3 (ix3 b s e) = Spec.v x0 x3 b s e := by
  rw [val_main_v2_apply]
  unfold Spec.v
  refine Finset.sum_congr rfl fun d _ => ?_
  have el : lidx_main_v2 (ix3 b s e) d = ix3 b s d :=
    funext fun a => by match a with | ⟨0, _⟩ => rfl | ⟨1, _⟩ => rfl | ⟨2, _⟩ => rfl
  have er : ridx_main_v2 (ix3 b s e) d = ix2 d e :=
    funext fun a => by match a with | ⟨0, _⟩ => rfl | ⟨1, _⟩ => rfl
  rw [el, er]

/-- The scaled score at (b, r, s): the contraction of the query row with the key row over the 64 coordinates,
    times the scale. -/
theorem score_stage (b : Fin 2) (r s : Fin 4096) :
    val_main_v5 (F := Ideal) x0 x1 x2 (ix3 b r s) = Spec.score x0 x1 x2 b r s := by
  rw [val_main_v5_apply, val_main_v3_apply, val_main_v4_apply, val_main_cst_apply, Ideal.mulf_def, Ideal.ofBits_def]
  unfold Spec.score
  refine congrArg (· * cS) (Finset.sum_congr rfl fun j _ => ?_)
  have el : lidx_main_v3 (ix3 b r s) j = ix3 b r j :=
    funext fun a => by match a with | ⟨0, _⟩ => rfl | ⟨1, _⟩ => rfl | ⟨2, _⟩ => rfl
  have er : ridx_main_v3 (ix3 b r s) j = ix3 b s j :=
    funext fun a => by match a with | ⟨0, _⟩ => rfl | ⟨1, _⟩ => rfl | ⟨2, _⟩ => rfl
  rw [el, er, q_stage, k_stage]

/-- A score row's maximum as the program takes it: the fold of max, from -∞, over the 4096 keys of the row. -/
theorem max_stage (b : Fin 2) (r : Fin 4096) :
    val_main_v6 (F := Ideal) x0 x1 x2 (ix2 b r)
      = (Finset.univ : Finset (Fin 4096)).fold max ninf (fun s => Spec.score x0 x1 x2 b r s) := by
  unfold val_main_v6
  have hred : S2x4096x4096.Reduces [2] S2x4096 := by decide
  have key : ∀ s : Fin 4096,
      val_main_v5 (F := Ideal) x0 x1 x2 (hred.lift (ix2 b r) s) = Spec.score x0 x1 x2 b r s := fun s => by
    have e : hred.lift (ix2 b r) s = ix3 b r s :=
      funext fun a => Fin.ext (by match a with | ⟨0, _⟩ => rfl | ⟨1, _⟩ => rfl | ⟨2, _⟩ => rfl)
    rw [e, score_stage]
  generalize val_main_v5 (F := Ideal) x0 x1 x2 = y at key ⊢
  have h1 := Host.reduce_eq_fold_single (a := (2 : Fin 3)) (FloatOps.maximumf (F := Ideal) (φ := .f32)) y
    (val_main_cst_0 (F := Ideal)) reducesTo_S2x4096x4096_S2x4096_d2 hred h_S_ (ix2 b r)
  rw [h1]
  exact Finset.fold_congr fun s _ => key s

/-- The row maximum: the fold above compared once more with -∞. -/
theorem rowMax_stage (b : Fin 2) (r : Fin 4096) :
    val_main_v8 (F := Ideal) x0 x1 x2 (ix2 b r) = Spec.rowMax x0 x1 x2 b r := by
  rw [val_main_v8_apply, val_main_v7_apply, val_main_cst_1_apply, max_stage, Ideal.maximumf_def, Ideal.ofBits_def]
  rfl

/-- The unnormalised weight at (b, r, s): the exponential of the score less the row maximum. -/
theorem p_stage (b : Fin 2) (r s : Fin 4096) :
    val_main_v12 (F := Ideal) x0 x1 x2 (ix3 b r s) = Spec.p x0 x1 x2 b r s := by
  have e : idx_main_v9 (idx_main_v10 (ix3 b r s)) = ix2 b r :=
    funext fun a => by match a with | ⟨0, _⟩ => rfl | ⟨1, _⟩ => rfl
  rw [val_main_v12_apply, val_main_v11_apply, val_main_v10_apply, val_main_v9_apply, e, score_stage, rowMax_stage,
    Ideal.subf_def, Ideal.hostUnary_exp_def]
  rfl

/-- The sum of a row's weights, started from +0. -/
theorem denom_stage (b : Fin 2) (r : Fin 4096) :
    val_main_v13 (F := Ideal) x0 x1 x2 (ix2 b r) = Spec.denom x0 x1 x2 b r := by
  rw [val_main_v13_apply, val_main_cst_2_apply, Ideal.ofBits_def]
  unfold Spec.denom
  refine congrArg (zero + ·) (Finset.sum_congr rfl fun s _ => ?_)
  have e : idx_main_v13 (ix2 b r) s = ix3 b r s :=
    funext fun a => by match a with | ⟨0, _⟩ => rfl | ⟨1, _⟩ => rfl | ⟨2, _⟩ => rfl
  rw [e, p_stage]

/-- The softmax weight at (b, r, s): the weight over the row's sum. -/
theorem attn_stage (b : Fin 2) (r s : Fin 4096) :
    val_main_v16 (F := Ideal) x0 x1 x2 (ix3 b r s) = Spec.attn x0 x1 x2 b r s := by
  have e : idx_main_v14 (idx_main_v15 (ix3 b r s)) = ix2 b r :=
    funext fun a => by match a with | ⟨0, _⟩ => rfl | ⟨1, _⟩ => rfl
  rw [val_main_v16_apply, val_main_v15_apply, val_main_v14_apply, e, p_stage, denom_stage, Ideal.hostDivf_def]
  rfl

/-- The attention output at (b, r, e): the weights of row r against column e of the value rows. -/
theorem y_stage (b : Fin 2) (r : Fin 4096) (e : Fin 1024) :
    val_main_v17 (F := Ideal) x0 x1 x2 x3 (ix3 b r e) = Spec.y x0 x1 x2 x3 b r e := by
  rw [val_main_v17_apply]
  unfold Spec.y
  refine Finset.sum_congr rfl fun s _ => ?_
  have el : lidx_main_v17 (ix3 b r e) s = ix3 b r s :=
    funext fun a => by match a with | ⟨0, _⟩ => rfl | ⟨1, _⟩ => rfl | ⟨2, _⟩ => rfl
  have er : ridx_main_v17 (ix3 b r e) s = ix3 b s e :=
    funext fun a => by match a with | ⟨0, _⟩ => rfl | ⟨1, _⟩ => rfl | ⟨2, _⟩ => rfl
  rw [el, er, attn_stage, v_stage]

/-- The projected output with its bias at (b, r, e'). -/
theorem out_stage (b : Fin 2) (r : Fin 4096) (e' : Fin 1024) :
    val_main_v21 (F := Ideal) x0 x1 x2 x3 x4 x5 (ix3 b r e') = Spec.out x0 x1 x2 x3 x4 x5 b r e' := by
  have eb : idx_main_v19 (idx_main_v20 (ix3 b r e')) = ix1 e' :=
    funext fun a => by match a with | ⟨0, _⟩ => rfl
  rw [val_main_v21_apply, val_main_v18_apply, val_main_v20_apply, val_main_v19_apply, eb, Ideal.addf_def]
  unfold Spec.out
  refine congrArg (· + x5 (ix1 e')) (Finset.sum_congr rfl fun e _ => ?_)
  have el : lidx_main_v18 (ix3 b r e') e = ix3 b r e :=
    funext fun a => by match a with | ⟨0, _⟩ => rfl | ⟨1, _⟩ => rfl | ⟨2, _⟩ => rfl
  have er : ridx_main_v18 (ix3 b r e') e = ix2 e e' :=
    funext fun a => by match a with | ⟨0, _⟩ => rfl | ⟨1, _⟩ => rfl
  rw [el, er, y_stage]

/-- The reference program's result at every index is the plain form at the index's coordinates. -/
theorem ref_eq_spec (x0 : (⟨S2x4096x1024, .f32⟩ : BufTy).Contents (Elt Ideal)) (x1 x2 : (⟨S1024x64, .f32⟩ : BufTy).Contents (Elt Ideal)) (x3 x4 : (⟨S1024x1024, .f32⟩ : BufTy).Contents (Elt Ideal)) (x5 : (⟨S1024, .f32⟩ : BufTy).Contents (Elt Ideal)) (i : S2x4096x1024.Idx) :
    Cert.ReferenceIdeal.Read.val_main_v21 (F := Ideal) x0 x1 x2 x3 x4 x5 i = Cert.Attn.Spec.out x0 x1 x2 x3 x4 x5 (i 0) (i 1) (i 2) := by
  obtain ⟨b, r, e, rfl⟩ : ∃ (b : Fin 2) (r : Fin 4096) (e : Fin 1024), i = ValueIdx.ix3 b r e :=
    ⟨i 0, i 1, i 2, ValueIdx.eq_ix3 i⟩
  exact out_stage x0 x1 x2 x3 x4 x5 b r e

end Cert.ReferenceIdeal.RefValue

end
-- ==== Proof.Finite.lean ====
/-
  Finiteness of the inputs, read back from the precondition.

  The precondition is the conjunction, over the six input arrays, of "every entry `x` has `|x| < +∞`", each
  conjunct being one reduction by `and` of the entrywise comparisons down to a single truth value.  On the
  extended reals `|x|` is `max x (-x)`, which is `⊤` at both `⊤` and `⊥`; so `|x| < ⊤` holds exactly when
  `x` is (the image of) a real number.  Hence: if the precondition evaluates to true, every entry of every
  input array is a real number.
-/
import Idealize.ShloMosaic.Lib.ReduceAll
import Idealize.ShloMosaic.PureOps.Ideal.Laws
import Idealize.ShloMosaic.Lib.ValueIdx
import proofs.«410308_j10230612099232_3_alg».proof.Defs

noncomputable section

namespace Cert.Finite

open Idealize.ShloMosaic Idealize.ShloMosaic.ValueIdx Idealize.SL.Sem Cert.Pre_finite_inputs

/-- The shape of a scalar has exactly one index. -/
instance : Subsingleton S_.Idx := ⟨fun a b => funext fun d => d.elim0⟩

/-- The f32 pattern `0x7F800000` denotes `+∞`. -/
theorem inf_eq_top : Ideal.ofBits .f32 0x7F800000#32 = (⊤ : EReal) := by
  simp [Ideal.ofBits, Ideal.ieee]

/-- An extended real whose absolute value `max x (-x)` lies strictly below `+∞` is a real number:
    `⊤` fails because `max ⊤ ⊥ = ⊤`, and `⊥` fails because `max ⊥ ⊤ = ⊤`. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => exact absurd h (by simp [Ideal.cmp])
  | coe r => exact ⟨r, rfl⟩
  | top => exact absurd h (by simp [Ideal.cmp])

/-- One array: if the conjunction over all entries of `|a i| < +∞` is true, every entry of `a` is a real. -/
theorem real_of_all {s : Shape} {axes : List (Fin s.rank)} (hb : S_.BroadcastsInDim s (![] : Fin 0 → Fin s.rank))
    (hr : s.ReducesTo axes S_) (h0 : 0 < S_.numel) (a : FVec Ideal s .f32)
    (e : Host.reduce IntOp.andi
          (cmpf .olt (Host.absf a) (broadcastInDim s ![] hb (constant (F := Ideal) S_ .f32 0x7F800000#32)))
          (constantI S_ 1 1#1) hr h0 ix0 = 1#1) :
    ∀ i, ∃ r : ℝ, a i = (r : EReal) := fun i =>
  real_of_abs_lt_inf (a i) (Host.reduce_andi_all _ _ hr h0 ix0 e i)

variable [hPre_finite_inputs : Cert.Pre_finite_inputs.Facts]

/-- The precondition on six arrays gives: every entry of each of them is a real number.  The conjunction is
    split from the outside in (it is nested to the left), and each conjunct is one array's `real_of_all`. -/
theorem real_of_pre
    (a0 : FVec Ideal S2x4096x1024 .f32) (a1 : FVec Ideal S1024x64 .f32) (a2 : FVec Ideal S1024x64 .f32)
    (a3 : FVec Ideal S1024x1024 .f32) (a4 : FVec Ideal S1024x1024 .f32) (a5 : FVec Ideal S1024 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h' := congrFun h ix0
  dsimp only [Cert.Pre_finite_inputs.fn, Cert.Pre_finite_inputs.fn_part1, andi] at h'
  obtain ⟨h04, e5⟩ := IntOp.andi_eq_one.1 h'
  obtain ⟨h03, e4⟩ := IntOp.andi_eq_one.1 h04
  obtain ⟨h02, e3⟩ := IntOp.andi_eq_one.1 h03
  obtain ⟨h01, e2⟩ := IntOp.andi_eq_one.1 h02
  obtain ⟨e0, e1⟩ := IntOp.andi_eq_one.1 h01
  exact ⟨real_of_all _ _ _ a0 e0, real_of_all _ _ _ a1 e1, real_of_all _ _ _ a2 e2, real_of_all _ _ _ a3 e3,
    real_of_all _ _ _ a4 e4, real_of_all _ _ _ a5 e5⟩

/-- The same for the six argument arrays of the idealized kernel, on every device. -/
theorem real_of_pre_kernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal)) :=
  real_of_pre _ _ _ _ _ _ (h c)

end Cert.Finite

end
-- ==== Proof.lean ====
/-
  Scaled-dot-product attention with a softmax over 4096 keys, an output projection and a bias, computed by two
  chained kernels — three projections (the queries already multiplied by the score scale 1/8, the narrow weight tables
  widened by zero columns), then a streaming softmax over four tiles of 1024 keys with a running maximum, a running sum
  of weights and a running weighted sum, one exact division after the last tile, the projection and the bias — against
  the plain form: scores `(q·k)/8`, the row maximum, `exp (score − max)`, their sum, the quotient, the weighted sum of the
  value rows, the projection and the bias.

  On the extended reals, with finite inputs, the two are one function of the arguments:
  * the zero columns contribute nothing to a score, and the scale moves out of the sum (finite numbers distribute);
  * absorbing a tile rescales the running sums by `exp (m_old − m_new)`, and `exp (m_old − m_new) · exp (s − m_old) =
    exp (s − m_new)`, so after the last tile the running sums are the plain sums taken against the global maximum;
  * dividing the weighted sum by the sum of weights is summing the normalised weights against the value rows.

  The three programs run to the end, fault nowhere and leave their arguments unchanged: each kernel launch is a
  pipeline whose body is run once per grid point (the second one's running state carried from point to point in three
  scratch buffers), and the reference is a straight line of host operations.
-/
import proofs.«410308_j10230612099232_3_alg».proof.Defs
import proofs.«410308_j10230612099232_3_alg».proof.Proof.Gen.Kernel
import proofs.«410308_j10230612099232_3_alg».proof.Proof.Gen.KernelIdeal
import proofs.«410308_j10230612099232_3_alg».proof.Proof.Gen.ReferenceIdeal
import proofs.«410308_j10230612099232_3_alg».proof.Proof.Gen.Pre_finite_inputs
import proofs.«410308_j10230612099232_3_alg».proof.Proof.Gen.ReferenceIdeal.Run
import proofs.«410308_j10230612099232_3_alg».proof.Proof.Gen.ReferenceIdeal.Read
import proofs.«410308_j10230612099232_3_alg».proof.Proof.K.Frame
import proofs.«410308_j10230612099232_3_alg».proof.Proof.KIV.Bridge
import proofs.«410308_j10230612099232_3_alg».proof.Proof.RefSpec
import proofs.«410308_j10230612099232_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel :=
  fun m ρ _ => Cert.Kernel.Hand.frame (F := Bits) m ρ

/-- So does its idealization. -/
theorem frame_ki : Cert.frame_KernelIdeal :=
  fun m ρ _ => Cert.KernelIdeal.Hand.frame (F := Ideal) m ρ

/-- The reference is a straight line of host operations: its run, with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories agreeing on finite arguments, the kernel program's result array and the
    reference's are equal entry by entry: both are the plain softmax attention of the arguments. -/
theorem algebraic : Cert.algebraic_KernelIdeal_ReferenceIdeal := by
  intro m ρ m' ρ' hpre hagree
  refine ⟨fun c => Cert.KernelIdeal.Hand.outsB m 8 Cert.KernelIdeal.main_v8 c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq]
  funext i
  obtain ⟨hx, hq, hk, hv, -, -⟩ := Cert.Finite.real_of_pre_kernelIdeal m hpre c
  rw [Cert.ReferenceIdeal.RefValue.ref_eq_spec, (hagree c).1, (hagree c).2.1, (hagree c).2.2.1, (hagree c).2.2.2.1,
    (hagree c).2.2.2.2.1, (hagree c).2.2.2.2.2]
  exact (Cert.KernelIdeal.Hand.kernel_value m c hx hq hk hv i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
